-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S8192 : Shape := ⟨1, ![8192]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part2 {F : FTy → Type} [FloatOps F] (main_arg1 : FVec F S8192x8192 .f32) (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : IVec S8192x8192 32 := iotaInDim S8192x8192 32 0
  let main_v40 : IVec S8192x8192 32 := iotaInDim S8192x8192 32 1
  let main_c_14 : IVec S_ 32 := constantI S_ 32 0#32
  let main_v41 : IVec S8192x8192 32 := broadcastInDim S8192x8192 ![] bcast_S_S8192x8192 main_c_14
  let main_v42 : IVec S8192x8192 32 := addi main_v39 main_v41
  let main_v43 : IVec S8192x8192 1 := cmpi .eq main_v42 main_v40
  let main_v44 : FVec F S8192x8192 .f32 := uitofp .f32 main_v43
  let main_v45 : FVec F S8192x8192 .f32 := addf main_arg1 main_v44
  let main_cst_15 : FVec F S_ .f32 := constant S_ .f32 0x00000000#32
  let main_v46 : FVec F S8192 .f32 := (fun x v => Host.reduceAdd x v reducesTo_S8192x8192_S8192_d1 h_S_) main_v45 main_cst_15
  let main_cst_16 : FVec F S_ .f32 := constant S_ .f32 0x00000000#32
  let main_v47 : FVec F S8192 .f32 := broadcastInDim S8192 ![] bcast_S_S8192 main_cst_16
  let main_v48 : IVec S8192 1 := cmpf .ogt main_v46 main_v47
  let main_c_17 : IVec S_ 1 := constantI S_ 1 1#1
  let main_v49 : IVec S_ 1 := (fun x v => Host.reduce IntOp.andi x v reducesTo_S8192_S_d0 h_S_) main_v48 main_c_17
  let main_v50 : IVec S_ 1 := andi main_v38 main_v49
  main_v50

def fn_part1 {F : FTy → Type} [FloatOps F] (main_arg1 : FVec F S8192x8192 .f32) (main_arg4 : FVec F S128x128 .f32) (main_arg5 : FVec F S128 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg1 main_arg7 main_v33

def fn {F : FTy → Type} [FloatOps F] (main_arg0 : FVec F S8192x64 .f32) (main_arg1 : FVec F S8192x8192 .f32) (main_arg2 : FVec F S64x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg4 main_arg5 main_arg6 main_arg7 main_v13 main_v16
-- ==== Kernel.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S8192x128 : Shape := ⟨2, ![8192, 128]⟩
abbrev S1024x1024 : Shape := ⟨2, ![1024, 1024]⟩
abbrev S1024x64 : Shape := ⟨2, ![1024, 64]⟩
abbrev S1024x1 : Shape := ⟨2, ![1024, 1]⟩
abbrev S1024x128 : Shape := ⟨2, ![1024, 128]⟩
abbrev S1x128 : Shape := ⟨2, ![1, 128]⟩
abbrev S1x64 : Shape := ⟨2, ![1, 64]⟩

abbrev nBuf : Space → Nat
  | .hbm => 12
  | .vmem => 49
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x64, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S64x128, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x1024, .f32⟩
  | .local _ .vmem, ⟨20, _⟩ => ⟨S1024x1024, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S128x128, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S128, .f32⟩
  | .local _ .vmem, ⟨31, _⟩ => ⟨S1024x128, .f32⟩
  | .local _ .vmem, ⟨32, _⟩ => ⟨S1024x128, .f32⟩
  | .local _ .vmem, ⟨33, _⟩ => ⟨S1024x128, .f32⟩
  | .local _ .vmem, ⟨34, _⟩ => ⟨S1024x1024, .f32⟩
  | .local _ .vmem, ⟨35, _⟩ => ⟨S1024x1024, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S128x64, .f32⟩
  | .local _ .vmem, ⟨41, _⟩ => ⟨S1024x1, .f32⟩
  | .local _ .vmem, ⟨42, _⟩ => ⟨S1024x1, .f32⟩
  | .local _ .vmem, ⟨43, _⟩ => ⟨S1024x1, .f32⟩
  | .local _ .vmem, ⟨44, _⟩ => ⟨S1024x1, .f32⟩
  | .local _ .vmem, ⟨45, _⟩ => ⟨S64, .f32⟩
  | .local _ .vmem, ⟨46, _⟩ => ⟨S1024x64, .f32⟩
  | .local _ .vmem, ⟨47, _⟩ => ⟨S1024x64, .f32⟩
  | .local _ .vmem, ⟨48, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg7_1 : Ref sig .tc := ⟨.vmem, 32, rfl⟩
abbrev cc2_scratch0 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg4_1 : Ref sig .tc := ⟨.vmem, 42, rfl⟩
abbrev cc3_stg5_0 : Ref sig .tc := ⟨.vmem, 43, rfl⟩
abbrev cc3_stg5_1 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc3_scratch0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem4_0 : DmaSem sig := 39
abbrev cc3_sem4_1 : DmaSem sig := 40
abbrev cc3_sem5_0 : DmaSem sig := 41
abbrev cc3_sem5_1 : DmaSem sig := 42
abbrev cc3_sem6_0 : DmaSem sig := 43
abbrev cc3_sem7_0 : DmaSem sig := 44
abbrev cc3_sem7_1 : DmaSem sig := 45

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_13 : BitVec 32 := 0#32
  let v23 : BitVec 1 := Scalar.cmpi .ne v22 c0_i32_13
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S1024x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_13 : BitVec 32 := 0#32
  let v24 : BitVec 1 := Scalar.cmpi .ne v23 c0_i32_13
  v24

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1024x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S64x128_S64x128_0_0 : ∀ a, (![0, 0] : Fin 2 → Nat) a + S64x128.size a ≤ S64x128.size a
  h_S64x128 : 0 < S64x128.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S1024x1024_S1024x1024_0_0 : ∀ a, (![0, 0] : Fin 2 → Nat) a + S1024x1024.size a ≤ S1024x1024.size a
  h_S1024x1024 : 0 < S1024x1024.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x128_S128x128_0_0 : ∀ a, (![0, 0] : Fin 2 → Nat) a + S128x128.size a ≤ S128x128.size a
  h_S128x128 : 0 < S128x128.numel
  shapeCasts_S1024x64_S1024x64 : S1024x64.ShapeCasts S1024x64
  inb_S128x64_S128x64_0_0 : ∀ a, (![0, 0] : Fin 2 → Nat) a + S128x64.size a ≤ S128x64.size a
  h_S128x64 : 0 < S128x64.numel
  broadcasts_S1024x1_S1024x64 : S1024x1.Broadcasts S1024x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  dot_S1024x64_S64x128_S1024x128_1_0_0_1_n_n_wf : DotDims.WF S1024x64 S64x128 S1024x128 [1] [0] [0] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S8192x64.size a
  hwx1_1 : ∀ i : grid1.Coords, EltTy.bits .f32 = 32 ∨ (Rect.block (s := S8192x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S8192x1.size a
  hwx1_5 : ∀ i : grid1.Coords, EltTy.bits .f32 = 32 ∨ (Rect.block (s := S8192x1) S1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S8192x128.size a
  hwx1_7 : ∀ i : grid1.Coords, EltTy.bits .f32 = 32 ∨ (Rect.block (s := S8192x128) S1024x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .f32 = 32 ∨ (Rect.block (s := S8192x8192) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S8192x1.size a
  hwx2_4 : ∀ i : grid2.Coords, EltTy.bits .f32 = 32 ∨ (Rect.block (s := S8192x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x1.size a ≤ S8192x1.size a
  hwx2_5 : ∀ i : grid2.Coords, EltTy.bits .f32 = 32 ∨ (Rect.block (s := S8192x1) S1024x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x128.size a ≤ S8192x128.size a
  hwx2_7 : ∀ i : grid2.Coords, EltTy.bits .f32 = 32 ∨ (Rect.block (s := S8192x128) S1024x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x8192.size a
  hwx3_0 : ∀ i : grid3.Coords, EltTy.bits .f32 = 32 ∨ (Rect.block (s := S8192x8192) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .f32 = 32 ∨ (Rect.block (s := S8192x128) S1024x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S8192x128.size a
  hwx3_2 : ∀ i : grid3.Coords, EltTy.bits .f32 = 32 ∨ (Rect.block (s := S8192x128) S1024x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1024x1.size a ≤ S8192x1.size a
  hwx3_4 : ∀ i : grid3.Coords, EltTy.bits .f32 = 32 ∨ (Rect.block (s := S8192x1) S1024x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S8192x1.size a
  hwx3_5 : ∀ i : grid3.Coords, EltTy.bits .f32 = 32 ∨ (Rect.block (s := S8192x1) S1024x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x64.size a ≤ S8192x64.size a
  hwx3_7 : ∀ i : grid3.Coords, EltTy.bits .f32 = 32 ∨ (Rect.block (s := S8192x64) S1024x64.size (cc3_transform_7 i) (hinb3_7 i)).WholeWords (EltTy.packing .f32)

variable [Facts₀]

def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg1) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v0) S1024x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v0) S1024x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v2) S1024x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_arg1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v2) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0) S1024x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v0) S1024x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg7) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v3) S1024x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x128 : Shape := ⟨2, ![8192, 128]⟩
abbrev S1x128 : Shape := ⟨2, ![1, 128]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S1x8192, .f32⟩
  | .hbm, ⟨23, _⟩ => ⟨S8192x8192, .f32⟩
  | .hbm, ⟨24, _⟩ => ⟨S8192x8192, .f32⟩
  | .hbm, ⟨25, _⟩ => ⟨S8192x128, .f32⟩
  | .hbm, ⟨26, _⟩ => ⟨S8192x128, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S8192x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192x128, .f32⟩
  | .hbm, ⟨40, _⟩ => ⟨S8192x128, .f32⟩
  | .hbm, ⟨41, _⟩ => ⟨S8192x64, .f32⟩
  | .hbm, ⟨42, _⟩ => ⟨S8192x64, .f32⟩
  | .hbm, ⟨43, _⟩ => ⟨S1x64, .f32⟩
  | .hbm, ⟨44, _⟩ => ⟨S8192x64, .f32⟩
  | .hbm, ⟨45, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call1_cst : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x64_S64x128_S8192x128_1_0_0_1_n_n_wf : DotDims.WF S8192x64 S64x128 S8192x128 [1] [0] [0] [1] [] []
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KFrameR0.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree pass: one row block of `adj` in, that block's `(row sum + 1)^(-1/2)` column out

At a PARAMETER `V`, the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256×8192 input buffer and the whole 256×1 output buffer, as rectangles. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the output's staging buffer: its one store, of the payload of the loaded block. -/
def out0_1 (x0 : Vec F S256x8192 .f32) : Vec F S256x1 .f32 :=
  View.canon [⟨rOut0, k0_pay1 (View.ld x0 rIn0)⟩]

/-- The proof data: arrays as found; after the body the input at its block, the output at `out0_1` of it; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Input window 0's current staging buffer holds its block at every point, for any proof data whose array is
    `V`'s and whose body leaves the block in place: the window is uncut and never idle, so an unfetched point finds
    what the previous one left, which is the same block because the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The one store is of the whole 256×1 buffer, so its rectangle covers every index. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The kernel on whole staging memrefs: the input's at contents `x0`, the output's at anything. It loads the input
    whole, loads the output (a value nothing reads), and stores the payload of the loaded input over the whole
    output; so it returns with the input as it was and the output at `out0_1 x0`. -/
theorem sound_kernel0 (c : Dev nD) (E : Set ℕ) (i : grid0.Coords)
    (arg1 : Memref sig .tc .vmem S256x8192 .f32) (harg1 : arg1.IsWhole)
    (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- What the body is handed at point `t`: the invariant, the core's debt, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the kernel's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrameWhole.lean ====
import proofs.«166741_j53910429499630_1_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the rectangle of the buffer's own sizes at zero offsets: a load through it of a
whole memref reads the contents, and a store through it, made last, leaves its payload. -/

/-- The zero offsets of a rank-2 whole-buffer rectangle, however spelt. -/
theorem zeros2 : (![0, 0] : Fin 2 → ℕ) = fun _ => 0 := funext fun a => by fin_cases a <;> rfl
/-- The zero offset of a rank-1 whole-buffer rectangle. -/
theorem zeros1 : (![0] : Fin 1 → ℕ) = fun _ => 0 := funext fun a => by fin_cases a; rfl

/-- A buffer whose LAST store went through the whole-buffer rectangle reads that store's payload, whatever it held and
    whatever was stored before. -/
theorem read_writes_whole_last {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

/-- A load through the whole-buffer rectangle of a whole memref holding `X` reads `X`. -/
theorem readAt_whole {sg : RefSig} {κ : Kind} {sp : Space} {S : Shape} {e : EltTy} {m : Memref sg κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end Cert.Kernel.Hand

end
-- ==== Proof.KFrameR1Body.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 0), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond1_0 (i : grid1.Coords) : Prop := (Scalar.cmpi .ne (Scalar.extui (Scalar.cmpi .eq (BitVec.ofNat 32 (i 1).val) 0#32)) 0#32) = 1#1
/-- The second conditional's test, `k = 7`. -/
abbrev cond1_1 (i : grid1.Coords) : Prop := k1_cond2 i = 1#1

set_option maxHeartbeats 1000000 in
/-- CASE A, `k = 0`: the accumulator, at anything, ends at one step from the zero block. -/
theorem sound_kernel1_A (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : cond1_0 i) (hc1 : ¬cond1_1 i)
    (x2 : Vec F S1024x1024 .f32) (x3 : Vec F S1024x64 .f32) (x5 : Vec F S64x128 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k1_pay3 x5 x3 x6 x2 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2]
  sl_unfold_run_names
  rw [View.readCov_unit_zero (S := S1024x128) _ zeros2, readAt_whole (S := S64x128) harg5 zeros2,
    readAt_whole (S := S1024x64) harg3 zeros2, readAt_whole (S := S1024x1) harg6 zeros2,
    readAt_whole (S := S1024x1024) harg2 zeros2]

set_option maxHeartbeats 1000000 in
/-- CASE B, `0 < k < 7`: the accumulator moves one step from what it held. -/
theorem sound_kernel1_B (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond1_0 i) (hc1 : ¬cond1_1 i)
    (x2 : Vec F S1024x1024 .f32) (x3 : Vec F S1024x64 .f32) (x5 : Vec F S64x128 .f32) (x6 : Vec F S1024x1 .f32)
    (xs : Vec F S1024x128 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k1_pay3 x5 x3 x6 x2 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2, readAt_whole (S := S64x128) harg5 zeros2,
    readAt_whole (S := S1024x64) harg3 zeros2, readAt_whole (S := S1024x1) harg6 zeros2,
    readAt_whole (S := S1024x1024) harg2 zeros2, readAt_whole (S := S1024x128) harg10 zeros2]

set_option maxHeartbeats 1000000 in
/-- CASE C, `k = 7`: the accumulator moves one step and the output block is stored from it. -/
theorem sound_kernel1_C (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond1_0 i) (hc1 : cond1_1 i)
    (x2 : Vec F S1024x1024 .f32) (x3 : Vec F S1024x64 .f32) (x4 : Vec F S1024x64 .f32) (x5 : Vec F S64x128 .f32)
    (x6 : Vec F S1024x1 .f32) (x7 : Vec F S1024x1 .f32) (x8 : Vec F S128 .f32)
    (xs : Vec F S1024x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k1_pay4 x5 x4 x7 (k1_pay3 x5 x3 x6 x2 xs) x7 x8)
            ∗ owns (c : Thread nD τ) arg10 fullShare (k1_pay3 x5 x3 x6 x2 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x128) _ _ zeros2, View.readCov_unit_zero (S := S1024x128) _ zeros2,
      readAt_whole (S := S64x128) harg5 zeros2, readAt_whole (S := S1024x64) harg4 zeros2,
      readAt_whole (S := S1024x1) harg7 zeros2, readAt_whole (S := S1024x64) harg3 zeros2,
      readAt_whole (S := S1024x1) harg6 zeros2, readAt_whole (S := S1024x1024) harg2 zeros2,
      readAt_whole (S := S1024x128) harg10 zeros2, readAt_whole (S := S128) harg8 zeros1]
  iexists _; isplitr; swap; · iexact HS
  ipureintro
  sl_unfold_run_names
  rw [read_writes_whole_last (S := S1024x128) _ _ zeros2, readAt_whole (S := S64x128) harg5 zeros2,
    readAt_whole (S := S1024x64) harg3 zeros2, readAt_whole (S := S1024x1) harg6 zeros2,
    readAt_whole (S := S1024x1024) harg2 zeros2, readAt_whole (S := S1024x128) harg10 zeros2]

end Cert.Kernel.Hand

end
-- ==== Proof.KFrameR1.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at a point, each at its literal type. -/
abbrev adjB1 (c : Dev nD) (t : Fin cfg1.N) : Vec F S1024x1024 .f32 := iblk1 V c 0 t
abbrev hkB1 (c : Dev nD) (t : Fin cfg1.N) : Vec F S1024x64 .f32 := iblk1 V c 1 t
abbrev hiB1 (c : Dev nD) (t : Fin cfg1.N) : Vec F S1024x64 .f32 := iblk1 V c 2 t
abbrev wB1 (c : Dev nD) (t : Fin cfg1.N) : Vec F S64x128 .f32 := iblk1 V c 3 t
abbrev dkB1 (c : Dev nD) (t : Fin cfg1.N) : Vec F S1024x1 .f32 := iblk1 V c 4 t
abbrev diB1 (c : Dev nD) (t : Fin cfg1.N) : Vec F S1024x1 .f32 := iblk1 V c 5 t
abbrev bB1 (c : Dev nD) (t : Fin cfg1.N) : Vec F S128 .f32 := iblk1 V c 6 t

/-- THE ACCUMULATION: what the accumulator holds after the body at position `n`: one step (`k1_pay3`) from the zero
    block where `k = 0`, from what the point before left elsewhere. -/
def acc1 (c : Dev nD) : (n : ℕ) → n < cfg1.N → Vec F S1024x128 .f32
  | 0, hn => k1_pay3 (wB1 V c ⟨0, hn⟩) (hkB1 V c ⟨0, hn⟩) (dkB1 V c ⟨0, hn⟩) (adjB1 V c ⟨0, hn⟩) (k1_pay1 (F := F))
  | n + 1, hn =>
    if (n + 1) % 8 = 0 then
      k1_pay3 (wB1 V c ⟨n + 1, hn⟩) (hkB1 V c ⟨n + 1, hn⟩) (dkB1 V c ⟨n + 1, hn⟩) (adjB1 V c ⟨n + 1, hn⟩) (k1_pay1 (F := F))
    else
      k1_pay3 (wB1 V c ⟨n + 1, hn⟩) (hkB1 V c ⟨n + 1, hn⟩) (dkB1 V c ⟨n + 1, hn⟩) (adjB1 V c ⟨n + 1, hn⟩) (acc1 c n (Nat.lt_of_succ_lt hn))

/-- The accumulator after a point with `k = 0`. -/
theorem acc1_reset (c : Dev nD) (t : Fin cfg1.N) (h : t.val % 8 = 0) :
    acc1 V c t.val t.isLt = k1_pay3 (wB1 V c t) (hkB1 V c t) (dkB1 V c t) (adjB1 V c t) (k1_pay1 (F := F)) := by
  obtain ⟨n, hn⟩ := t
  cases n with
  | zero => rfl
  | succ n => exact if_pos h
/-- The accumulator after a point with `k ≠ 0`. -/
theorem acc1_step (c : Dev nD) (t : Fin cfg1.N) (h : ¬t.val % 8 = 0) :
    acc1 V c t.val t.isLt = k1_pay3 (wB1 V c t) (hkB1 V c t) (dkB1 V c t) (adjB1 V c t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out1 (c : Dev nD) (t : Fin cfg1.N) : Vec F S1024x128 .f32 :=
  k1_pay4 (wB1 V c t) (hiB1 V c t) (diB1 V c t) (acc1 V c t.val t.isLt) (diB1 V c t) (bB1 V c t)

/-- The accumulator's memref: the kernel's one scratch operand, whole. -/
abbrev scM1 : Memref sig .tc .vmem S1024x128 .f32 := Memref.whole cc1_scratch0

/-- The region invariant before position `n`: before the first point what the launch hands the region (every
    scoped buffer no window stages at anything, the generator register); afterwards the accumulator at what the point
    before left, the other such buffers at anything, the register. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

/-- The proof data: arrays as found; after the body each input at its block and the output at `out1`; the invariant
    `PhiS1`; the two windows on one array at its two halves, every other input whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_7 (c : Dev nD) (t : Fin cfg1.N) : (dat1 V c).after 7 t = out1 V c t := by dsimp only [dat1]
theorem owed1 (c : Dev nD) (t : Fin (cfg1.N + 1)) : (dat1 V c).owed t = 0 := rfl

/-! ## The conditions in closed form, and where the windows are live -/

/-- The first test holds at the points ≡ 0 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second test holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where `k ≠ 7` the output window is idle and not written back; where `k = 7` it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-- What the launch hands the region, with the accumulator as a memref owned at some contents. -/
theorem PhiA1_eq (c : Dev nD) :
    (Pipeline.ΦA spec1 c : sProp 𝕄)
      = iprop((iprop(∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What the body finds in the inputs' buffers -/

/-- What the body leaves in each input's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-- Each input's current staging buffer holds its block at every point, fetched there or not: an input is never
    idle and its block is left in place, so an unfetched point finds the block of the point before, which is this
    point's because the index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The invariant at a point's start -/

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is handed at point `t`: the invariant, the core's debt, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  rw [show (dat1 V c).leavesExact 4 t = owns (c : Thread nD τ) (st1_4 t) fullShare ((dat1 V c).after 4 t) from by
      unfold Dat.leavesExact; rw [liveAt1_4 t], after1_4]
  rw [show (dat1 V c).leavesExact 5 t = owns (c : Thread nD τ) (st1_5 t) fullShare ((dat1 V c).after 5 t) from by
      unfold Dat.leavesExact; rw [liveAt1_5 t], after1_5]
  rw [show (dat1 V c).leavesExact 6 t = owns (c : Thread nD τ) (st1_6 t) fullShare ((dat1 V c).after 6 t) from by
      unfold Dat.leavesExact; rw [liveAt1_6 t], after1_6]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [acc1_reset V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_A c Set.univ (grid1.coords t) _ _ _ _ _ _ _ _ _ _ _ _ _ _ _ _ _ _ hc0 hc1
        (adjB1 V c t) (hkB1 V c t) (wB1 V c t) (dkB1 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_A c Set.univ (grid1.coords t) _ _ _ _ _ _ _ _ _ _ _ _ _ _ _ _ _ _ hc0 hc1
        (adjB1 V c t) (hkB1 V c t) (wB1 V c t) (dkB1 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond1_0 (grid1.coords t) := fun h => h0 ((hcond1_0 t).mp h)
    have hz : t.val ≠ 0 := fun h => h0 (by rw [h])
    by_cases h1 : t.val % 8 = 7
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7]
      unfold out1
      rw [acc1_step V c t h0]
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ hc0 hc1
        (adjB1 V c t) (hkB1 V c t) (hiB1 V c t) (wB1 V c t) (dkB1 V c t) (diB1 V c t) (bB1 V c t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t hc1)]
      rw [acc1_step V c t h0]
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_B c Set.univ (grid1.coords t) _ _ _ _ _ _ _ _ _ _ _ _ _ _ _ _ _ _ hc0 hc1
        (adjB1 V c t) (hkB1 V c t) (wB1 V c t) (dkB1 V c t) (acc1 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed the region: the accumulator's
    contents are forgotten. -/
theorem Phi_out1 (c : Dev nD) (t : Fin (cfg1.N + 1)) (ht : t.val ≠ 0) :
    (dat1 V c).Φ t ⊢ Pipeline.ΦA (U := UR sig nD τ) (Val := Elt F) spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives it back: the accumulator's contents are forgotten. -/
theorem hout1 (c : Dev nD) : (dat1 V c).Φ (Fin.last cfg1.N) ⊢ Pipeline.ΦA (U := UR sig nD τ) (Val := Elt F) spec1 c :=
  Phi_out1 V c _ (by rw [Fin.val_last]; have : cfg1.N = 64 := N_1; omega)

end Cert.Kernel.Hand

end
-- ==== Proof.KFrameR2Body.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 1), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond2_0 (i : grid2.Coords) : Prop := (Scalar.cmpi .ne (Scalar.extui (Scalar.cmpi .eq (BitVec.ofNat 32 (i 1).val) 0#32)) 0#32) = 1#1
/-- The second conditional's test, `k = 7`. -/
abbrev cond2_1 (i : grid2.Coords) : Prop := k2_cond2 i = 1#1

set_option maxHeartbeats 1000000 in
/-- CASE A, `k = 0`: the accumulator, at anything, ends at one step from the zero block. -/
theorem sound_kernel2_A (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : cond2_0 i) (hc1 : ¬cond2_1 i)
    (x2 : Vec F S1024x1024 .f32) (x3 : Vec F S1024x128 .f32) (x5 : Vec F S128x128 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k2_pay3 x5 x3 x6 x2 (k2_pay1 (F := F)))) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2]
  sl_unfold_run_names
  rw [View.readCov_unit_zero (S := S1024x128) _ zeros2, readAt_whole (S := S128x128) harg5 zeros2,
    readAt_whole (S := S1024x128) harg3 zeros2, readAt_whole (S := S1024x1) harg6 zeros2,
    readAt_whole (S := S1024x1024) harg2 zeros2]

set_option maxHeartbeats 1000000 in
/-- CASE B, `0 < k < 7`: the accumulator moves one step from what it held. -/
theorem sound_kernel2_B (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond2_0 i) (hc1 : ¬cond2_1 i)
    (x2 : Vec F S1024x1024 .f32) (x3 : Vec F S1024x128 .f32) (x5 : Vec F S128x128 .f32) (x6 : Vec F S1024x1 .f32)
    (xs : Vec F S1024x128 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k2_pay3 x5 x3 x6 x2 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2, readAt_whole (S := S128x128) harg5 zeros2,
    readAt_whole (S := S1024x128) harg3 zeros2, readAt_whole (S := S1024x1) harg6 zeros2,
    readAt_whole (S := S1024x1024) harg2 zeros2, readAt_whole (S := S1024x128) harg10 zeros2]

set_option maxHeartbeats 1000000 in
/-- CASE C, `k = 7`: the accumulator moves one step and the output block is stored from it. -/
theorem sound_kernel2_C (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond2_0 i) (hc1 : cond2_1 i)
    (x2 : Vec F S1024x1024 .f32) (x3 : Vec F S1024x128 .f32) (x4 : Vec F S1024x128 .f32) (x5 : Vec F S128x128 .f32)
    (x6 : Vec F S1024x1 .f32) (x7 : Vec F S1024x1 .f32) (x8 : Vec F S128 .f32)
    (xs : Vec F S1024x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k2_pay4 x5 x4 x7 (k2_pay3 x5 x3 x6 x2 xs) x7 x8)
            ∗ owns (c : Thread nD τ) arg10 fullShare (k2_pay3 x5 x3 x6 x2 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x128) _ _ zeros2, View.readCov_unit_zero (S := S1024x128) _ zeros2,
      readAt_whole (S := S128x128) harg5 zeros2, readAt_whole (S := S1024x128) harg4 zeros2,
      readAt_whole (S := S1024x1) harg7 zeros2, readAt_whole (S := S1024x128) harg3 zeros2,
      readAt_whole (S := S1024x1) harg6 zeros2, readAt_whole (S := S1024x1024) harg2 zeros2,
      readAt_whole (S := S1024x128) harg10 zeros2, readAt_whole (S := S128) harg8 zeros1]
  iexists _; isplitr; swap; · iexact HS
  ipureintro
  sl_unfold_run_names
  rw [read_writes_whole_last (S := S1024x128) _ _ zeros2, readAt_whole (S := S128x128) harg5 zeros2,
    readAt_whole (S := S1024x128) harg3 zeros2, readAt_whole (S := S1024x1) harg6 zeros2,
    readAt_whole (S := S1024x1024) harg2 zeros2, readAt_whole (S := S1024x128) harg10 zeros2]

end Cert.Kernel.Hand

end
-- ==== Proof.KFrameR2.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks at a point, each at its literal type. -/
abbrev adjB2 (c : Dev nD) (t : Fin cfg2.N) : Vec F S1024x1024 .f32 := iblk2 V c 0 t
abbrev hkB2 (c : Dev nD) (t : Fin cfg2.N) : Vec F S1024x128 .f32 := iblk2 V c 1 t
abbrev hiB2 (c : Dev nD) (t : Fin cfg2.N) : Vec F S1024x128 .f32 := iblk2 V c 2 t
abbrev wB2 (c : Dev nD) (t : Fin cfg2.N) : Vec F S128x128 .f32 := iblk2 V c 3 t
abbrev dkB2 (c : Dev nD) (t : Fin cfg2.N) : Vec F S1024x1 .f32 := iblk2 V c 4 t
abbrev diB2 (c : Dev nD) (t : Fin cfg2.N) : Vec F S1024x1 .f32 := iblk2 V c 5 t
abbrev bB2 (c : Dev nD) (t : Fin cfg2.N) : Vec F S128 .f32 := iblk2 V c 6 t

/-- THE ACCUMULATION: what the accumulator holds after the body at position `n`: one step (`k2_pay3`) from the zero
    block where `k = 0`, from what the point before left elsewhere. -/
def acc2 (c : Dev nD) : (n : ℕ) → n < cfg2.N → Vec F S1024x128 .f32
  | 0, hn => k2_pay3 (wB2 V c ⟨0, hn⟩) (hkB2 V c ⟨0, hn⟩) (dkB2 V c ⟨0, hn⟩) (adjB2 V c ⟨0, hn⟩) (k2_pay1 (F := F))
  | n + 1, hn =>
    if (n + 1) % 8 = 0 then
      k2_pay3 (wB2 V c ⟨n + 1, hn⟩) (hkB2 V c ⟨n + 1, hn⟩) (dkB2 V c ⟨n + 1, hn⟩) (adjB2 V c ⟨n + 1, hn⟩) (k2_pay1 (F := F))
    else
      k2_pay3 (wB2 V c ⟨n + 1, hn⟩) (hkB2 V c ⟨n + 1, hn⟩) (dkB2 V c ⟨n + 1, hn⟩) (adjB2 V c ⟨n + 1, hn⟩) (acc2 c n (Nat.lt_of_succ_lt hn))

/-- The accumulator after a point with `k = 0`. -/
theorem acc2_reset (c : Dev nD) (t : Fin cfg2.N) (h : t.val % 8 = 0) :
    acc2 V c t.val t.isLt = k2_pay3 (wB2 V c t) (hkB2 V c t) (dkB2 V c t) (adjB2 V c t) (k2_pay1 (F := F)) := by
  obtain ⟨n, hn⟩ := t
  cases n with
  | zero => rfl
  | succ n => exact if_pos h
/-- The accumulator after a point with `k ≠ 0`. -/
theorem acc2_step (c : Dev nD) (t : Fin cfg2.N) (h : ¬t.val % 8 = 0) :
    acc2 V c t.val t.isLt = k2_pay3 (wB2 V c t) (hkB2 V c t) (dkB2 V c t) (adjB2 V c t)
      (acc2 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out2 (c : Dev nD) (t : Fin cfg2.N) : Vec F S1024x128 .f32 :=
  k2_pay4 (wB2 V c t) (hiB2 V c t) (diB2 V c t) (acc2 V c t.val t.isLt) (diB2 V c t) (bB2 V c t)

/-- The accumulator's memref: the kernel's one scratch operand, whole. -/
abbrev scM2 : Memref sig .tc .vmem S1024x128 .f32 := Memref.whole cc2_scratch0

/-- The region invariant before position `n`: before the first point what the launch hands the region (every
    scoped buffer no window stages at anything, the generator register); afterwards the accumulator at what the point
    before left, the other such buffers at anything, the register. -/
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

/-- The proof data: arrays as found; after the body each input at its block and the output at `out2`; the invariant
    `PhiS2`; the two windows on one array at its two halves, every other input whole; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = out2 V c t := by dsimp only [dat2]
theorem owed2 (c : Dev nD) (t : Fin (cfg2.N + 1)) : (dat2 V c).owed t = 0 := rfl

/-! ## The conditions in closed form, and where the windows are live -/

/-- The first test holds at the points ≡ 0 (mod 8): decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second test holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Where `k ≠ 7` the output window is idle and not written back; where `k = 7` it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-- What the launch hands the region, with the accumulator as a memref owned at some contents. -/
theorem PhiA2_eq (c : Dev nD) :
    (Pipeline.ΦA spec2 c : sProp 𝕄)
      = iprop((iprop(∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body finds in the inputs' buffers -/

/-- What the body leaves in each input's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- Each input's current staging buffer holds its block at every point, fetched there or not: an input is never
    idle and its block is left in place, so an unfetched point finds the block of the point before, which is this
    point's because the index has not moved. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-! ## The invariant at a point's start -/

/-- Before a point that is not the first: the accumulator at what the point before left. -/
theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is handed at point `t`: the invariant, the core's debt, and each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  rw [show (dat2 V c).leavesExact 3 t = owns (c : Thread nD τ) (st2_3 t) fullShare ((dat2 V c).after 3 t) from by
      unfold Dat.leavesExact; rw [liveAt2_3 t], after2_3]
  rw [show (dat2 V c).leavesExact 4 t = owns (c : Thread nD τ) (st2_4 t) fullShare ((dat2 V c).after 4 t) from by
      unfold Dat.leavesExact; rw [liveAt2_4 t], after2_4]
  rw [show (dat2 V c).leavesExact 5 t = owns (c : Thread nD τ) (st2_5 t) fullShare ((dat2 V c).after 5 t) from by
      unfold Dat.leavesExact; rw [liveAt2_5 t], after2_5]
  rw [show (dat2 V c).leavesExact 6 t = owns (c : Thread nD τ) (st2_6 t) fullShare ((dat2 V c).after 6 t) from by
      unfold Dat.leavesExact; rw [liveAt2_6 t], after2_6]
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_reset V c t h0]
    by_cases hz : t.val = 0
    · rw [PhiS2_castSucc V c t, PhiS2_zero V c _ _ hz, PhiA2_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_A c Set.univ (grid2.coords t) _ _ _ _ _ _ _ _ _ _ _ _ _ _ _ _ _ _ hc0 hc1
        (adjB2 V c t) (hkB2 V c t) (wB2 V c t) (dkB2 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_A c Set.univ (grid2.coords t) _ _ _ _ _ _ _ _ _ _ _ _ _ _ _ _ _ _ hc0 hc1
        (adjB2 V c t) (hkB2 V c t) (wB2 V c t) (dkB2 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond2_0 (grid2.coords t) := fun h => h0 ((hcond2_0 t).mp h)
    have hz : t.val ≠ 0 := fun h => h0 (by rw [h])
    by_cases h1 : t.val % 8 = 7
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      unfold out2
      rw [acc2_step V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_C c Set.univ (grid2.coords t) _ _ _ _ _ _ _ _ _ _ _ _ _ _ _ _ _ _ hc0 hc1
        (adjB2 V c t) (hkB2 V c t) (hiB2 V c t) (wB2 V c t) (dkB2 V c t) (diB2 V c t) (bB2 V c t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      rw [acc2_step V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_B c Set.univ (grid2.coords t) _ _ _ _ _ _ _ _ _ _ _ _ _ _ _ _ _ _ hc0 hc1
        (adjB2 V c t) (hkB2 V c t) (wB2 V c t) (dkB2 V c t) (acc2 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives back what the launch handed the region: the accumulator's
    contents are forgotten. -/
theorem Phi_out2 (c : Dev nD) (t : Fin (cfg2.N + 1)) (ht : t.val ≠ 0) :
    (dat2 V c).Φ t ⊢ Pipeline.ΦA (U := UR sig nD τ) (Val := Elt F) spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives it back: the accumulator's contents are forgotten. -/
theorem hout2 (c : Dev nD) : (dat2 V c).Φ (Fin.last cfg2.N) ⊢ Pipeline.ΦA (U := UR sig nD τ) (Val := Elt F) spec2 c :=
  Phi_out2 V c _ (by rw [Fin.val_last]; have : cfg2.N = 64 := N_2; omega)

end Cert.Kernel.Hand

end
-- ==== Proof.KFrameR3Body.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 2), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond3_0 (i : grid3.Coords) : Prop := (Scalar.cmpi .ne (Scalar.extui (Scalar.cmpi .eq (BitVec.ofNat 32 (i 1).val) 0#32)) 0#32) = 1#1
/-- The second conditional's test, `k = 7`. -/
abbrev cond3_1 (i : grid3.Coords) : Prop := k3_cond2 i = 1#1

set_option maxHeartbeats 1000000 in
/-- CASE A, `k = 0`: the accumulator, at anything, ends at one step from the zero block. -/
theorem sound_kernel3_A (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : cond3_0 i) (hc1 : ¬cond3_1 i)
    (x2 : Vec F S1024x1024 .f32) (x3 : Vec F S1024x128 .f32) (x5 : Vec F S128x64 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k3_pay3 x5 x3 x6 x2 (k3_pay1 (F := F)))) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x64) _ _ zeros2]
  sl_unfold_run_names
  rw [View.readCov_unit_zero (S := S1024x64) _ zeros2, readAt_whole (S := S128x64) harg5 zeros2,
    readAt_whole (S := S1024x128) harg3 zeros2, readAt_whole (S := S1024x1) harg6 zeros2,
    readAt_whole (S := S1024x1024) harg2 zeros2]

set_option maxHeartbeats 1000000 in
/-- CASE B, `0 < k < 7`: the accumulator moves one step from what it held. -/
theorem sound_kernel3_B (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : ¬cond3_0 i) (hc1 : ¬cond3_1 i)
    (x2 : Vec F S1024x1024 .f32) (x3 : Vec F S1024x128 .f32) (x5 : Vec F S128x64 .f32) (x6 : Vec F S1024x1 .f32)
    (xs : Vec F S1024x64 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k3_pay3 x5 x3 x6 x2 xs)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x64) _ _ zeros2, readAt_whole (S := S128x64) harg5 zeros2,
    readAt_whole (S := S1024x128) harg3 zeros2, readAt_whole (S := S1024x1) harg6 zeros2,
    readAt_whole (S := S1024x1024) harg2 zeros2, readAt_whole (S := S1024x64) harg10 zeros2]

set_option maxHeartbeats 1000000 in
/-- CASE C, `k = 7`: the accumulator moves one step and the output block is stored from it. -/
theorem sound_kernel3_C (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : ¬cond3_0 i) (hc1 : cond3_1 i)
    (x2 : Vec F S1024x1024 .f32) (x3 : Vec F S1024x128 .f32) (x4 : Vec F S1024x128 .f32) (x5 : Vec F S128x64 .f32)
    (x6 : Vec F S1024x1 .f32) (x7 : Vec F S1024x1 .f32) (x8 : Vec F S64 .f32)
    (xs : Vec F S1024x64 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k3_pay4 x5 x4 x7 (k3_pay3 x5 x3 x6 x2 xs) x7 x8)
            ∗ owns (c : Thread nD τ) arg10 fullShare (k3_pay3 x5 x3 x6 x2 xs)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x64) _ _ zeros2, View.readCov_unit_zero (S := S1024x64) _ zeros2,
      readAt_whole (S := S128x64) harg5 zeros2, readAt_whole (S := S1024x128) harg4 zeros2,
      readAt_whole (S := S1024x1) harg7 zeros2, readAt_whole (S := S1024x128) harg3 zeros2,
      readAt_whole (S := S1024x1) harg6 zeros2, readAt_whole (S := S1024x1024) harg2 zeros2,
      readAt_whole (S := S1024x64) harg10 zeros2, readAt_whole (S := S64) harg8 zeros1]
  iexists _; isplitr; swap; · iexact HS
  ipureintro
  sl_unfold_run_names
  rw [read_writes_whole_last (S := S1024x64) _ _ zeros2, readAt_whole (S := S128x64) harg5 zeros2,
    readAt_whole (S := S1024x128) harg3 zeros2, readAt_whole (S := S1024x1) harg6 zeros2,
    readAt_whole (S := S1024x1024) harg2 zeros2, readAt_whole (S := S1024x64) harg10 zeros2]

end Cert.Kernel.Hand

end
-- ==== Proof.KFrameR3.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR3Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input blocks at a point, each at its literal type. -/
abbrev adjB3 (c : Dev nD) (t : Fin cfg3.N) : Vec F S1024x1024 .f32 := iblk3 V c 0 t
abbrev hkB3 (c : Dev nD) (t : Fin cfg3.N) : Vec F S1024x128 .f32 := iblk3 V c 1 t
abbrev hiB3 (c : Dev nD) (t : Fin cfg3.N) : Vec F S1024x128 .f32 := iblk3 V c 2 t
abbrev wB3 (c : Dev nD) (t : Fin cfg3.N) : Vec F S128x64 .f32 := iblk3 V c 3 t
abbrev dkB3 (c : Dev nD) (t : Fin cfg3.N) : Vec F S1024x1 .f32 := iblk3 V c 4 t
abbrev diB3 (c : Dev nD) (t : Fin cfg3.N) : Vec F S1024x1 .f32 := iblk3 V c 5 t
abbrev bB3 (c : Dev nD) (t : Fin cfg3.N) : Vec F S64 .f32 := iblk3 V c 6 t

/-- THE ACCUMULATION: what the accumulator holds after the body at position `n`: one step (`k3_pay3`) from the zero
    block where `k = 0`, from what the point before left elsewhere. -/
def acc3 (c : Dev nD) : (n : ℕ) → n < cfg3.N → Vec F S1024x64 .f32
  | 0, hn => k3_pay3 (wB3 V c ⟨0, hn⟩) (hkB3 V c ⟨0, hn⟩) (dkB3 V c ⟨0, hn⟩) (adjB3 V c ⟨0, hn⟩) (k3_pay1 (F := F))
  | n + 1, hn =>
    if (n + 1) % 8 = 0 then
      k3_pay3 (wB3 V c ⟨n + 1, hn⟩) (hkB3 V c ⟨n + 1, hn⟩) (dkB3 V c ⟨n + 1, hn⟩) (adjB3 V c ⟨n + 1, hn⟩) (k3_pay1 (F := F))
    else
      k3_pay3 (wB3 V c ⟨n + 1, hn⟩) (hkB3 V c ⟨n + 1, hn⟩) (dkB3 V c ⟨n + 1, hn⟩) (adjB3 V c ⟨n + 1, hn⟩) (acc3 c n (Nat.lt_of_succ_lt hn))

/-- The accumulator after a point with `k = 0`. -/
theorem acc3_reset (c : Dev nD) (t : Fin cfg3.N) (h : t.val % 8 = 0) :
    acc3 V c t.val t.isLt = k3_pay3 (wB3 V c t) (hkB3 V c t) (dkB3 V c t) (adjB3 V c t) (k3_pay1 (F := F)) := by
  obtain ⟨n, hn⟩ := t
  cases n with
  | zero => rfl
  | succ n => exact if_pos h
/-- The accumulator after a point with `k ≠ 0`. -/
theorem acc3_step (c : Dev nD) (t : Fin cfg3.N) (h : ¬t.val % 8 = 0) :
    acc3 V c t.val t.isLt = k3_pay3 (wB3 V c t) (hkB3 V c t) (dkB3 V c t) (adjB3 V c t)
      (acc3 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out3 (c : Dev nD) (t : Fin cfg3.N) : Vec F S1024x64 .f32 :=
  k3_pay4 (wB3 V c t) (hiB3 V c t) (diB3 V c t) (acc3 V c t.val t.isLt) (diB3 V c t) (bB3 V c t)

/-- The accumulator's memref: the kernel's one scratch operand, whole. -/
abbrev scM3 : Memref sig .tc .vmem S1024x64 .f32 := Memref.whole cc3_scratch0

/-- The region invariant before position `n`: before the first point what the launch hands the region (every
    scoped buffer no window stages at anything, the generator register); afterwards the accumulator at what the point
    before left, the other such buffers at anything, the register. -/
def PhiS3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

/-- The proof data: arrays as found; after the body each input at its block and the output at `out3`; the invariant
    `PhiS3`; the two windows on one array at its two halves, every other input whole; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq3 (c : Dev nD) (w : Fin cfg3.W) : (dat3 V c).A w = V c (Pipeline.arrRef spec3 w) := by
  dsimp only [dat3]
theorem after3_7 (c : Dev nD) (t : Fin cfg3.N) : (dat3 V c).after 7 t = out3 V c t := by dsimp only [dat3]
theorem owed3 (c : Dev nD) (t : Fin (cfg3.N + 1)) : (dat3 V c).owed t = 0 := rfl

/-! ## The conditions in closed form, and where the windows are live -/

/-- The first test holds at the points ≡ 0 (mod 8): decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)
/-- The second test holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Where `k ≠ 7` the output window is idle and not written back; where `k = 7` it is live. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-- What the launch hands the region, with the accumulator as a memref owned at some contents. -/
theorem PhiA3_eq (c : Dev nD) :
    (Pipeline.ΦA spec3 c : sProp 𝕄)
      = iprop((iprop(∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## What the body finds in the inputs' buffers -/

/-- What the body leaves in each input's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]

/-- Each input's current staging buffer holds its block at every point, fetched there or not: an input is never
    idle and its block is left in place, so an unfetched point finds the block of the point before, which is this
    point's because the index has not moved. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
      (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
      (fun t => by rw [after3_6]; unfold Dat.blockOf iblk3; rw [A_eq3]; try rfl) t d).trans
    (by unfold Dat.fetched Dat.blockOf iblk3; rw [A_eq3]; try rfl)

/-! ## The invariant at a point's start -/

/-- Before a point that is not the first: the accumulator at what the point before left. -/
theorem PhiS3_pos (c : Dev nD) (n : ℕ) (h : n ≤ cfg3.N) (hz : n ≠ 0) :
    PhiS3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is handed at point `t`: the invariant, the core's debt, and each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  rw [show (dat3 V c).leavesExact 3 t = owns (c : Thread nD τ) (st3_3 t) fullShare ((dat3 V c).after 3 t) from by
      unfold Dat.leavesExact; rw [liveAt3_3 t], after3_3]
  rw [show (dat3 V c).leavesExact 4 t = owns (c : Thread nD τ) (st3_4 t) fullShare ((dat3 V c).after 4 t) from by
      unfold Dat.leavesExact; rw [liveAt3_4 t], after3_4]
  rw [show (dat3 V c).leavesExact 5 t = owns (c : Thread nD τ) (st3_5 t) fullShare ((dat3 V c).after 5 t) from by
      unfold Dat.leavesExact; rw [liveAt3_5 t], after3_5]
  rw [show (dat3 V c).leavesExact 6 t = owns (c : Thread nD τ) (st3_6 t) fullShare ((dat3 V c).after 6 t) from by
      unfold Dat.leavesExact; rw [liveAt3_6 t], after3_6]
  by_cases h0 : t.val % 8 = 0
  · have hc0 : cond3_0 (grid3.coords t) := (hcond3_0 t).mpr h0
    have hc1 : ¬cond3_1 (grid3.coords t) := fun h => by have := (hcond3_1 t).mp h; omega
    rw [Dat.leavesExact_idle (dat3 V c) 7 t (idleAt3_7 t hc1) (noFlush3_7 t hc1)]
    rw [acc3_reset V c t h0]
    by_cases hz : t.val = 0
    · rw [PhiS3_castSucc V c t, PhiS3_zero V c _ _ hz, PhiA3_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_A c Set.univ (grid3.coords t) _ _ _ _ _ _ _ _ _ _ _ _ _ _ _ _ _ _ hc0 hc1
        (adjB3 V c t) (hkB3 V c t) (wB3 V c t) (dkB3 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_A c Set.univ (grid3.coords t) _ _ _ _ _ _ _ _ _ _ _ _ _ _ _ _ _ _ hc0 hc1
        (adjB3 V c t) (hkB3 V c t) (wB3 V c t) (dkB3 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond3_0 (grid3.coords t) := fun h => h0 ((hcond3_0 t).mp h)
    have hz : t.val ≠ 0 := fun h => h0 (by rw [h])
    by_cases h1 : t.val % 8 = 7
    · have hc1 : cond3_1 (grid3.coords t) := (hcond3_1 t).mpr h1
      rw [show (dat3 V c).leavesExact 7 t = owns (c : Thread nD τ) (st3_7 t) fullShare ((dat3 V c).after 7 t) from by
        unfold Dat.leavesExact; rw [liveAt3_7 t hc1], after3_7]
      unfold out3
      rw [acc3_step V c t h0]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_C c Set.univ (grid3.coords t) _ _ _ _ _ _ _ _ _ _ _ _ _ _ _ _ _ _ hc0 hc1
        (adjB3 V c t) (hkB3 V c t) (hiB3 V c t) (wB3 V c t) (dkB3 V c t) (diB3 V c t) (bB3 V c t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond3_1 (grid3.coords t) := fun h => h1 ((hcond3_1 t).mp h)
      rw [Dat.leavesExact_idle (dat3 V c) 7 t (idleAt3_7 t hc1) (noFlush3_7 t hc1)]
      rw [acc3_step V c t h0]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_B c Set.univ (grid3.coords t) _ _ _ _ _ _ _ _ _ _ _ _ _ _ _ _ _ _ hc0 hc1
        (adjB3 V c t) (hkB3 V c t) (wB3 V c t) (dkB3 V c t) (acc3 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After any point but the first the invariant gives back what the launch handed the region: the accumulator's
    contents are forgotten. -/
theorem Phi_out3 (c : Dev nD) (t : Fin (cfg3.N + 1)) (ht : t.val ≠ 0) :
    (dat3 V c).Φ t ⊢ Pipeline.ΦA (U := UR sig nD τ) (Val := Elt F) spec3 c := by
  rw [show (dat3 V c).Φ t = PhiS3 V c t.val (Nat.le_of_lt_succ t.isLt) from rfl, PhiS3_pos V c _ _ ht, PhiA3_eq]
  iintro ⟨HS, HR, Hg⟩
  isplitl [HS HR]
  · isplitl [HS]
    · iexists _; iexact HS
    iexact HR
  iexact Hg

/-- After the last point the invariant gives it back: the accumulator's contents are forgotten. -/
theorem hout3 (c : Dev nD) : (dat3 V c).Φ (Fin.last cfg3.N) ⊢ Pipeline.ΦA (U := UR sig nD τ) (Val := Elt F) spec3 c :=
  Phi_out3 V c _ (by rw [Fin.val_last]; have : cfg3.N = 64 := N_3; omega)

end Cert.Kernel.Hand

end
-- ==== Proof.KFrameShare1.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg0) ↦{fullShare} V' main_arg0)
          ∗ (((c : Thread nD τ).loc main_arg2) ↦{fullShare} V' main_arg2) ∗ (((c : Thread nD τ).loc main_v0) ↦{fullShare} V' main_v0)
          ∗ (((c : Thread nD τ).loc main_arg3) ↦{fullShare} V' main_arg3) ∗ (((c : Thread nD τ).loc main_v1) ↦{fullShare} V' main_v1)) := by
  unfold Pipeline.arrBufs
  exact bigSep_eq_bigSepL_of_eq [main_arg1, main_arg0, main_arg2, main_v0, main_arg3, main_v1] (by decide) (by decide) _

/-- The eight windows' arrays, one by one: each a whole buffer, at the contents of the buffer behind it, at the
    window's share: the halves for the two pairs on one buffer, the full share for every other input and for the output. -/
theorem arrays1_eq (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    ((dat1 Vd c).arrays G : sProp 𝕄)
      = iprop((((c : Thread nD τ).loc main_arg1) ↦{fullShare} V' main_arg1)
          ∗ (((c : Thread nD τ).loc main_arg0) ↦{fullShare.left} V' main_arg0) ∗ (((c : Thread nD τ).loc main_arg0) ↦{fullShare.right} V' main_arg0)
          ∗ (((c : Thread nD τ).loc main_arg2) ↦{fullShare} V' main_arg2)
          ∗ (((c : Thread nD τ).loc main_v0) ↦{fullShare.left} V' main_v0) ∗ (((c : Thread nD τ).loc main_v0) ↦{fullShare.right} V' main_v0)
          ∗ (((c : Thread nD τ).loc main_arg3) ↦{fullShare} V' main_arg3) ∗ (((c : Thread nD τ).loc main_v1) ↦{fullShare} V' main_v1)) := by
  unfold Dat.arrays
  rw [bigSep_W1]
  have h0 : ((cfg1.win 0).arr.view.loc (c.tc : Thread nD τ) ↦[(cfg1.win 0).arr.view.set]{(dat1 Vd c).share 0} G 0 : sProp 𝕄)
      = (((c : Thread nD τ).loc main_arg1) ↦{fullShare} V' main_arg1) := by rw [(arr_whole1 0).set_eq_univ, hG 0]; rfl
  have h1 : ((cfg1.win 1).arr.view.loc (c.tc : Thread nD τ) ↦[(cfg1.win 1).arr.view.set]{(dat1 Vd c).share 1} G 1 : sProp 𝕄)
      = (((c : Thread nD τ).loc main_arg0) ↦{fullShare.left} V' main_arg0) := by rw [(arr_whole1 1).set_eq_univ, hG 1]; rfl
  have h2 : ((cfg1.win 2).arr.view.loc (c.tc : Thread nD τ) ↦[(cfg1.win 2).arr.view.set]{(dat1 Vd c).share 2} G 2 : sProp 𝕄)
      = (((c : Thread nD τ).loc main_arg0) ↦{fullShare.right} V' main_arg0) := by rw [(arr_whole1 2).set_eq_univ, hG 2]; rfl
  have h3 : ((cfg1.win 3).arr.view.loc (c.tc : Thread nD τ) ↦[(cfg1.win 3).arr.view.set]{(dat1 Vd c).share 3} G 3 : sProp 𝕄)
      = (((c : Thread nD τ).loc main_arg2) ↦{fullShare} V' main_arg2) := by rw [(arr_whole1 3).set_eq_univ, hG 3]; rfl
  have h4 : ((cfg1.win 4).arr.view.loc (c.tc : Thread nD τ) ↦[(cfg1.win 4).arr.view.set]{(dat1 Vd c).share 4} G 4 : sProp 𝕄)
      = (((c : Thread nD τ).loc main_v0) ↦{fullShare.left} V' main_v0) := by rw [(arr_whole1 4).set_eq_univ, hG 4]; rfl
  have h5 : ((cfg1.win 5).arr.view.loc (c.tc : Thread nD τ) ↦[(cfg1.win 5).arr.view.set]{(dat1 Vd c).share 5} G 5 : sProp 𝕄)
      = (((c : Thread nD τ).loc main_v0) ↦{fullShare.right} V' main_v0) := by rw [(arr_whole1 5).set_eq_univ, hG 5]; rfl
  have h6 : ((cfg1.win 6).arr.view.loc (c.tc : Thread nD τ) ↦[(cfg1.win 6).arr.view.set]{(dat1 Vd c).share 6} G 6 : sProp 𝕄)
      = (((c : Thread nD τ).loc main_arg3) ↦{fullShare} V' main_arg3) := by rw [(arr_whole1 6).set_eq_univ, hG 6]; rfl
  have h7 : ((cfg1.win 7).arr.view.loc (c.tc : Thread nD τ) ↦[(cfg1.win 7).arr.view.set]{(dat1 Vd c).share 7} G 7 : sProp 𝕄)
      = (((c : Thread nD τ).loc main_v1) ↦{fullShare} V' main_v1) := by rw [(arr_whole1 7).set_eq_univ, hG 7]; rfl
  rw [h0, h1, h2, h3, h4, h5, h6, h7]

/-- A whole buffer at the full share is its two halves. -/
theorem pointsTo_halves1 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq1 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs1_eq_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (Pipeline.arrBufs (Ix := Unit) (Name := ℕ) (U := UR sig nD τ) (Lvl := ℕ) spec1 c V' : sProp 𝕄) = (dat1 Vd c).arrays G := by
  rw [arrBufs1_eq, arrays1_eq Vd c V' G hG, pointsTo_halves1 (V' main_arg0), pointsTo_halves1 (V' main_v0), sep_assoc_eq1, sep_assoc_eq1]

/-- ENTRY: the six buffers, whole, are the eight windows' arrays at the proof data's shares. -/
theorem arrays1_of_arrBufs (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 Vd c).arrays G :=
  Entails.of_eq (arrBufs1_eq_arrays1 Vd c V' G hG)

/-- EXIT: and back. -/
theorem arrBufs_of_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (dat1 Vd c).arrays G ⊢ (Pipeline.arrBufs (Ix := Unit) (Name := ℕ) (U := UR sig nD τ) (Lvl := ℕ) spec1 c V' : sProp 𝕄) :=
  Entails.of_eq (arrBufs1_eq_arrays1 Vd c V' G hG).symm

end Cert.Kernel.Hand

end
-- ==== Proof.KFrameShare2.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v1) ↦{fullShare} V' main_v1)
          ∗ (((c : Thread nD τ).loc main_arg4) ↦{fullShare} V' main_arg4) ∗ (((c : Thread nD τ).loc main_v0) ↦{fullShare} V' main_v0)
          ∗ (((c : Thread nD τ).loc main_arg5) ↦{fullShare} V' main_arg5) ∗ (((c : Thread nD τ).loc main_v2) ↦{fullShare} V' main_v2)) := by
  unfold Pipeline.arrBufs
  exact bigSep_eq_bigSepL_of_eq [main_arg1, main_v1, main_arg4, main_v0, main_arg5, main_v2] (by decide) (by decide) _

/-- The eight windows' arrays, one by one: each a whole buffer, at the contents of the buffer behind it, at the
    window's share: the halves for the two pairs on one buffer, the full share for every other input and for the output. -/
theorem arrays2_eq (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    ((dat2 Vd c).arrays G : sProp 𝕄)
      = iprop((((c : Thread nD τ).loc main_arg1) ↦{fullShare} V' main_arg1)
          ∗ (((c : Thread nD τ).loc main_v1) ↦{fullShare.left} V' main_v1) ∗ (((c : Thread nD τ).loc main_v1) ↦{fullShare.right} V' main_v1)
          ∗ (((c : Thread nD τ).loc main_arg4) ↦{fullShare} V' main_arg4)
          ∗ (((c : Thread nD τ).loc main_v0) ↦{fullShare.left} V' main_v0) ∗ (((c : Thread nD τ).loc main_v0) ↦{fullShare.right} V' main_v0)
          ∗ (((c : Thread nD τ).loc main_arg5) ↦{fullShare} V' main_arg5) ∗ (((c : Thread nD τ).loc main_v2) ↦{fullShare} V' main_v2)) := by
  unfold Dat.arrays
  rw [bigSep_W2]
  have h0 : ((cfg2.win 0).arr.view.loc (c.tc : Thread nD τ) ↦[(cfg2.win 0).arr.view.set]{(dat2 Vd c).share 0} G 0 : sProp 𝕄)
      = (((c : Thread nD τ).loc main_arg1) ↦{fullShare} V' main_arg1) := by rw [(arr_whole2 0).set_eq_univ, hG 0]; rfl
  have h1 : ((cfg2.win 1).arr.view.loc (c.tc : Thread nD τ) ↦[(cfg2.win 1).arr.view.set]{(dat2 Vd c).share 1} G 1 : sProp 𝕄)
      = (((c : Thread nD τ).loc main_v1) ↦{fullShare.left} V' main_v1) := by rw [(arr_whole2 1).set_eq_univ, hG 1]; rfl
  have h2 : ((cfg2.win 2).arr.view.loc (c.tc : Thread nD τ) ↦[(cfg2.win 2).arr.view.set]{(dat2 Vd c).share 2} G 2 : sProp 𝕄)
      = (((c : Thread nD τ).loc main_v1) ↦{fullShare.right} V' main_v1) := by rw [(arr_whole2 2).set_eq_univ, hG 2]; rfl
  have h3 : ((cfg2.win 3).arr.view.loc (c.tc : Thread nD τ) ↦[(cfg2.win 3).arr.view.set]{(dat2 Vd c).share 3} G 3 : sProp 𝕄)
      = (((c : Thread nD τ).loc main_arg4) ↦{fullShare} V' main_arg4) := by rw [(arr_whole2 3).set_eq_univ, hG 3]; rfl
  have h4 : ((cfg2.win 4).arr.view.loc (c.tc : Thread nD τ) ↦[(cfg2.win 4).arr.view.set]{(dat2 Vd c).share 4} G 4 : sProp 𝕄)
      = (((c : Thread nD τ).loc main_v0) ↦{fullShare.left} V' main_v0) := by rw [(arr_whole2 4).set_eq_univ, hG 4]; rfl
  have h5 : ((cfg2.win 5).arr.view.loc (c.tc : Thread nD τ) ↦[(cfg2.win 5).arr.view.set]{(dat2 Vd c).share 5} G 5 : sProp 𝕄)
      = (((c : Thread nD τ).loc main_v0) ↦{fullShare.right} V' main_v0) := by rw [(arr_whole2 5).set_eq_univ, hG 5]; rfl
  have h6 : ((cfg2.win 6).arr.view.loc (c.tc : Thread nD τ) ↦[(cfg2.win 6).arr.view.set]{(dat2 Vd c).share 6} G 6 : sProp 𝕄)
      = (((c : Thread nD τ).loc main_arg5) ↦{fullShare} V' main_arg5) := by rw [(arr_whole2 6).set_eq_univ, hG 6]; rfl
  have h7 : ((cfg2.win 7).arr.view.loc (c.tc : Thread nD τ) ↦[(cfg2.win 7).arr.view.set]{(dat2 Vd c).share 7} G 7 : sProp 𝕄)
      = (((c : Thread nD τ).loc main_v2) ↦{fullShare} V' main_v2) := by rw [(arr_whole2 7).set_eq_univ, hG 7]; rfl
  rw [h0, h1, h2, h3, h4, h5, h6, h7]

/-- A whole buffer at the full share is its two halves. -/
theorem pointsTo_halves2 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq2 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs2_eq_arrays1 (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (Pipeline.arrBufs (Ix := Unit) (Name := ℕ) (U := UR sig nD τ) (Lvl := ℕ) spec2 c V' : sProp 𝕄) = (dat2 Vd c).arrays G := by
  rw [arrBufs2_eq, arrays2_eq Vd c V' G hG, pointsTo_halves2 (V' main_v1), pointsTo_halves2 (V' main_v0), sep_assoc_eq2, sep_assoc_eq2]

/-- ENTRY: the six buffers, whole, are the eight windows' arrays at the proof data's shares. -/
theorem arrays2_of_arrBufs (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (Pipeline.arrBufs (Ix := Unit) (Name := ℕ) (U := UR sig nD τ) (Lvl := ℕ) spec2 c V' : sProp 𝕄) ⊢ (dat2 Vd c).arrays G :=
  Entails.of_eq (arrBufs2_eq_arrays1 Vd c V' G hG)

/-- EXIT: and back. -/
theorem arrBufs_of_arrays2 (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (dat2 Vd c).arrays G ⊢ (Pipeline.arrBufs (Ix := Unit) (Name := ℕ) (U := UR sig nD τ) (Lvl := ℕ) spec2 c V' : sProp 𝕄) :=
  Entails.of_eq (arrBufs2_eq_arrays1 Vd c V' G hG).symm

end Cert.Kernel.Hand

end
-- ==== Proof.KFrameShare3.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs3_eq (c : Dev nD) (V' : (b : Ref sig .tc) → Buf (Elt F) ((c : Thread nD τ).loc b)) :
    (Pipeline.arrBufs (Ix := Unit) (Name := ℕ) (U := UR sig nD τ) (Lvl := ℕ) spec3 c V' : sProp 𝕄)
      = iprop((((c : Thread nD τ).loc main_arg1) ↦{fullShare} V' main_arg1) ∗ (((c : Thread nD τ).loc main_v2) ↦{fullShare} V' main_v2)
          ∗ (((c : Thread nD τ).loc main_arg6) ↦{fullShare} V' main_arg6) ∗ (((c : Thread nD τ).loc main_v0) ↦{fullShare} V' main_v0)
          ∗ (((c : Thread nD τ).loc main_arg7) ↦{fullShare} V' main_arg7) ∗ (((c : Thread nD τ).loc main_v3) ↦{fullShare} V' main_v3)) := by
  unfold Pipeline.arrBufs
  exact bigSep_eq_bigSepL_of_eq [main_arg1, main_v2, main_arg6, main_v0, main_arg7, main_v3] (by decide) (by decide) _

/-- The eight windows' arrays, one by one: each a whole buffer, at the contents of the buffer behind it, at the
    window's share: the halves for the two pairs on one buffer, the full share for every other input and for the output. -/
theorem arrays3_eq (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    ((dat3 Vd c).arrays G : sProp 𝕄)
      = iprop((((c : Thread nD τ).loc main_arg1) ↦{fullShare} V' main_arg1)
          ∗ (((c : Thread nD τ).loc main_v2) ↦{fullShare.left} V' main_v2) ∗ (((c : Thread nD τ).loc main_v2) ↦{fullShare.right} V' main_v2)
          ∗ (((c : Thread nD τ).loc main_arg6) ↦{fullShare} V' main_arg6)
          ∗ (((c : Thread nD τ).loc main_v0) ↦{fullShare.left} V' main_v0) ∗ (((c : Thread nD τ).loc main_v0) ↦{fullShare.right} V' main_v0)
          ∗ (((c : Thread nD τ).loc main_arg7) ↦{fullShare} V' main_arg7) ∗ (((c : Thread nD τ).loc main_v3) ↦{fullShare} V' main_v3)) := by
  unfold Dat.arrays
  rw [bigSep_W3]
  have h0 : ((cfg3.win 0).arr.view.loc (c.tc : Thread nD τ) ↦[(cfg3.win 0).arr.view.set]{(dat3 Vd c).share 0} G 0 : sProp 𝕄)
      = (((c : Thread nD τ).loc main_arg1) ↦{fullShare} V' main_arg1) := by rw [(arr_whole3 0).set_eq_univ, hG 0]; rfl
  have h1 : ((cfg3.win 1).arr.view.loc (c.tc : Thread nD τ) ↦[(cfg3.win 1).arr.view.set]{(dat3 Vd c).share 1} G 1 : sProp 𝕄)
      = (((c : Thread nD τ).loc main_v2) ↦{fullShare.left} V' main_v2) := by rw [(arr_whole3 1).set_eq_univ, hG 1]; rfl
  have h2 : ((cfg3.win 2).arr.view.loc (c.tc : Thread nD τ) ↦[(cfg3.win 2).arr.view.set]{(dat3 Vd c).share 2} G 2 : sProp 𝕄)
      = (((c : Thread nD τ).loc main_v2) ↦{fullShare.right} V' main_v2) := by rw [(arr_whole3 2).set_eq_univ, hG 2]; rfl
  have h3 : ((cfg3.win 3).arr.view.loc (c.tc : Thread nD τ) ↦[(cfg3.win 3).arr.view.set]{(dat3 Vd c).share 3} G 3 : sProp 𝕄)
      = (((c : Thread nD τ).loc main_arg6) ↦{fullShare} V' main_arg6) := by rw [(arr_whole3 3).set_eq_univ, hG 3]; rfl
  have h4 : ((cfg3.win 4).arr.view.loc (c.tc : Thread nD τ) ↦[(cfg3.win 4).arr.view.set]{(dat3 Vd c).share 4} G 4 : sProp 𝕄)
      = (((c : Thread nD τ).loc main_v0) ↦{fullShare.left} V' main_v0) := by rw [(arr_whole3 4).set_eq_univ, hG 4]; rfl
  have h5 : ((cfg3.win 5).arr.view.loc (c.tc : Thread nD τ) ↦[(cfg3.win 5).arr.view.set]{(dat3 Vd c).share 5} G 5 : sProp 𝕄)
      = (((c : Thread nD τ).loc main_v0) ↦{fullShare.right} V' main_v0) := by rw [(arr_whole3 5).set_eq_univ, hG 5]; rfl
  have h6 : ((cfg3.win 6).arr.view.loc (c.tc : Thread nD τ) ↦[(cfg3.win 6).arr.view.set]{(dat3 Vd c).share 6} G 6 : sProp 𝕄)
      = (((c : Thread nD τ).loc main_arg7) ↦{fullShare} V' main_arg7) := by rw [(arr_whole3 6).set_eq_univ, hG 6]; rfl
  have h7 : ((cfg3.win 7).arr.view.loc (c.tc : Thread nD τ) ↦[(cfg3.win 7).arr.view.set]{(dat3 Vd c).share 7} G 7 : sProp 𝕄)
      = (((c : Thread nD τ).loc main_v3) ↦{fullShare} V' main_v3) := by rw [(arr_whole3 7).set_eq_univ, hG 7]; rfl
  rw [h0, h1, h2, h3, h4, h5, h6, h7]

/-- A whole buffer at the full share is its two halves. -/
theorem pointsTo_halves3 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq3 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs3_eq_arrays1 (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (Pipeline.arrBufs (Ix := Unit) (Name := ℕ) (U := UR sig nD τ) (Lvl := ℕ) spec3 c V' : sProp 𝕄) = (dat3 Vd c).arrays G := by
  rw [arrBufs3_eq, arrays3_eq Vd c V' G hG, pointsTo_halves3 (V' main_v2), pointsTo_halves3 (V' main_v0), sep_assoc_eq3, sep_assoc_eq3]

/-- ENTRY: the six buffers, whole, are the eight windows' arrays at the proof data's shares. -/
theorem arrays3_of_arrBufs (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (Pipeline.arrBufs (Ix := Unit) (Name := ℕ) (U := UR sig nD τ) (Lvl := ℕ) spec3 c V' : sProp 𝕄) ⊢ (dat3 Vd c).arrays G :=
  Entails.of_eq (arrBufs3_eq_arrays1 Vd c V' G hG)

/-- EXIT: and back. -/
theorem arrBufs_of_arrays3 (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (dat3 Vd c).arrays G ⊢ (Pipeline.arrBufs (Ix := Unit) (Name := ℕ) (U := UR sig nD τ) (Lvl := ℕ) spec3 c V' : sProp 𝕄) :=
  Entails.of_eq (arrBufs3_eq_arrays1 Vd c V' G hG).symm

end Cert.Kernel.Hand

end
-- ==== Proof.KFrameRun.lean ====
import proofs.«166741_j53910429499630_1_alg».proof.Proof.Gen.Kernel.Launch
import proofs.«166741_j53910429499630_1_alg».proof.Proof.Gen.Kernel.Skeleton
import proofs.«166741_j53910429499630_1_alg».proof.Proof.Gen.Kernel.Points
import proofs.«166741_j53910429499630_1_alg».proof.Proof.KFrameR0
import proofs.«166741_j53910429499630_1_alg».proof.Proof.KFrameR1
import proofs.«166741_j53910429499630_1_alg».proof.Proof.KFrameR2
import proofs.«166741_j53910429499630_1_alg».proof.Proof.KFrameR3
import proofs.«166741_j53910429499630_1_alg».proof.Proof.KFrameShare1
import proofs.«166741_j53910429499630_1_alg».proof.Proof.KFrameShare2
import proofs.«166741_j53910429499630_1_alg».proof.Proof.KFrameShare3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four regions from the launch to the return

Between two regions core `c` holds every unscoped buffer whole at a valuation: the launch memory, then after each
region that valuation with the region's OUTPUT array at what its write-backs leave (the other arrays of a region are
inputs: unchanged). -/

variable (m : (ℓ : Loc nD τ sig) → Buf (Elt F) ℓ) (ρ : Dev nD → PrngReg)

/-- Core `c`'s buffers at launch. -/
abbrev E0 : Dev nD → Valuation τ sig (Elt F) := fun c b => m (c, b)
abbrev Vr0 : (c : Dev nD) → (b : Ref sig .tc) → Buf (Elt F) ((c : Thread nD τ).loc b) := fun c b => E0 m c b

/-- After region 0: the normaliser column `main_v0` at what the write-backs leave. -/
def E1 (c : Dev nD) : Valuation τ sig (Elt F) :=
  Function.update (E0 m c) (Proc.devRef .tc main_v0) ((dat0 (Vr0 m) c).arrAt 1 cfg0.N)
abbrev Vr1 : (c : Dev nD) → (b : Ref sig .tc) → Buf (Elt F) ((c : Thread nD τ).loc b) := fun c b => E1 m c b
theorem E1_self (c : Dev nD) : E1 m c (Proc.devRef .tc main_v0) = (dat0 (Vr0 m) c).arrAt 1 cfg0.N := by
  unfold E1; exact Function.update_self ..
theorem E1_of_ne (c : Dev nD) (b : Ref sig .tc) (h : b ≠ main_v0) : E1 m c (Proc.devRef .tc b) = E0 m c (Proc.devRef .tc b) := by
  unfold E1; exact Function.update_of_ne (StableHlo.devRef_ne_of_ne h) _ _
theorem hF0 (c : Dev nD) (w : Fin cfg0.W) : (dat0 (Vr0 m) c).arrAt w cfg0.N = Vr1 m c (Pipeline.arrRef spec0 w) :=
  match w with
  | ⟨0, _⟩ => (((dat0 (Vr0 m) c).arrAt_in 0 rfl _).trans (A_eq0 (Vr0 m) c 0)).trans (E1_of_ne m c main_arg1 (by decide)).symm
  | ⟨1, _⟩ => (E1_self m c).symm
theorem hrest0 (c : Dev nD) : ∀ b, b ∉ Finset.univ.image (Pipeline.arrRef spec0) → Vr1 m c b = Vr0 m c b :=
  fun b hb => E1_of_ne m c b fun e => hb (Finset.mem_image.mpr ⟨1, Finset.mem_univ _, e.symm⟩)

/-- After region 1: its output array `main_v1` at what the write-backs leave, every other buffer as before. -/
def E2 (c : Dev nD) : Valuation τ sig (Elt F) :=
  Function.update (E1 m c) (Proc.devRef .tc main_v1) ((dat1 (Vr1 m) c).arrAt 7 cfg1.N)
abbrev Vr2 : (c : Dev nD) → (b : Ref sig .tc) → Buf (Elt F) ((c : Thread nD τ).loc b) := fun c b => E2 m c b
theorem E2_self (c : Dev nD) : E2 m c (Proc.devRef .tc main_v1) = (dat1 (Vr1 m) c).arrAt 7 cfg1.N := by
  unfold E2; exact Function.update_self ..
theorem E2_of_ne (c : Dev nD) (b : Ref sig .tc) (h : b ≠ main_v1) : E2 m c (Proc.devRef .tc b) = E1 m c (Proc.devRef .tc b) := by
  unfold E2; exact Function.update_of_ne (StableHlo.devRef_ne_of_ne h) _ _
/-- At the exit each window's array holds what the pipeline leaves: an input its entry contents, the output its write-backs. -/
theorem hF1 (c : Dev nD) (w : Fin cfg1.W) : (dat1 (Vr1 m) c).arrAt w cfg1.N = Vr2 m c (Pipeline.arrRef spec1 w) :=
  match w with
  | ⟨0, _⟩ => (((dat1 (Vr1 m) c).arrAt_in 0 rfl _).trans (A_eq1 (Vr1 m) c 0)).trans (E2_of_ne m c main_arg1 (by decide)).symm
  | ⟨1, _⟩ => (((dat1 (Vr1 m) c).arrAt_in 1 rfl _).trans (A_eq1 (Vr1 m) c 1)).trans (E2_of_ne m c main_arg0 (by decide)).symm
  | ⟨2, _⟩ => (((dat1 (Vr1 m) c).arrAt_in 2 rfl _).trans (A_eq1 (Vr1 m) c 2)).trans (E2_of_ne m c main_arg0 (by decide)).symm
  | ⟨3, _⟩ => (((dat1 (Vr1 m) c).arrAt_in 3 rfl _).trans (A_eq1 (Vr1 m) c 3)).trans (E2_of_ne m c main_arg2 (by decide)).symm
  | ⟨4, _⟩ => (((dat1 (Vr1 m) c).arrAt_in 4 rfl _).trans (A_eq1 (Vr1 m) c 4)).trans (E2_of_ne m c main_v0 (by decide)).symm
  | ⟨5, _⟩ => (((dat1 (Vr1 m) c).arrAt_in 5 rfl _).trans (A_eq1 (Vr1 m) c 5)).trans (E2_of_ne m c main_v0 (by decide)).symm
  | ⟨6, _⟩ => (((dat1 (Vr1 m) c).arrAt_in 6 rfl _).trans (A_eq1 (Vr1 m) c 6)).trans (E2_of_ne m c main_arg3 (by decide)).symm
  | ⟨7, _⟩ => (E2_self m c).symm
theorem hrest1 (c : Dev nD) : ∀ b, b ∉ Finset.univ.image (Pipeline.arrRef spec1) → Vr2 m c b = Vr1 m c b :=
  fun b hb => E2_of_ne m c b fun e => hb (Finset.mem_image.mpr ⟨7, Finset.mem_univ _, e.symm⟩)

/-- After region 2: its output array `main_v2` at what the write-backs leave, every other buffer as before. -/
def E3 (c : Dev nD) : Valuation τ sig (Elt F) :=
  Function.update (E2 m c) (Proc.devRef .tc main_v2) ((dat2 (Vr2 m) c).arrAt 7 cfg2.N)
abbrev Vr3 : (c : Dev nD) → (b : Ref sig .tc) → Buf (Elt F) ((c : Thread nD τ).loc b) := fun c b => E3 m c b
theorem E3_self (c : Dev nD) : E3 m c (Proc.devRef .tc main_v2) = (dat2 (Vr2 m) c).arrAt 7 cfg2.N := by
  unfold E3; exact Function.update_self ..
theorem E3_of_ne (c : Dev nD) (b : Ref sig .tc) (h : b ≠ main_v2) : E3 m c (Proc.devRef .tc b) = E2 m c (Proc.devRef .tc b) := by
  unfold E3; exact Function.update_of_ne (StableHlo.devRef_ne_of_ne h) _ _
/-- At the exit each window's array holds what the pipeline leaves: an input its entry contents, the output its write-backs. -/
theorem hF2 (c : Dev nD) (w : Fin cfg2.W) : (dat2 (Vr2 m) c).arrAt w cfg2.N = Vr3 m c (Pipeline.arrRef spec2 w) :=
  match w with
  | ⟨0, _⟩ => (((dat2 (Vr2 m) c).arrAt_in 0 rfl _).trans (A_eq2 (Vr2 m) c 0)).trans (E3_of_ne m c main_arg1 (by decide)).symm
  | ⟨1, _⟩ => (((dat2 (Vr2 m) c).arrAt_in 1 rfl _).trans (A_eq2 (Vr2 m) c 1)).trans (E3_of_ne m c main_v1 (by decide)).symm
  | ⟨2, _⟩ => (((dat2 (Vr2 m) c).arrAt_in 2 rfl _).trans (A_eq2 (Vr2 m) c 2)).trans (E3_of_ne m c main_v1 (by decide)).symm
  | ⟨3, _⟩ => (((dat2 (Vr2 m) c).arrAt_in 3 rfl _).trans (A_eq2 (Vr2 m) c 3)).trans (E3_of_ne m c main_arg4 (by decide)).symm
  | ⟨4, _⟩ => (((dat2 (Vr2 m) c).arrAt_in 4 rfl _).trans (A_eq2 (Vr2 m) c 4)).trans (E3_of_ne m c main_v0 (by decide)).symm
  | ⟨5, _⟩ => (((dat2 (Vr2 m) c).arrAt_in 5 rfl _).trans (A_eq2 (Vr2 m) c 5)).trans (E3_of_ne m c main_v0 (by decide)).symm
  | ⟨6, _⟩ => (((dat2 (Vr2 m) c).arrAt_in 6 rfl _).trans (A_eq2 (Vr2 m) c 6)).trans (E3_of_ne m c main_arg5 (by decide)).symm
  | ⟨7, _⟩ => (E3_self m c).symm
theorem hrest2 (c : Dev nD) : ∀ b, b ∉ Finset.univ.image (Pipeline.arrRef spec2) → Vr3 m c b = Vr2 m c b :=
  fun b hb => E3_of_ne m c b fun e => hb (Finset.mem_image.mpr ⟨7, Finset.mem_univ _, e.symm⟩)

/-- After region 3: its output array `main_v3` at what the write-backs leave, every other buffer as before. -/
def E4 (c : Dev nD) : Valuation τ sig (Elt F) :=
  Function.update (E3 m c) (Proc.devRef .tc main_v3) ((dat3 (Vr3 m) c).arrAt 7 cfg3.N)
abbrev Vr4 : (c : Dev nD) → (b : Ref sig .tc) → Buf (Elt F) ((c : Thread nD τ).loc b) := fun c b => E4 m c b
theorem E4_self (c : Dev nD) : E4 m c (Proc.devRef .tc main_v3) = (dat3 (Vr3 m) c).arrAt 7 cfg3.N := by
  unfold E4; exact Function.update_self ..
theorem E4_of_ne (c : Dev nD) (b : Ref sig .tc) (h : b ≠ main_v3) : E4 m c (Proc.devRef .tc b) = E3 m c (Proc.devRef .tc b) := by
  unfold E4; exact Function.update_of_ne (StableHlo.devRef_ne_of_ne h) _ _
/-- At the exit each window's array holds what the pipeline leaves: an input its entry contents, the output its write-backs. -/
theorem hF3 (c : Dev nD) (w : Fin cfg3.W) : (dat3 (Vr3 m) c).arrAt w cfg3.N = Vr4 m c (Pipeline.arrRef spec3 w) :=
  match w with
  | ⟨0, _⟩ => (((dat3 (Vr3 m) c).arrAt_in 0 rfl _).trans (A_eq3 (Vr3 m) c 0)).trans (E4_of_ne m c main_arg1 (by decide)).symm
  | ⟨1, _⟩ => (((dat3 (Vr3 m) c).arrAt_in 1 rfl _).trans (A_eq3 (Vr3 m) c 1)).trans (E4_of_ne m c main_v2 (by decide)).symm
  | ⟨2, _⟩ => (((dat3 (Vr3 m) c).arrAt_in 2 rfl _).trans (A_eq3 (Vr3 m) c 2)).trans (E4_of_ne m c main_v2 (by decide)).symm
  | ⟨3, _⟩ => (((dat3 (Vr3 m) c).arrAt_in 3 rfl _).trans (A_eq3 (Vr3 m) c 3)).trans (E4_of_ne m c main_arg6 (by decide)).symm
  | ⟨4, _⟩ => (((dat3 (Vr3 m) c).arrAt_in 4 rfl _).trans (A_eq3 (Vr3 m) c 4)).trans (E4_of_ne m c main_v0 (by decide)).symm
  | ⟨5, _⟩ => (((dat3 (Vr3 m) c).arrAt_in 5 rfl _).trans (A_eq3 (Vr3 m) c 5)).trans (E4_of_ne m c main_v0 (by decide)).symm
  | ⟨6, _⟩ => (((dat3 (Vr3 m) c).arrAt_in 6 rfl _).trans (A_eq3 (Vr3 m) c 6)).trans (E4_of_ne m c main_arg7 (by decide)).symm
  | ⟨7, _⟩ => (E4_self m c).symm
theorem hrest3 (c : Dev nD) : ∀ b, b ∉ Finset.univ.image (Pipeline.arrRef spec3) → Vr4 m c b = Vr3 m c b :=
  fun b hb => E4_of_ne m c b fun e => hb (Finset.mem_image.mpr ⟨7, Finset.mem_univ _, e.symm⟩)

/-! ## The proof data family and the thread state -/

/-- No pipeline has a prefetched table. -/
abbrev admH : (p : Fin 4) → (pcfgs (F := F) p).Adm := fun p => (cfgs p).toPCfg_adm
/-- Every pipeline's proof data, each at its region's entry contents: a literal match. -/
def pdats : (p : Fin 4) → (c : Dev nD) → Dat τ (Elt F) Unit ℕ (UR sig nD τ) ℕ (Pipeline.pin (pcfgs (F := F)) admH p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
abbrev 𝒱₀ : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and owing nothing. -/
abbrev RH (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `E0`, left at `E1`; its two arrays are
    distinct buffers, each whole. -/
def reg0 : Pipeline.RegionSeg (pcfgs (F := F)) admH (pdats m) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ LH lvH 0 fun _ _ => rfl
  pre c := iprop(StableHlo.held (c : Thread nD τ) (Pipeline.ucRefs τ sig) (E0 m c) ∗ RH c)
  post c := iprop(StableHlo.held (c : Thread nD τ) (Pipeline.ucRefs τ sig) (E1 m c) ∗ RH c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 over the thread state: entered from every unscoped buffer at `E1`, left at `E2`. Its six buffers
    split out of the unscoped buffers and dealt to the eight windows (the two shared ones by halves), and put back at
    the exit with the output array at what the write-backs leave; the generator register into the invariant and out. -/
def reg1 : Pipeline.RegionSeg (pcfgs (F := F)) admH (pdats m) () defs₀ 𝒱₀ LH lvH 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ LH lvH 1 fun _ _ => rfl
  pre c := iprop(StableHlo.held (c : Thread nD τ) (Pipeline.ucRefs τ sig) (E1 m c) ∗ RH c)
  post c := iprop(StableHlo.held (c : Thread nD τ) (Pipeline.ucRefs τ sig) (E2 m c) ∗ RH c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.unscopedBufs_split₀ (Ix := Unit) (Name := ℕ) (U := UR sig nD τ) (Lvl := ℕ) (cfgs) (1 : Fin 4) winFacts₀1.arr_unscoped c (Vr1 m c)
    rw [Pipeline.unscopedBufs_held] at hsplit
    have harr := arrays1_of_arrBufs (Vr1 m) c (Vr1 m c) ((dat1 (Vr1 m) c).arrAt · 0) (fun w => A_eq1 (Vr1 m) c w)
    have hsp : (StableHlo.held (c : Thread nD τ) (Pipeline.ucRefs τ sig) (E1 m c) : sProp 𝕄)
        ⊢ iprop((pdats m 1 c).arrays ((pdats m 1 c).arrAt · 0)
            ∗ Pipeline.unscopedRest (Ix := Unit) (Name := ℕ) (U := UR sig nD τ) (Lvl := ℕ) spec1 c (Vr1 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (admH (F := F) 1).1
          ∗ Pipeline.scopedRest (Ix := Unit) (Name := ℕ) (U := UR sig nD τ) (Lvl := ℕ) (Val := Elt F) spec1 c)
        ⊢ (Pipeline.ΦA (U := UR sig nD τ) (Val := Elt F) spec1 c : sProp 𝕄) := by
      unfold Pipeline.ΦA
      iintro ⟨Hp, -, Hr⟩
      isplitl [Hr]; · iexact Hr
      iexact Hp
    exact hA.trans (hin1 (Vr1 m) c)
  hout c := by
    rw [Pipeline.ownSems0_none]
    have hA : (Pipeline.ΦA (U := UR sig nD τ) (Val := Elt F) spec1 c : sProp 𝕄)
        ⊢ iprop((∃ r, prngReg c r) ∗ emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Vr1 m) c).trans hA
  hexit c := by
    have hsplit := Pipeline.unscopedBufs_split₀ (Ix := Unit) (Name := ℕ) (U := UR sig nD τ) (Lvl := ℕ) (cfgs) (1 : Fin 4) winFacts₀1.arr_unscoped c (Vr2 m c)
    rw [Pipeline.unscopedBufs_held] at hsplit
    have hbufs := arrBufs_of_arrays1 (Vr1 m) c (Vr2 m c) ((dat1 (Vr1 m) c).arrAt · cfg1.N) (hF1 m c)
    have hrest : (Pipeline.unscopedRest (Ix := Unit) (Name := ℕ) (U := UR sig nD τ) (Lvl := ℕ) spec1 c (Vr1 m c) : sProp 𝕄)
        = Pipeline.unscopedRest spec1 c (Vr2 m c) := by
      unfold Pipeline.unscopedRest
      exact bigSep_congr fun b hb => by rw [hrest1 m c b (Finset.mem_sdiff.mp hb).2]
    have hj : iprop((pdats m 1 c).arrays ((pdats m 1 c).arrAt · (Pipeline.pin (pcfgs (F := F)) admH 1).N)
          ∗ Pipeline.unscopedRest (Ix := Unit) (Name := ℕ) (U := UR sig nD τ) (Lvl := ℕ) spec1 c (Vr1 m c))
        ⊢ (StableHlo.held (c : Thread nD τ) (Pipeline.ucRefs τ sig) (E2 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 over the thread state: entered from every unscoped buffer at `E2`, left at `E3`. Its six buffers
    split out of the unscoped buffers and dealt to the eight windows (the two shared ones by halves), and put back at
    the exit with the output array at what the write-backs leave; the generator register into the invariant and out. -/
def reg2 : Pipeline.RegionSeg (pcfgs (F := F)) admH (pdats m) () defs₀ 𝒱₀ LH lvH 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ LH lvH 2 fun _ _ => rfl
  pre c := iprop(StableHlo.held (c : Thread nD τ) (Pipeline.ucRefs τ sig) (E2 m c) ∗ RH c)
  post c := iprop(StableHlo.held (c : Thread nD τ) (Pipeline.ucRefs τ sig) (E3 m c) ∗ RH c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.unscopedBufs_split₀ (Ix := Unit) (Name := ℕ) (U := UR sig nD τ) (Lvl := ℕ) (cfgs) (2 : Fin 4) winFacts₀2.arr_unscoped c (Vr2 m c)
    rw [Pipeline.unscopedBufs_held] at hsplit
    have harr := arrays2_of_arrBufs (Vr2 m) c (Vr2 m c) ((dat2 (Vr2 m) c).arrAt · 0) (fun w => A_eq2 (Vr2 m) c w)
    have hsp : (StableHlo.held (c : Thread nD τ) (Pipeline.ucRefs τ sig) (E2 m c) : sProp 𝕄)
        ⊢ iprop((pdats m 2 c).arrays ((pdats m 2 c).arrAt · 0)
            ∗ Pipeline.unscopedRest (Ix := Unit) (Name := ℕ) (U := UR sig nD τ) (Lvl := ℕ) spec2 c (Vr2 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 2).pre c (fun _ => fullShare) (admH (F := F) 2).1
          ∗ Pipeline.scopedRest (Ix := Unit) (Name := ℕ) (U := UR sig nD τ) (Lvl := ℕ) (Val := Elt F) spec2 c)
        ⊢ (Pipeline.ΦA (U := UR sig nD τ) (Val := Elt F) spec2 c : sProp 𝕄) := by
      unfold Pipeline.ΦA
      iintro ⟨Hp, -, Hr⟩
      isplitl [Hr]; · iexact Hr
      iexact Hp
    exact hA.trans (hin2 (Vr2 m) c)
  hout c := by
    rw [Pipeline.ownSems0_none]
    have hA : (Pipeline.ΦA (U := UR sig nD τ) (Val := Elt F) spec2 c : sProp 𝕄)
        ⊢ iprop((∃ r, prngReg c r) ∗ emp
          ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (Vr2 m) c).trans hA
  hexit c := by
    have hsplit := Pipeline.unscopedBufs_split₀ (Ix := Unit) (Name := ℕ) (U := UR sig nD τ) (Lvl := ℕ) (cfgs) (2 : Fin 4) winFacts₀2.arr_unscoped c (Vr3 m c)
    rw [Pipeline.unscopedBufs_held] at hsplit
    have hbufs := arrBufs_of_arrays2 (Vr2 m) c (Vr3 m c) ((dat2 (Vr2 m) c).arrAt · cfg2.N) (hF2 m c)
    have hrest : (Pipeline.unscopedRest (Ix := Unit) (Name := ℕ) (U := UR sig nD τ) (Lvl := ℕ) spec2 c (Vr2 m c) : sProp 𝕄)
        = Pipeline.unscopedRest spec2 c (Vr3 m c) := by
      unfold Pipeline.unscopedRest
      exact bigSep_congr fun b hb => by rw [hrest2 m c b (Finset.mem_sdiff.mp hb).2]
    have hj : iprop((pdats m 2 c).arrays ((pdats m 2 c).arrAt · (Pipeline.pin (pcfgs (F := F)) admH 2).N)
          ∗ Pipeline.unscopedRest (Ix := Unit) (Name := ℕ) (U := UR sig nD τ) (Lvl := ℕ) spec2 c (Vr2 m c))
        ⊢ (StableHlo.held (c : Thread nD τ) (Pipeline.ucRefs τ sig) (E3 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 over the thread state: entered from every unscoped buffer at `E3`, left at `E4`. Its six buffers
    split out of the unscoped buffers and dealt to the eight windows (the two shared ones by halves), and put back at
    the exit with the output array at what the write-backs leave; the generator register into the invariant and out. -/
def reg3 : Pipeline.RegionSeg (pcfgs (F := F)) admH (pdats m) () defs₀ 𝒱₀ LH lvH 3 where
  win := winFacts₀3
  block_pos := block_pos3
  stage_whole := stage_whole3
  K := PEmpty
  osem k := k.elim
  ho := Pipeline.OwnSemFacts.none _
  hbody c := (body_obligation3 (Vr3 m) c).loose
  hwaits := Pipeline.hwaits_of_owed_zero _ _ _ _ LH lvH 3 fun _ _ => rfl
  pre c := iprop(StableHlo.held (c : Thread nD τ) (Pipeline.ucRefs τ sig) (E3 m c) ∗ RH c)
  post c := iprop(StableHlo.held (c : Thread nD τ) (Pipeline.ucRefs τ sig) (E4 m c) ∗ RH c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.unscopedBufs_split₀ (Ix := Unit) (Name := ℕ) (U := UR sig nD τ) (Lvl := ℕ) (cfgs) (3 : Fin 4) winFacts₀3.arr_unscoped c (Vr3 m c)
    rw [Pipeline.unscopedBufs_held] at hsplit
    have harr := arrays3_of_arrBufs (Vr3 m) c (Vr3 m c) ((dat3 (Vr3 m) c).arrAt · 0) (fun w => A_eq3 (Vr3 m) c w)
    have hsp : (StableHlo.held (c : Thread nD τ) (Pipeline.ucRefs τ sig) (E3 m c) : sProp 𝕄)
        ⊢ iprop((pdats m 3 c).arrays ((pdats m 3 c).arrAt · 0)
            ∗ Pipeline.unscopedRest (Ix := Unit) (Name := ℕ) (U := UR sig nD τ) (Lvl := ℕ) spec3 c (Vr3 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 3).pre c (fun _ => fullShare) (admH (F := F) 3).1
          ∗ Pipeline.scopedRest (Ix := Unit) (Name := ℕ) (U := UR sig nD τ) (Lvl := ℕ) (Val := Elt F) spec3 c)
        ⊢ (Pipeline.ΦA (U := UR sig nD τ) (Val := Elt F) spec3 c : sProp 𝕄) := by
      unfold Pipeline.ΦA
      iintro ⟨Hp, -, Hr⟩
      isplitl [Hr]; · iexact Hr
      iexact Hp
    exact hA.trans (hin3 (Vr3 m) c)
  hout c := by
    rw [Pipeline.ownSems0_none]
    have hA : (Pipeline.ΦA (U := UR sig nD τ) (Val := Elt F) spec3 c : sProp 𝕄)
        ⊢ iprop((∃ r, prngReg c r) ∗ emp
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (Vr3 m) c).trans hA
  hexit c := by
    have hsplit := Pipeline.unscopedBufs_split₀ (Ix := Unit) (Name := ℕ) (U := UR sig nD τ) (Lvl := ℕ) (cfgs) (3 : Fin 4) winFacts₀3.arr_unscoped c (Vr4 m c)
    rw [Pipeline.unscopedBufs_held] at hsplit
    have hbufs := arrBufs_of_arrays3 (Vr3 m) c (Vr4 m c) ((dat3 (Vr3 m) c).arrAt · cfg3.N) (hF3 m c)
    have hrest : (Pipeline.unscopedRest (Ix := Unit) (Name := ℕ) (U := UR sig nD τ) (Lvl := ℕ) spec3 c (Vr3 m c) : sProp 𝕄)
        = Pipeline.unscopedRest spec3 c (Vr4 m c) := by
      unfold Pipeline.unscopedRest
      exact bigSep_congr fun b hb => by rw [hrest3 m c b (Finset.mem_sdiff.mp hb).2]
    have hj : iprop((pdats m 3 c).arrays ((pdats m 3 c).arrAt · (Pipeline.pin (pcfgs (F := F)) admH 3).N)
          ∗ Pipeline.unscopedRest (Ix := Unit) (Name := ℕ) (U := UR sig nD τ) (Lvl := ℕ) spec3 c (Vr3 m c))
        ⊢ (StableHlo.held (c : Thread nD τ) (Pipeline.ucRefs τ sig) (E4 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ LH lvH) :=
  [.region (reg0 m), .region (reg1 m), .region (reg2 m), .region (reg3 m)]

set_option backward.isDefEq.respectTransparency.types false in
/-- THE RUN. From any memory with zero counters every weakly fair execution of @main terminates, nothing faulting, and in
    every final state each unscoped buffer of core `c` holds what the fold `E4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E4 m c b) :=
  Pipeline.θ_run_regions_kit (pcfgs (F := F)) admH (pdats m) () cellOf_inj emb₁ defs₀ 𝒱₀ LH lvH m ρ main (segs m)
    (fun c Q => by rw [main_segs admH (pdats m) () 𝒱₀ LH lvH (reg0 m) (reg1 m) (reg2 m) (reg3 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ RH c))
    (Tₙ := fun c => iprop(StableHlo.held (c : Thread nD τ) (Pipeline.ucRefs τ sig) (E4 m c) ∗ ∃ r, prngReg c r))
    (hch := ⟨fun _ => .rfl, fun _ => .rfl, fun _ => .rfl, fun _ => .rfl, fun c => by
      show (iprop(StableHlo.held (c : Thread nD τ) (Pipeline.ucRefs τ sig) (E4 m c) ∗ RH c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m c b)
    (hfin := fun c s' => by
      iintro ⟨⟨Hh, -⟩, HSI⟩
      unfold StableHlo.held
      imodintro
      iapply (pointsTo_read_all (Pipeline.ucRefs τ sig) (fun b => (((c : Thread nD τ)).1, b)) (E4 m c) s')
      isplitl [Hh] <;> iassumption)
    (hQ := fun s h c => h c)

/-! ## What the claims read off the run -/

/-- A buffer no region writes ends as launched. -/
theorem E4_of_arg (c : Dev nD) (b : Ref sig .tc) (h0 : b ≠ main_v0) (h1 : b ≠ main_v1) (h2 : b ≠ main_v2) (h3 : b ≠ main_v3) :
    E4 m c (Proc.devRef .tc b) = m ((c : Thread nD τ).loc b) :=
  (E4_of_ne m c b h3).trans <| (E3_of_ne m c b h2).trans <| (E2_of_ne m c b h1).trans <| (E1_of_ne m c b h0).trans rfl

/-- THE FRAME: every weakly fair execution terminates, nothing faulting, the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (E4_of_arg m c main_arg0 (by decide) (by decide) (by decide) (by decide)),
      (h c _ (mem_uc main_arg1 (by decide))).trans (E4_of_arg m c main_arg1 (by decide) (by decide) (by decide) (by decide)),
      (h c _ (mem_uc main_arg2 (by decide))).trans (E4_of_arg m c main_arg2 (by decide) (by decide) (by decide) (by decide)),
      (h c _ (mem_uc main_arg3 (by decide))).trans (E4_of_arg m c main_arg3 (by decide) (by decide) (by decide) (by decide)),
      (h c _ (mem_uc main_arg4 (by decide))).trans (E4_of_arg m c main_arg4 (by decide) (by decide) (by decide) (by decide)),
      (h c _ (mem_uc main_arg5 (by decide))).trans (E4_of_arg m c main_arg5 (by decide) (by decide) (by decide) (by decide)),
      (h c _ (mem_uc main_arg6 (by decide))).trans (E4_of_arg m c main_arg6 (by decide) (by decide) (by decide) (by decide)),
      (h c _ (mem_uc main_arg7 (by decide))).trans (E4_of_arg m c main_arg7 (by decide) (by decide) (by decide) (by decide))⟩) (run_all m ρ)

/-- The same run with the result array named: it ends at what the last region's write-backs leave. -/
theorem run_out : θ_run defs (onTc (τ := τ) (main (F := F))) ⟨m, fun _ => 0, ρ⟩ (fun r => ∀ c : Dev nD,
      r.2.mem ((c.tc : Thread nD τ).loc main_v3) = E4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h c _ (mem_uc main_v3 (by decide)),
      (h c _ (mem_uc main_arg0 (by decide))).trans (E4_of_arg m c main_arg0 (by decide) (by decide) (by decide) (by decide)),
      (h c _ (mem_uc main_arg1 (by decide))).trans (E4_of_arg m c main_arg1 (by decide) (by decide) (by decide) (by decide)),
      (h c _ (mem_uc main_arg2 (by decide))).trans (E4_of_arg m c main_arg2 (by decide) (by decide) (by decide) (by decide)),
      (h c _ (mem_uc main_arg3 (by decide))).trans (E4_of_arg m c main_arg3 (by decide) (by decide) (by decide) (by decide)),
      (h c _ (mem_uc main_arg4 (by decide))).trans (E4_of_arg m c main_arg4 (by decide) (by decide) (by decide) (by decide)),
      (h c _ (mem_uc main_arg5 (by decide))).trans (E4_of_arg m c main_arg5 (by decide) (by decide) (by decide) (by decide)),
      (h c _ (mem_uc main_arg6 (by decide))).trans (E4_of_arg m c main_arg6 (by decide) (by decide) (by decide) (by decide)),
      (h c _ (mem_uc main_arg7 (by decide))).trans (E4_of_arg m c main_arg7 (by decide) (by decide) (by decide) (by decide))⟩) (run_all m ρ)

end Cert.Kernel.Hand

end
-- ==== Proof.FrameR0.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The degree pass: one row block of `adj` in, that block's `(row sum + 1)^(-1/2)` column out

At a PARAMETER `V`, the TensorCore's buffer contents when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 256×8192 input buffer and the whole 256×1 output buffer, as rectangles. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the output's staging buffer: its one store, of the payload of the loaded block. -/
def out0_1 (x0 : Vec F S256x8192 .f32) : Vec F S256x1 .f32 :=
  View.canon [⟨rOut0, k0_pay1 (View.ld x0 rIn0)⟩]

/-- The proof data: arrays as found; after the body the input at its block, the output at `out0_1` of it; the
    invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Input window 0's current staging buffer holds its block at every point, for any proof data whose array is
    `V`'s and whose body leaves the block in place: the window is uncut and never idle, so an unfetched point finds
    what the previous one left, which is the same block because the index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

/-- The one store is of the whole 256×1 buffer, so its rectangle covers every index. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The kernel on whole staging memrefs: the input's at contents `x0`, the output's at anything. It loads the input
    whole, loads the output (a value nothing reads), and stores the payload of the loaded input over the whole
    output; so it returns with the input as it was and the output at `out0_1 x0`. -/
theorem sound_kernel0 (c : Dev nD) (E : Set ℕ) (i : grid0.Coords)
    (arg1 : Memref sig .tc .vmem S256x8192 .f32) (harg1 : arg1.IsWhole)
    (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__degree_kernel i arg1 harg1 arg2 harg2) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-- What the body is handed at point `t`: the invariant, the core's debt, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block, so the kernel's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameWhole.lean ====
import proofs.«166741_j53910429499630_1_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer accesses

Every access of the body goes through the rectangle of the buffer's own sizes at zero offsets: a load through it of a
whole memref reads the contents, and a store through it, made last, leaves its payload. -/

/-- The zero offsets of a rank-2 whole-buffer rectangle, however spelt. -/
theorem zeros2 : (![0, 0] : Fin 2 → ℕ) = fun _ => 0 := funext fun a => by fin_cases a <;> rfl
/-- The zero offset of a rank-1 whole-buffer rectangle. -/
theorem zeros1 : (![0] : Fin 1 → ℕ) = fun _ => 0 := funext fun a => by fin_cases a; rfl

/-- A buffer whose LAST store went through the whole-buffer rectangle reads that store's payload, whatever it held and
    whatever was stored before. -/
theorem read_writes_whole_last {sg : RefSig} {κ : Kind} {sp : Space} {S : Shape} {e : EltTy} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h]

/-- A load through the whole-buffer rectangle of a whole memref holding `X` reads `X`. -/
theorem readAt_whole {sg : RefSig} {κ : Kind} {sp : Space} {S : Shape} {e : EltTy} {m : Memref sg κ sp S e} (hm : m.IsWhole)
    {off : Fin S.rank → ℕ} (h : off = fun _ => 0) (inb : ∀ a, off a + S.size a ≤ S.size a) (X : S.Idx → Elt F e) :
    m.view.readAt (Elt F) (Rect.unit off S.size inb).toLoadRect (hm.unread X) = X := by
  rw [View.readAt_eq_ld, hm.read_unread, View.ld_unit_zero h]

end Cert.KernelIdeal.Hand

end
-- ==== Proof.FrameR1Body.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 0), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond1_0 (i : grid1.Coords) : Prop := (Scalar.cmpi .ne (Scalar.extui (Scalar.cmpi .eq (BitVec.ofNat 32 (i 1).val) 0#32)) 0#32) = 1#1
/-- The second conditional's test, `k = 7`. -/
abbrev cond1_1 (i : grid1.Coords) : Prop := k1_cond2 i = 1#1

set_option maxHeartbeats 1000000 in
/-- CASE A, `k = 0`: the accumulator, at anything, ends at one step from the zero block. -/
theorem sound_kernel1_A (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : cond1_0 i) (hc1 : ¬cond1_1 i)
    (x2 : Vec F S1024x1024 .f32) (x3 : Vec F S1024x64 .f32) (x5 : Vec F S64x128 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k1_pay3 x5 x3 x6 x2 (k1_pay1 (F := F)))) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2]
  sl_unfold_run_names
  rw [View.readCov_unit_zero (S := S1024x128) _ zeros2, readAt_whole (S := S64x128) harg5 zeros2,
    readAt_whole (S := S1024x64) harg3 zeros2, readAt_whole (S := S1024x1) harg6 zeros2,
    readAt_whole (S := S1024x1024) harg2 zeros2]

set_option maxHeartbeats 1000000 in
/-- CASE B, `0 < k < 7`: the accumulator moves one step from what it held. -/
theorem sound_kernel1_B (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond1_0 i) (hc1 : ¬cond1_1 i)
    (x2 : Vec F S1024x1024 .f32) (x3 : Vec F S1024x64 .f32) (x5 : Vec F S64x128 .f32) (x6 : Vec F S1024x1 .f32)
    (xs : Vec F S1024x128 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k1_pay3 x5 x3 x6 x2 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2, readAt_whole (S := S64x128) harg5 zeros2,
    readAt_whole (S := S1024x64) harg3 zeros2, readAt_whole (S := S1024x1) harg6 zeros2,
    readAt_whole (S := S1024x1024) harg2 zeros2, readAt_whole (S := S1024x128) harg10 zeros2]

set_option maxHeartbeats 1000000 in
/-- CASE C, `k = 7`: the accumulator moves one step and the output block is stored from it. -/
theorem sound_kernel1_C (c : Dev nD) (E : Set ℕ) (i : grid1.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond1_0 i) (hc1 : cond1_1 i)
    (x2 : Vec F S1024x1024 .f32) (x3 : Vec F S1024x64 .f32) (x4 : Vec F S1024x64 .f32) (x5 : Vec F S64x128 .f32)
    (x6 : Vec F S1024x1 .f32) (x7 : Vec F S1024x1 .f32) (x8 : Vec F S128 .f32)
    (xs : Vec F S1024x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k1_pay4 x5 x4 x7 (k1_pay3 x5 x3 x6 x2 xs) x7 x8)
            ∗ owns (c : Thread nD τ) arg10 fullShare (k1_pay3 x5 x3 x6 x2 xs)) -∗ K ⟨⟩))
      ⊢ wp frame (wpE (defs₀ (F := F)) Variants.none c none) E (cc1_kernel i arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x128) _ _ zeros2, View.readCov_unit_zero (S := S1024x128) _ zeros2,
      readAt_whole (S := S64x128) harg5 zeros2, readAt_whole (S := S1024x64) harg4 zeros2,
      readAt_whole (S := S1024x1) harg7 zeros2, readAt_whole (S := S1024x64) harg3 zeros2,
      readAt_whole (S := S1024x1) harg6 zeros2, readAt_whole (S := S1024x1024) harg2 zeros2,
      readAt_whole (S := S1024x128) harg10 zeros2, readAt_whole (S := S128) harg8 zeros1]
  iexists _; isplitr; swap; · iexact HS
  ipureintro
  sl_unfold_run_names
  rw [read_writes_whole_last (S := S1024x128) _ _ zeros2, readAt_whole (S := S64x128) harg5 zeros2,
    readAt_whole (S := S1024x64) harg3 zeros2, readAt_whole (S := S1024x1) harg6 zeros2,
    readAt_whole (S := S1024x1024) harg2 zeros2, readAt_whole (S := S1024x128) harg10 zeros2]

end Cert.KernelIdeal.Hand

end
-- ==== Proof.FrameR1.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR1Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks at a point, each at its literal type. -/
abbrev adjB1 (c : Dev nD) (t : Fin cfg1.N) : Vec F S1024x1024 .f32 := iblk1 V c 0 t
abbrev hkB1 (c : Dev nD) (t : Fin cfg1.N) : Vec F S1024x64 .f32 := iblk1 V c 1 t
abbrev hiB1 (c : Dev nD) (t : Fin cfg1.N) : Vec F S1024x64 .f32 := iblk1 V c 2 t
abbrev wB1 (c : Dev nD) (t : Fin cfg1.N) : Vec F S64x128 .f32 := iblk1 V c 3 t
abbrev dkB1 (c : Dev nD) (t : Fin cfg1.N) : Vec F S1024x1 .f32 := iblk1 V c 4 t
abbrev diB1 (c : Dev nD) (t : Fin cfg1.N) : Vec F S1024x1 .f32 := iblk1 V c 5 t
abbrev bB1 (c : Dev nD) (t : Fin cfg1.N) : Vec F S128 .f32 := iblk1 V c 6 t

/-- THE ACCUMULATION: what the accumulator holds after the body at position `n`: one step (`k1_pay3`) from the zero
    block where `k = 0`, from what the point before left elsewhere. -/
def acc1 (c : Dev nD) : (n : ℕ) → n < cfg1.N → Vec F S1024x128 .f32
  | 0, hn => k1_pay3 (wB1 V c ⟨0, hn⟩) (hkB1 V c ⟨0, hn⟩) (dkB1 V c ⟨0, hn⟩) (adjB1 V c ⟨0, hn⟩) (k1_pay1 (F := F))
  | n + 1, hn =>
    if (n + 1) % 8 = 0 then
      k1_pay3 (wB1 V c ⟨n + 1, hn⟩) (hkB1 V c ⟨n + 1, hn⟩) (dkB1 V c ⟨n + 1, hn⟩) (adjB1 V c ⟨n + 1, hn⟩) (k1_pay1 (F := F))
    else
      k1_pay3 (wB1 V c ⟨n + 1, hn⟩) (hkB1 V c ⟨n + 1, hn⟩) (dkB1 V c ⟨n + 1, hn⟩) (adjB1 V c ⟨n + 1, hn⟩) (acc1 c n (Nat.lt_of_succ_lt hn))

/-- The accumulator after a point with `k = 0`. -/
theorem acc1_reset (c : Dev nD) (t : Fin cfg1.N) (h : t.val % 8 = 0) :
    acc1 V c t.val t.isLt = k1_pay3 (wB1 V c t) (hkB1 V c t) (dkB1 V c t) (adjB1 V c t) (k1_pay1 (F := F)) := by
  obtain ⟨n, hn⟩ := t
  cases n with
  | zero => rfl
  | succ n => exact if_pos h
/-- The accumulator after a point with `k ≠ 0`. -/
theorem acc1_step (c : Dev nD) (t : Fin cfg1.N) (h : ¬t.val % 8 = 0) :
    acc1 V c t.val t.isLt = k1_pay3 (wB1 V c t) (hkB1 V c t) (dkB1 V c t) (adjB1 V c t)
      (acc1 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out1 (c : Dev nD) (t : Fin cfg1.N) : Vec F S1024x128 .f32 :=
  k1_pay4 (wB1 V c t) (hiB1 V c t) (diB1 V c t) (acc1 V c t.val t.isLt) (diB1 V c t) (bB1 V c t)

/-- The accumulator's memref: the kernel's one scratch operand, whole. -/
abbrev scM1 : Memref sig .tc .vmem S1024x128 .f32 := Memref.whole cc1_scratch0

/-- The region invariant before position `n`: before the first point what the launch hands the region (every
    scoped buffer no window stages at anything, the generator register); afterwards the accumulator at what the point
    before left, the other such buffers at anything, the register. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0]
      ∗ (∃ r, prngReg c r)) := rfl

/-- The proof data: arrays as found; after the body each input at its block and the output at `out1`; the invariant
    `PhiS1`; the two windows on one array at its two halves, every other input whole; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem after1_7 (c : Dev nD) (t : Fin cfg1.N) : (dat1 V c).after 7 t = out1 V c t := by dsimp only [dat1]
theorem owed1 (c : Dev nD) (t : Fin (cfg1.N + 1)) : (dat1 V c).owed t = 0 := rfl

/-! ## The conditions in closed form, and where the windows are live -/

/-- The first test holds at the points ≡ 0 (mod 8): decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The second test holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-- The inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Where `k ≠ 7` the output window is idle and not written back; where `k = 7` it is live. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-- What the launch hands the region, with the accumulator as a memref owned at some contents. -/
theorem PhiA1_eq (c : Dev nD) :
    (Pipeline.ΦA spec1 c : sProp 𝕄)
      = iprop((iprop(∃ d, owns (c : Thread nD τ) scM1 fullShare d) ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What the body finds in the inputs' buffers -/

/-- What the body leaves in each input's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]

/-- Each input's current staging buffer holds its block at every point, fetched there or not: an input is never
    idle and its block is left in place, so an unfetched point finds the block of the point before, which is this
    point's because the index has not moved. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

/-! ## The invariant at a point's start -/

/-- Before a point that is not the first: the accumulator at what the point before left. -/
theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]
      ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! ## The body obligation, at a generic point -/

/-- What the body is handed at point `t`: the invariant, the core's debt, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
      unfold Dat.leavesExact; rw [liveAt1_1 t], after1_1]
  rw [show (dat1 V c).leavesExact 2 t = owns (c : Thread nD τ) (st1_2 t) fullShare ((dat1 V c).after 2 t) from by
      unfold Dat.leavesExact; rw [liveAt1_2 t], after1_2]
  rw [show (dat1 V c).leavesExact 3 t = owns (c : Thread nD τ) (st1_3 t) fullShare ((dat1 V c).after 3 t) from by
      unfold Dat.leavesExact; rw [liveAt1_3 t], after1_3]
  rw [show (dat1 V c).leavesExact 4 t = owns (c : Thread nD τ) (st1_4 t) fullShare ((dat1 V c).after 4 t) from by
      unfold Dat.leavesExact; rw [liveAt1_4 t], after1_4]
  rw [show (dat1 V c).leavesExact 5 t = owns (c : Thread nD τ) (st1_5 t) fullShare ((dat1 V c).after 5 t) from by
      unfold Dat.leavesExact; rw [liveAt1_5 t], after1_5]
  rw [show (dat1 V c).leavesExact 6 t = owns (c : Thread nD τ) (st1_6 t) fullShare ((dat1 V c).after 6 t) from by
      unfold Dat.leavesExact; rw [liveAt1_6 t], after1_6]
  by_cases h0 : t.val % 8 = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [acc1_reset V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_A c Set.univ (grid1.coords t) _ _ _ _ _ _ _ _ _ _ _ _ _ _ _ _ _ _ hc0 hc1
        (adjB1 V c t) (hkB1 V c t) (wB1 V c t) (dkB1 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_A c Set.univ (grid1.coords t) _ _ _ _ _ _ _ _ _ _ _ _ _ _ _ _ _ _ hc0 hc1
        (adjB1 V c t) (hkB1 V c t) (wB1 V c t) (dkB1 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond1_0 (grid1.coords t) := fun h => h0 ((hcond1_0 t).mp h)
    have hz : t.val ≠ 0 := fun h => h0 (by rw [h])
    by_cases h1 : t.val % 8 = 7
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7]
      unfold out1
      rw [acc1_step V c t h0]
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel1_C c Set.univ (grid1.coords t) _ _ _ _ _ _ _ _ _ _ _ _ _ _ _ _ _ _ hc0 hc1
        (adjB1 V c t) (hkB1 V c t) (hiB1 V c t) (wB1 V c t) (dkB1 V c t) (diB1 V c t) (bB1 V c t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t hc1)]
      rw [acc1_step V c t h0]
      rw [PhiS1_castSucc V c t, PhiS1_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel1_B c Set.univ (grid1.coords t) _ _ _ _ _ _ _ _ _ _ _ _ _ _ _ _ _ _ hc0 hc1
        (adjB1 V c t) (hkB1 V c t) (wB1 V c t) (dkB1 V c t) (acc1 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point but the first the invariant gives back what the launch handed the region: the accumulator's
    contents are forgotten. -/
theorem Phi_out1 (c : Dev nD) (t : Fin (cfg1.N + 1)) (ht : t.val ≠ 0) :
    (dat1 V c).Φ t ⊢ Pipeline.ΦA (U := UR sig nD τ) (Val := Elt F) spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives it back: the accumulator's contents are forgotten. -/
theorem hout1 (c : Dev nD) : (dat1 V c).Φ (Fin.last cfg1.N) ⊢ Pipeline.ΦA (U := UR sig nD τ) (Val := Elt F) spec1 c :=
  Phi_out1 V c _ (by rw [Fin.val_last]; have : cfg1.N = 64 := N_1; omega)

end Cert.KernelIdeal.Hand

end
-- ==== Proof.FrameR2Body.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 1), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond2_0 (i : grid2.Coords) : Prop := (Scalar.cmpi .ne (Scalar.extui (Scalar.cmpi .eq (BitVec.ofNat 32 (i 1).val) 0#32)) 0#32) = 1#1
/-- The second conditional's test, `k = 7`. -/
abbrev cond2_1 (i : grid2.Coords) : Prop := k2_cond2 i = 1#1

set_option maxHeartbeats 1000000 in
/-- CASE A, `k = 0`: the accumulator, at anything, ends at one step from the zero block. -/
theorem sound_kernel2_A (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : cond2_0 i) (hc1 : ¬cond2_1 i)
    (x2 : Vec F S1024x1024 .f32) (x3 : Vec F S1024x128 .f32) (x5 : Vec F S128x128 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k2_pay3 x5 x3 x6 x2 (k2_pay1 (F := F)))) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2]
  sl_unfold_run_names
  rw [View.readCov_unit_zero (S := S1024x128) _ zeros2, readAt_whole (S := S128x128) harg5 zeros2,
    readAt_whole (S := S1024x128) harg3 zeros2, readAt_whole (S := S1024x1) harg6 zeros2,
    readAt_whole (S := S1024x1024) harg2 zeros2]

set_option maxHeartbeats 1000000 in
/-- CASE B, `0 < k < 7`: the accumulator moves one step from what it held. -/
theorem sound_kernel2_B (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond2_0 i) (hc1 : ¬cond2_1 i)
    (x2 : Vec F S1024x1024 .f32) (x3 : Vec F S1024x128 .f32) (x5 : Vec F S128x128 .f32) (x6 : Vec F S1024x1 .f32)
    (xs : Vec F S1024x128 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k2_pay3 x5 x3 x6 x2 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x128) _ _ zeros2, readAt_whole (S := S128x128) harg5 zeros2,
    readAt_whole (S := S1024x128) harg3 zeros2, readAt_whole (S := S1024x1) harg6 zeros2,
    readAt_whole (S := S1024x1024) harg2 zeros2, readAt_whole (S := S1024x128) harg10 zeros2]

set_option maxHeartbeats 1000000 in
/-- CASE C, `k = 7`: the accumulator moves one step and the output block is stored from it. -/
theorem sound_kernel2_C (c : Dev nD) (E : Set ℕ) (i : grid2.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S128 .f32) (harg8 : arg8.IsWhole) (arg9 : Memref sig .tc .vmem S1024x128 .f32) (harg9 : arg9.IsWhole) (arg10 : Memref sig .tc .vmem S1024x128 .f32) (harg10 : arg10.IsWhole)
    (hc0 : ¬cond2_0 i) (hc1 : cond2_1 i)
    (x2 : Vec F S1024x1024 .f32) (x3 : Vec F S1024x128 .f32) (x4 : Vec F S1024x128 .f32) (x5 : Vec F S128x128 .f32)
    (x6 : Vec F S1024x1 .f32) (x7 : Vec F S1024x1 .f32) (x8 : Vec F S128 .f32)
    (xs : Vec F S1024x128 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k2_pay4 x5 x4 x7 (k2_pay3 x5 x3 x6 x2 xs) x7 x8)
            ∗ owns (c : Thread nD τ) arg10 fullShare (k2_pay3 x5 x3 x6 x2 xs)) -∗ K ⟨⟩))
      ⊢ wp frame (wpE (defs₀ (F := F)) Variants.none c none) E (cc2_kernel i arg2 harg2 arg3 harg3 arg4 harg4 arg5 harg5 arg6 harg6 arg7 harg7 arg8 harg8 arg9 harg9 arg10 harg10) K := by
  simp only [cc2_kernel_eq_skeleton]; unfold cc2_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x128) _ _ zeros2, View.readCov_unit_zero (S := S1024x128) _ zeros2,
      readAt_whole (S := S128x128) harg5 zeros2, readAt_whole (S := S1024x128) harg4 zeros2,
      readAt_whole (S := S1024x1) harg7 zeros2, readAt_whole (S := S1024x128) harg3 zeros2,
      readAt_whole (S := S1024x1) harg6 zeros2, readAt_whole (S := S1024x1024) harg2 zeros2,
      readAt_whole (S := S1024x128) harg10 zeros2, readAt_whole (S := S128) harg8 zeros1]
  iexists _; isplitr; swap; · iexact HS
  ipureintro
  sl_unfold_run_names
  rw [read_writes_whole_last (S := S1024x128) _ _ zeros2, readAt_whole (S := S128x128) harg5 zeros2,
    readAt_whole (S := S1024x128) harg3 zeros2, readAt_whole (S := S1024x1) harg6 zeros2,
    readAt_whole (S := S1024x1024) harg2 zeros2, readAt_whole (S := S1024x128) harg10 zeros2]

end Cert.KernelIdeal.Hand

end
-- ==== Proof.FrameR2.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input blocks at a point, each at its literal type. -/
abbrev adjB2 (c : Dev nD) (t : Fin cfg2.N) : Vec F S1024x1024 .f32 := iblk2 V c 0 t
abbrev hkB2 (c : Dev nD) (t : Fin cfg2.N) : Vec F S1024x128 .f32 := iblk2 V c 1 t
abbrev hiB2 (c : Dev nD) (t : Fin cfg2.N) : Vec F S1024x128 .f32 := iblk2 V c 2 t
abbrev wB2 (c : Dev nD) (t : Fin cfg2.N) : Vec F S128x128 .f32 := iblk2 V c 3 t
abbrev dkB2 (c : Dev nD) (t : Fin cfg2.N) : Vec F S1024x1 .f32 := iblk2 V c 4 t
abbrev diB2 (c : Dev nD) (t : Fin cfg2.N) : Vec F S1024x1 .f32 := iblk2 V c 5 t
abbrev bB2 (c : Dev nD) (t : Fin cfg2.N) : Vec F S128 .f32 := iblk2 V c 6 t

/-- THE ACCUMULATION: what the accumulator holds after the body at position `n`: one step (`k2_pay3`) from the zero
    block where `k = 0`, from what the point before left elsewhere. -/
def acc2 (c : Dev nD) : (n : ℕ) → n < cfg2.N → Vec F S1024x128 .f32
  | 0, hn => k2_pay3 (wB2 V c ⟨0, hn⟩) (hkB2 V c ⟨0, hn⟩) (dkB2 V c ⟨0, hn⟩) (adjB2 V c ⟨0, hn⟩) (k2_pay1 (F := F))
  | n + 1, hn =>
    if (n + 1) % 8 = 0 then
      k2_pay3 (wB2 V c ⟨n + 1, hn⟩) (hkB2 V c ⟨n + 1, hn⟩) (dkB2 V c ⟨n + 1, hn⟩) (adjB2 V c ⟨n + 1, hn⟩) (k2_pay1 (F := F))
    else
      k2_pay3 (wB2 V c ⟨n + 1, hn⟩) (hkB2 V c ⟨n + 1, hn⟩) (dkB2 V c ⟨n + 1, hn⟩) (adjB2 V c ⟨n + 1, hn⟩) (acc2 c n (Nat.lt_of_succ_lt hn))

/-- The accumulator after a point with `k = 0`. -/
theorem acc2_reset (c : Dev nD) (t : Fin cfg2.N) (h : t.val % 8 = 0) :
    acc2 V c t.val t.isLt = k2_pay3 (wB2 V c t) (hkB2 V c t) (dkB2 V c t) (adjB2 V c t) (k2_pay1 (F := F)) := by
  obtain ⟨n, hn⟩ := t
  cases n with
  | zero => rfl
  | succ n => exact if_pos h
/-- The accumulator after a point with `k ≠ 0`. -/
theorem acc2_step (c : Dev nD) (t : Fin cfg2.N) (h : ¬t.val % 8 = 0) :
    acc2 V c t.val t.isLt = k2_pay3 (wB2 V c t) (hkB2 V c t) (dkB2 V c t) (adjB2 V c t)
      (acc2 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out2 (c : Dev nD) (t : Fin cfg2.N) : Vec F S1024x128 .f32 :=
  k2_pay4 (wB2 V c t) (hiB2 V c t) (diB2 V c t) (acc2 V c t.val t.isLt) (diB2 V c t) (bB2 V c t)

/-- The accumulator's memref: the kernel's one scratch operand, whole. -/
abbrev scM2 : Memref sig .tc .vmem S1024x128 .f32 := Memref.whole cc2_scratch0

/-- The region invariant before position `n`: before the first point what the launch hands the region (every
    scoped buffer no window stages at anything, the generator register); afterwards the accumulator at what the point
    before left, the other such buffers at anything, the register. -/
def PhiS2 (c : Dev nD) : (n : ℕ) → n ≤ cfg2.N → sProp 𝕄
  | 0, _ => Pipeline.ΦA spec2 c
  | n + 1, hn => iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2 fullShare (acc2 V c n hn)
      ∗ Pipeline.scopedRestBut (Ix := Unit) (Name := ℕ) (U := UR sig nD τ) (Lvl := ℕ) (Val := Elt F) spec2 c [cc2_scratch0]
      ∗ (∃ r, prngReg c r)) := rfl

/-- The proof data: arrays as found; after the body each input at its block and the output at `out2`; the invariant
    `PhiS2`; the two windows on one array at its two halves, every other input whole; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2 V c t
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq2 (c : Dev nD) (w : Fin cfg2.W) : (dat2 V c).A w = V c (Pipeline.arrRef spec2 w) := by
  dsimp only [dat2]
theorem after2_7 (c : Dev nD) (t : Fin cfg2.N) : (dat2 V c).after 7 t = out2 V c t := by dsimp only [dat2]
theorem owed2 (c : Dev nD) (t : Fin (cfg2.N + 1)) : (dat2 V c).owed t = 0 := rfl

/-! ## The conditions in closed form, and where the windows are live -/

/-- The first test holds at the points ≡ 0 (mod 8): decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The second test holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-- The inputs are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
theorem liveAt2_6 : ∀ t : Fin cfg2.N, cfg2.idle 6 (grid2.coords t) = false := by decide +kernel
/-- Where `k ≠ 7` the output window is idle and not written back; where `k = 7` it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-- What the launch hands the region, with the accumulator as a memref owned at some contents. -/
theorem PhiA2_eq (c : Dev nD) :
    (Pipeline.ΦA spec2 c : sProp 𝕄)
      = iprop((iprop(∃ d, owns (c : Thread nD τ) scM2 fullShare d) ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-! ## What the body finds in the inputs' buffers -/

/-- What the body leaves in each input's buffer: its block. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-- Each input's current staging buffer holds its block at every point, fetched there or not: an input is never
    idle and its block is left in place, so an unfetched point finds the block of the point before, which is this
    point's because the index has not moved. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
      (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
      (fun t => by rw [after2_6]; unfold Dat.blockOf iblk2; rw [A_eq2]; try rfl) t d).trans
    (by unfold Dat.fetched Dat.blockOf iblk2; rw [A_eq2]; try rfl)

/-! ## The invariant at a point's start -/

/-- Before a point that is not the first: the accumulator at what the point before left. -/
theorem PhiS2_pos (c : Dev nD) (n : ℕ) (h : n ≤ cfg2.N) (hz : n ≠ 0) :
    PhiS2 V c n h = iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]
      ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The body obligation, at a generic point -/

/-- What the body is handed at point `t`: the invariant, the core's debt, and each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (st2_0 t) fullShare ((dat2 V c).after 0 t) from by
      unfold Dat.leavesExact; rw [liveAt2_0 t], after2_0]
  rw [show (dat2 V c).leavesExact 1 t = owns (c : Thread nD τ) (st2_1 t) fullShare ((dat2 V c).after 1 t) from by
      unfold Dat.leavesExact; rw [liveAt2_1 t], after2_1]
  rw [show (dat2 V c).leavesExact 2 t = owns (c : Thread nD τ) (st2_2 t) fullShare ((dat2 V c).after 2 t) from by
      unfold Dat.leavesExact; rw [liveAt2_2 t], after2_2]
  rw [show (dat2 V c).leavesExact 3 t = owns (c : Thread nD τ) (st2_3 t) fullShare ((dat2 V c).after 3 t) from by
      unfold Dat.leavesExact; rw [liveAt2_3 t], after2_3]
  rw [show (dat2 V c).leavesExact 4 t = owns (c : Thread nD τ) (st2_4 t) fullShare ((dat2 V c).after 4 t) from by
      unfold Dat.leavesExact; rw [liveAt2_4 t], after2_4]
  rw [show (dat2 V c).leavesExact 5 t = owns (c : Thread nD τ) (st2_5 t) fullShare ((dat2 V c).after 5 t) from by
      unfold Dat.leavesExact; rw [liveAt2_5 t], after2_5]
  rw [show (dat2 V c).leavesExact 6 t = owns (c : Thread nD τ) (st2_6 t) fullShare ((dat2 V c).after 6 t) from by
      unfold Dat.leavesExact; rw [liveAt2_6 t], after2_6]
  by_cases h0 : t.val % 8 = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_reset V c t h0]
    by_cases hz : t.val = 0
    · rw [PhiS2_castSucc V c t, PhiS2_zero V c _ _ hz, PhiA2_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_A c Set.univ (grid2.coords t) _ _ _ _ _ _ _ _ _ _ _ _ _ _ _ _ _ _ hc0 hc1
        (adjB2 V c t) (hkB2 V c t) (wB2 V c t) (dkB2 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_A c Set.univ (grid2.coords t) _ _ _ _ _ _ _ _ _ _ _ _ _ _ _ _ _ _ hc0 hc1
        (adjB2 V c t) (hkB2 V c t) (wB2 V c t) (dkB2 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond2_0 (grid2.coords t) := fun h => h0 ((hcond2_0 t).mp h)
    have hz : t.val ≠ 0 := fun h => h0 (by rw [h])
    by_cases h1 : t.val % 8 = 7
    · have hc1 : cond2_1 (grid2.coords t) := (hcond2_1 t).mpr h1
      rw [show (dat2 V c).leavesExact 7 t = owns (c : Thread nD τ) (st2_7 t) fullShare ((dat2 V c).after 7 t) from by
        unfold Dat.leavesExact; rw [liveAt2_7 t hc1], after2_7]
      unfold out2
      rw [acc2_step V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel2_C c Set.univ (grid2.coords t) _ _ _ _ _ _ _ _ _ _ _ _ _ _ _ _ _ _ hc0 hc1
        (adjB2 V c t) (hkB2 V c t) (hiB2 V c t) (wB2 V c t) (dkB2 V c t) (diB2 V c t) (bB2 V c t) (acc2 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      rw [acc2_step V c t h0]
      rw [PhiS2_castSucc V c t, PhiS2_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel2_B c Set.univ (grid2.coords t) _ _ _ _ _ _ _ _ _ _ _ _ _ _ _ _ _ _ hc0 hc1
        (adjB2 V c t) (hkB2 V c t) (wB2 V c t) (dkB2 V c t) (acc2 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After any point but the first the invariant gives back what the launch handed the region: the accumulator's
    contents are forgotten. -/
theorem Phi_out2 (c : Dev nD) (t : Fin (cfg2.N + 1)) (ht : t.val ≠ 0) :
    (dat2 V c).Φ t ⊢ Pipeline.ΦA (U := UR sig nD τ) (Val := Elt F) spec2 c := by
  rw [show (dat2 V c).Φ t = PhiS2 V c t.val (Nat.le_of_lt_succ t.isLt) from rfl, PhiS2_pos V c _ _ ht, PhiA2_eq]
  iintro ⟨HS, HR, Hg⟩
  isplitl [HS HR]
  · isplitl [HS]
    · iexists _; iexact HS
    iexact HR
  iexact Hg

/-- After the last point the invariant gives it back: the accumulator's contents are forgotten. -/
theorem hout2 (c : Dev nD) : (dat2 V c).Φ (Fin.last cfg2.N) ⊢ Pipeline.ΦA (U := UR sig nD τ) (Val := Elt F) spec2 c :=
  Phi_out2 V c _ (by rw [Fin.val_last]; have : cfg2.N = 64 := N_2; omega)

end Cert.KernelIdeal.Hand

end
-- ==== Proof.FrameR3Body.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # One graph-convolution layer's kernel body (layer 2), in its three control cases

The body at grid point `(i, k)`: reset the accumulator if `k = 0`; add `adj_blk · ((h_k · W) ∘ d_k)` to it; if `k` is
the last, store `max (((acc + (h_i · W) ∘ d_i) ∘ d_i) + b) 0`. The memrefs: `arg2` the adjacency block, `arg3` / `arg4`
the feature rows of the column block / of the row block, `arg5` the weight, `arg6` / `arg7` the normaliser of the
column block / row block, `arg8` the bias, `arg9` the output block, `arg10` the accumulator. -/

/-- The first conditional's test, `k = 0`, as the body computes it from the grid coordinates. -/
abbrev cond3_0 (i : grid3.Coords) : Prop := (Scalar.cmpi .ne (Scalar.extui (Scalar.cmpi .eq (BitVec.ofNat 32 (i 1).val) 0#32)) 0#32) = 1#1
/-- The second conditional's test, `k = 7`. -/
abbrev cond3_1 (i : grid3.Coords) : Prop := k3_cond2 i = 1#1

set_option maxHeartbeats 1000000 in
/-- CASE A, `k = 0`: the accumulator, at anything, ends at one step from the zero block. -/
theorem sound_kernel3_A (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : cond3_0 i) (hc1 : ¬cond3_1 i)
    (x2 : Vec F S1024x1024 .f32) (x3 : Vec F S1024x128 .f32) (x5 : Vec F S128x64 .f32) (x6 : Vec F S1024x1 .f32)
    (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ (∃ d, owns (c : Thread nD τ) arg10 fullShare d)
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k3_pay3 x5 x3 x6 x2 (k3_pay1 (F := F)))) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f5, %hf5, H5⟩, ⟨%f6, %hf6, H6⟩, ⟨%ds, %fs, -, HS⟩, Hk⟩
  obtain rfl := harg2.eq_unread hf2; obtain rfl := harg3.eq_unread hf3; obtain rfl := harg5.eq_unread hf5
  obtain rfl := harg6.eq_unread hf6
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x64) _ _ zeros2]
  sl_unfold_run_names
  rw [View.readCov_unit_zero (S := S1024x64) _ zeros2, readAt_whole (S := S128x64) harg5 zeros2,
    readAt_whole (S := S1024x128) harg3 zeros2, readAt_whole (S := S1024x1) harg6 zeros2,
    readAt_whole (S := S1024x1024) harg2 zeros2]

set_option maxHeartbeats 1000000 in
/-- CASE B, `0 < k < 7`: the accumulator moves one step from what it held. -/
theorem sound_kernel3_B (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : ¬cond3_0 i) (hc1 : ¬cond3_1 i)
    (x2 : Vec F S1024x1024 .f32) (x3 : Vec F S1024x128 .f32) (x5 : Vec F S128x64 .f32) (x6 : Vec F S1024x1 .f32)
    (xs : Vec F S1024x64 .f32) (K : PUnit → sProp 𝕄) :
    iprop(owns (c : Thread nD τ) arg2 fullShare x2 ∗ owns (c : Thread nD τ) arg3 fullShare x3 ∗ owns (c : Thread nD τ) arg5 fullShare x5 ∗ owns (c : Thread nD τ) arg6 fullShare x6
        ∗ owns (c : Thread nD τ) arg10 fullShare xs
        ∗ (iprop(owns (c : Thread nD τ) arg2 fullShare x2 ∗ owns (c : Thread nD τ) arg3 fullShare x3 ∗ owns (c : Thread nD τ) arg5 fullShare x5 ∗ owns (c : Thread nD τ) arg6 fullShare x6
            ∗ owns (c : Thread nD τ) arg10 fullShare (k3_pay3 x5 x3 x6 x2 xs)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f5, %hf5, H5⟩, ⟨%f6, %hf6, H6⟩, ⟨%fs, %hfs, HS⟩, Hk⟩
  obtain rfl := harg2.eq_unread hf2; obtain rfl := harg3.eq_unread hf3; obtain rfl := harg5.eq_unread hf5
  obtain rfl := harg6.eq_unread hf6; obtain rfl := harg10.eq_unread hfs
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H5]
  · iexists _; isplitr; · ipureintro; exact harg5.read_unread _
    iexact H5
  isplitl [H6]
  · iexists _; isplitr; · ipureintro; exact harg6.read_unread _
    iexact H6

  iexists _; isplitr; swap; · iexact HS
  ipureintro
  rw [read_writes_whole_last (S := S1024x64) _ _ zeros2, readAt_whole (S := S128x64) harg5 zeros2,
    readAt_whole (S := S1024x128) harg3 zeros2, readAt_whole (S := S1024x1) harg6 zeros2,
    readAt_whole (S := S1024x1024) harg2 zeros2, readAt_whole (S := S1024x64) harg10 zeros2]

set_option maxHeartbeats 1000000 in
/-- CASE C, `k = 7`: the accumulator moves one step and the output block is stored from it. -/
theorem sound_kernel3_C (c : Dev nD) (E : Set ℕ) (i : grid3.Coords) (arg2 : Memref sig .tc .vmem S1024x1024 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S64 .f32) (harg8 : arg8.IsWhole) (arg9 : Memref sig .tc .vmem S1024x64 .f32) (harg9 : arg9.IsWhole) (arg10 : Memref sig .tc .vmem S1024x64 .f32) (harg10 : arg10.IsWhole)
    (hc0 : ¬cond3_0 i) (hc1 : cond3_1 i)
    (x2 : Vec F S1024x1024 .f32) (x3 : Vec F S1024x128 .f32) (x4 : Vec F S1024x128 .f32) (x5 : Vec F S128x64 .f32)
    (x6 : Vec F S1024x1 .f32) (x7 : Vec F S1024x1 .f32) (x8 : Vec F S64 .f32)
    (xs : Vec F S1024x64 .f32) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8 ∗ (∃ d, owns (c : Thread nD τ) arg9 fullShare d) ∗ owns (c : Thread nD τ) arg10 fullShare xs
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (k3_pay4 x5 x4 x7 (k3_pay3 x5 x3 x6 x2 xs) x7 x8)
            ∗ owns (c : Thread nD τ) arg10 fullShare (k3_pay3 x5 x3 x6 x2 xs)) -∗ K ⟨⟩))
      ⊢ wp frame (wpE (defs₀ (F := F)) Variants.none c none) E (cc3_kernel i arg2 harg2 arg3 harg3 arg4 harg4 arg5 harg5 arg6 harg6 arg7 harg7 arg8 harg8 arg9 harg9 arg10 harg10) K := by
  simp only [cc3_kernel_eq_skeleton]; unfold cc3_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg10.eq_unread hfs
  sl_exec (disch := first | exact hc0 | exact hc1)
  sl_step

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8

  isplitl [H9]
  · iexists _; isplitr; swap; · iexact H9
    ipureintro
    sl_unfold_run_names
    rw [read_writes_whole_last (S := S1024x64) _ _ zeros2, View.readCov_unit_zero (S := S1024x64) _ zeros2,
      readAt_whole (S := S128x64) harg5 zeros2, readAt_whole (S := S1024x128) harg4 zeros2,
      readAt_whole (S := S1024x1) harg7 zeros2, readAt_whole (S := S1024x128) harg3 zeros2,
      readAt_whole (S := S1024x1) harg6 zeros2, readAt_whole (S := S1024x1024) harg2 zeros2,
      readAt_whole (S := S1024x64) harg10 zeros2, readAt_whole (S := S64) harg8 zeros1]
  iexists _; isplitr; swap; · iexact HS
  ipureintro
  sl_unfold_run_names
  rw [read_writes_whole_last (S := S1024x64) _ _ zeros2, readAt_whole (S := S128x64) harg5 zeros2,
    readAt_whole (S := S1024x128) harg3 zeros2, readAt_whole (S := S1024x1) harg6 zeros2,
    readAt_whole (S := S1024x1024) harg2 zeros2, readAt_whole (S := S1024x64) harg10 zeros2]

end Cert.KernelIdeal.Hand

end
-- ==== Proof.FrameR3.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR3Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2's region: the proof data of its pipeline and the body obligation

At a PARAMETER `V`, the TensorCore's buffer contents when the region is entered. The grid is 8 × 8, point
`t = 8 i + k`. Windows: 0 the adjacency block `(i, k)`, 1 / 2 the feature rows of block `k` / block `i`, 3 the weight,
4 / 5 the normaliser rows of block `k` / block `i`, 6 the bias, 7 the output block `i` (stored at `k = 7` only, written
back there, idle before). Windows 1 and 2 read ONE array, and so do 4 and 5: each holds half of it. -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The input blocks at a point, each at its literal type. -/
abbrev adjB3 (c : Dev nD) (t : Fin cfg3.N) : Vec F S1024x1024 .f32 := iblk3 V c 0 t
abbrev hkB3 (c : Dev nD) (t : Fin cfg3.N) : Vec F S1024x128 .f32 := iblk3 V c 1 t
abbrev hiB3 (c : Dev nD) (t : Fin cfg3.N) : Vec F S1024x128 .f32 := iblk3 V c 2 t
abbrev wB3 (c : Dev nD) (t : Fin cfg3.N) : Vec F S128x64 .f32 := iblk3 V c 3 t
abbrev dkB3 (c : Dev nD) (t : Fin cfg3.N) : Vec F S1024x1 .f32 := iblk3 V c 4 t
abbrev diB3 (c : Dev nD) (t : Fin cfg3.N) : Vec F S1024x1 .f32 := iblk3 V c 5 t
abbrev bB3 (c : Dev nD) (t : Fin cfg3.N) : Vec F S64 .f32 := iblk3 V c 6 t

/-- THE ACCUMULATION: what the accumulator holds after the body at position `n`: one step (`k3_pay3`) from the zero
    block where `k = 0`, from what the point before left elsewhere. -/
def acc3 (c : Dev nD) : (n : ℕ) → n < cfg3.N → Vec F S1024x64 .f32
  | 0, hn => k3_pay3 (wB3 V c ⟨0, hn⟩) (hkB3 V c ⟨0, hn⟩) (dkB3 V c ⟨0, hn⟩) (adjB3 V c ⟨0, hn⟩) (k3_pay1 (F := F))
  | n + 1, hn =>
    if (n + 1) % 8 = 0 then
      k3_pay3 (wB3 V c ⟨n + 1, hn⟩) (hkB3 V c ⟨n + 1, hn⟩) (dkB3 V c ⟨n + 1, hn⟩) (adjB3 V c ⟨n + 1, hn⟩) (k3_pay1 (F := F))
    else
      k3_pay3 (wB3 V c ⟨n + 1, hn⟩) (hkB3 V c ⟨n + 1, hn⟩) (dkB3 V c ⟨n + 1, hn⟩) (adjB3 V c ⟨n + 1, hn⟩) (acc3 c n (Nat.lt_of_succ_lt hn))

/-- The accumulator after a point with `k = 0`. -/
theorem acc3_reset (c : Dev nD) (t : Fin cfg3.N) (h : t.val % 8 = 0) :
    acc3 V c t.val t.isLt = k3_pay3 (wB3 V c t) (hkB3 V c t) (dkB3 V c t) (adjB3 V c t) (k3_pay1 (F := F)) := by
  obtain ⟨n, hn⟩ := t
  cases n with
  | zero => rfl
  | succ n => exact if_pos h
/-- The accumulator after a point with `k ≠ 0`. -/
theorem acc3_step (c : Dev nD) (t : Fin cfg3.N) (h : ¬t.val % 8 = 0) :
    acc3 V c t.val t.isLt = k3_pay3 (wB3 V c t) (hkB3 V c t) (dkB3 V c t) (adjB3 V c t)
      (acc3 V c (t.val - 1) (Nat.lt_of_le_of_lt (Nat.sub_le _ _) t.isLt)) := by
  obtain ⟨n, hn⟩ := t
  cases n with
  | zero => exact absurd (Nat.zero_mod _) h
  | succ n => exact if_neg h

/-- What the last step of a row stores into the output block: from the accumulator as that step leaves it. The
    formula is stated at every point; only the points `k = 7` store it. -/
def out3 (c : Dev nD) (t : Fin cfg3.N) : Vec F S1024x64 .f32 :=
  k3_pay4 (wB3 V c t) (hiB3 V c t) (diB3 V c t) (acc3 V c t.val t.isLt) (diB3 V c t) (bB3 V c t)

/-- The accumulator's memref: the kernel's one scratch operand, whole. -/
abbrev scM3 : Memref sig .tc .vmem S1024x64 .f32 := Memref.whole cc3_scratch0

/-- The region invariant before position `n`: before the first point what the launch hands the region (every
    scoped buffer no window stages at anything, the generator register); afterwards the accumulator at what the point
    before left, the other such buffers at anything, the register. -/
def PhiS3 (c : Dev nD) : (n : ℕ) → n ≤ cfg3.N → sProp 𝕄
  | 0, _ => Pipeline.ΦA spec3 c
  | n + 1, hn => iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(owns (c : Thread nD τ) scM3 fullShare (acc3 V c n hn)
      ∗ Pipeline.scopedRestBut (Ix := Unit) (Name := ℕ) (U := UR sig nD τ) (Lvl := ℕ) (Val := Elt F) spec3 c [cc3_scratch0]
      ∗ (∃ r, prngReg c r)) := rfl

/-- The proof data: arrays as found; after the body each input at its block and the output at `out3`; the invariant
    `PhiS3`; the two windows on one array at its two halves, every other input whole; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3 V c t
  Φ t := PhiS3 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare.left
    | ⟨5, _⟩ => fullShare.right
    | ⟨6, _⟩ => fullShare
    | ⟨7, _⟩ => fullShare
  owed _ := 0

theorem A_eq3 (c : Dev nD) (w : Fin cfg3.W) : (dat3 V c).A w = V c (Pipeline.arrRef spec3 w) := by
  dsimp only [dat3]
theorem after3_7 (c : Dev nD) (t : Fin cfg3.N) : (dat3 V c).after 7 t = out3 V c t := by dsimp only [dat3]
theorem owed3 (c : Dev nD) (t : Fin (cfg3.N + 1)) : (dat3 V c).owed t = 0 := rfl

/-! ## The conditions in closed form, and where the windows are live -/

/-- The first test holds at the points ≡ 0 (mod 8): decided over the grid. -/
theorem hcond3_0 : ∀ t : Fin cfg3.N, cond3_0 (grid3.coords t) ↔ t.val % 8 = 0 :=
  (by decide +kernel : ∀ t : Fin grid3.N, cond3_0 (grid3.coords t) ↔ t.val % 8 = 0)
/-- The second test holds at the points ≡ 7 (mod 8). -/
theorem hcond3_1 : ∀ t : Fin cfg3.N, cond3_1 (grid3.coords t) ↔ t.val % 8 = 7 :=
  (by decide +kernel : ∀ t : Fin grid3.N, cond3_1 (grid3.coords t) ↔ t.val % 8 = 7)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Where `k ≠ 7` the output window is idle and not written back; where `k = 7` it is live. -/
theorem idleAt3_7 : ∀ t : Fin cfg3.N, ¬cond3_1 (grid3.coords t) → cfg3.idle 7 (grid3.coords t) = true := by decide +kernel
theorem noFlush3_7 : ∀ t : Fin cfg3.N, ¬cond3_1 (grid3.coords t) → (cfg3.win 7).flush t = false := by decide +kernel
theorem liveAt3_7 : ∀ t : Fin cfg3.N, cond3_1 (grid3.coords t) → cfg3.idle 7 (grid3.coords t) = false := by decide +kernel

/-- What the launch hands the region, with the accumulator as a memref owned at some contents. -/
theorem PhiA3_eq (c : Dev nD) :
    (Pipeline.ΦA spec3 c : sProp 𝕄)
      = iprop((iprop(∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-! ## What the body finds in the inputs' buffers -/

/-- What the body leaves in each input's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]

/-- Each input's current staging buffer holds its block at every point, fetched there or not: an input is never
    idle and its block is left in place, so an unfetched point finds the block of the point before, which is this
    point's because the index has not moved. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
      (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
      (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl)
      (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl)
      (fun t => by rw [after3_6]; unfold Dat.blockOf iblk3; rw [A_eq3]; try rfl) t d).trans
    (by unfold Dat.fetched Dat.blockOf iblk3; rw [A_eq3]; try rfl)

/-! ## The invariant at a point's start -/

/-- Before a point that is not the first: the accumulator at what the point before left. -/
theorem PhiS3_pos (c : Dev nD) (n : ℕ) (h : n ≤ cfg3.N) (hz : n ≠ 0) :
    PhiS3 V c n h = iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]
      ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-! ## The body obligation, at a generic point -/

/-- What the body is handed at point `t`: the invariant, the core's debt, and each window's current staging buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- What it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
/-- The body at any point. The inputs' buffers hold their blocks; the closed forms of the two tests say which of the
    three cases the point is in. Where `k = 0` the accumulator, at anything, ends one step from the zero block; elsewhere
    it moves one step from what the point before left; where `k = 7` the output block is stored from it, and elsewhere
    the output's buffer goes back as found. The windows a case does not touch pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (st3_0 t) fullShare ((dat3 V c).after 0 t) from by
      unfold Dat.leavesExact; rw [liveAt3_0 t], after3_0]
  rw [show (dat3 V c).leavesExact 1 t = owns (c : Thread nD τ) (st3_1 t) fullShare ((dat3 V c).after 1 t) from by
      unfold Dat.leavesExact; rw [liveAt3_1 t], after3_1]
  rw [show (dat3 V c).leavesExact 2 t = owns (c : Thread nD τ) (st3_2 t) fullShare ((dat3 V c).after 2 t) from by
      unfold Dat.leavesExact; rw [liveAt3_2 t], after3_2]
  rw [show (dat3 V c).leavesExact 3 t = owns (c : Thread nD τ) (st3_3 t) fullShare ((dat3 V c).after 3 t) from by
      unfold Dat.leavesExact; rw [liveAt3_3 t], after3_3]
  rw [show (dat3 V c).leavesExact 4 t = owns (c : Thread nD τ) (st3_4 t) fullShare ((dat3 V c).after 4 t) from by
      unfold Dat.leavesExact; rw [liveAt3_4 t], after3_4]
  rw [show (dat3 V c).leavesExact 5 t = owns (c : Thread nD τ) (st3_5 t) fullShare ((dat3 V c).after 5 t) from by
      unfold Dat.leavesExact; rw [liveAt3_5 t], after3_5]
  rw [show (dat3 V c).leavesExact 6 t = owns (c : Thread nD τ) (st3_6 t) fullShare ((dat3 V c).after 6 t) from by
      unfold Dat.leavesExact; rw [liveAt3_6 t], after3_6]
  by_cases h0 : t.val % 8 = 0
  · have hc0 : cond3_0 (grid3.coords t) := (hcond3_0 t).mpr h0
    have hc1 : ¬cond3_1 (grid3.coords t) := fun h => by have := (hcond3_1 t).mp h; omega
    rw [Dat.leavesExact_idle (dat3 V c) 7 t (idleAt3_7 t hc1) (noFlush3_7 t hc1)]
    rw [acc3_reset V c t h0]
    by_cases hz : t.val = 0
    · rw [PhiS3_castSucc V c t, PhiS3_zero V c _ _ hz, PhiA3_eq]
      iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_A c Set.univ (grid3.coords t) _ _ _ _ _ _ _ _ _ _ _ _ _ _ _ _ _ _ hc0 hc1
        (adjB3 V c t) (hkB3 V c t) (wB3 V c t) (dkB3 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_A c Set.univ (grid3.coords t) _ _ _ _ _ _ _ _ _ _ _ _ _ _ _ _ _ _ hc0 hc1
        (adjB3 V c t) (hkB3 V c t) (wB3 V c t) (dkB3 V c t) _)
      isplitl [H0]; · iexact H0
      isplitl [H1]; · iexact H1
      isplitl [H3]; · iexact H3
      isplitl [H4]; · iexact H4
      isplitl [HS]; · iexists _; iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · have hc0 : ¬cond3_0 (grid3.coords t) := fun h => h0 ((hcond3_0 t).mp h)
    have hz : t.val ≠ 0 := fun h => h0 (by rw [h])
    by_cases h1 : t.val % 8 = 7
    · have hc1 : cond3_1 (grid3.coords t) := (hcond3_1 t).mpr h1
      rw [show (dat3 V c).leavesExact 7 t = owns (c : Thread nD τ) (st3_7 t) fullShare ((dat3 V c).after 7 t) from by
        unfold Dat.leavesExact; rw [liveAt3_7 t hc1], after3_7]
      unfold out3
      rw [acc3_step V c t h0]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel3_C c Set.univ (grid3.coords t) _ _ _ _ _ _ _ _ _ _ _ _ _ _ _ _ _ _ hc0 hc1
        (adjB3 V c t) (hkB3 V c t) (hiB3 V c t) (wB3 V c t) (dkB3 V c t) (diB3 V c t) (bB3 V c t) (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond3_1 (grid3.coords t) := fun h => h1 ((hcond3_1 t).mp h)
      rw [Dat.leavesExact_idle (dat3 V c) 7 t (idleAt3_7 t hc1) (noFlush3_7 t hc1)]
      rw [acc3_step V c t h0]
      rw [PhiS3_castSucc V c t, PhiS3_pos V c _ _ hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, H7⟩
      iapply (sound_kernel3_B c Set.univ (grid3.coords t) _ _ _ _ _ _ _ _ _ _ _ _ _ _ _ _ _ _ hc0 hc1
        (adjB3 V c t) (hkB3 V c t) (wB3 V c t) (dkB3 V c t) (acc3 V c (t.val - 1) (Nat.lt_of_le_of_lt (Nat.sub_le _ _) t.isLt)) _)
      isplitl [H0]; · iexact H0
      isplitl [H1]; · iexact H1
      isplitl [H3]; · iexact H3
      isplitl [H4]; · iexact H4
      isplitl [HS]; · iexact HS
      iintro ⟨H0, H1, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body obligation at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After any point but the first the invariant gives back what the launch handed the region: the accumulator's
    contents are forgotten. -/
theorem Phi_out3 (c : Dev nD) (t : Fin (cfg3.N + 1)) (ht : t.val ≠ 0) :
    (dat3 V c).Φ t ⊢ Pipeline.ΦA (U := UR sig nD τ) (Val := Elt F) spec3 c := by
  rw [show (dat3 V c).Φ t = PhiS3 V c t.val (Nat.le_of_lt_succ t.isLt) from rfl, PhiS3_pos V c _ _ ht, PhiA3_eq]
  iintro ⟨HS, HR, Hg⟩
  isplitl [HS HR]
  · isplitl [HS]
    · iexists _; iexact HS
    iexact HR
  iexact Hg

/-- After the last point the invariant gives it back: the accumulator's contents are forgotten. -/
theorem hout3 (c : Dev nD) : (dat3 V c).Φ (Fin.last cfg3.N) ⊢ Pipeline.ΦA (U := UR sig nD τ) (Val := Elt F) spec3 c :=
  Phi_out3 V c _ (by rw [Fin.val_last]; have : cfg3.N = 64 := N_3; omega)

end Cert.KernelIdeal.Hand

end
-- ==== Proof.FrameShare1.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 0's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg0) ↦{fullShare} V' main_arg0)
          ∗ (((c : Thread nD τ).loc main_arg2) ↦{fullShare} V' main_arg2) ∗ (((c : Thread nD τ).loc main_v0) ↦{fullShare} V' main_v0)
          ∗ (((c : Thread nD τ).loc main_arg3) ↦{fullShare} V' main_arg3) ∗ (((c : Thread nD τ).loc main_v1) ↦{fullShare} V' main_v1)) := by
  unfold Pipeline.arrBufs
  exact bigSep_eq_bigSepL_of_eq [main_arg1, main_arg0, main_arg2, main_v0, main_arg3, main_v1] (by decide) (by decide) _

/-- The eight windows' arrays, one by one: each a whole buffer, at the contents of the buffer behind it, at the
    window's share: the halves for the two pairs on one buffer, the full share for every other input and for the output. -/
theorem arrays1_eq (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    ((dat1 Vd c).arrays G : sProp 𝕄)
      = iprop((((c : Thread nD τ).loc main_arg1) ↦{fullShare} V' main_arg1)
          ∗ (((c : Thread nD τ).loc main_arg0) ↦{fullShare.left} V' main_arg0) ∗ (((c : Thread nD τ).loc main_arg0) ↦{fullShare.right} V' main_arg0)
          ∗ (((c : Thread nD τ).loc main_arg2) ↦{fullShare} V' main_arg2)
          ∗ (((c : Thread nD τ).loc main_v0) ↦{fullShare.left} V' main_v0) ∗ (((c : Thread nD τ).loc main_v0) ↦{fullShare.right} V' main_v0)
          ∗ (((c : Thread nD τ).loc main_arg3) ↦{fullShare} V' main_arg3) ∗ (((c : Thread nD τ).loc main_v1) ↦{fullShare} V' main_v1)) := by
  unfold Dat.arrays
  rw [bigSep_W1]
  have h0 : ((cfg1.win 0).arr.view.loc (c.tc : Thread nD τ) ↦[(cfg1.win 0).arr.view.set]{(dat1 Vd c).share 0} G 0 : sProp 𝕄)
      = (((c : Thread nD τ).loc main_arg1) ↦{fullShare} V' main_arg1) := by rw [(arr_whole1 0).set_eq_univ, hG 0]; rfl
  have h1 : ((cfg1.win 1).arr.view.loc (c.tc : Thread nD τ) ↦[(cfg1.win 1).arr.view.set]{(dat1 Vd c).share 1} G 1 : sProp 𝕄)
      = (((c : Thread nD τ).loc main_arg0) ↦{fullShare.left} V' main_arg0) := by rw [(arr_whole1 1).set_eq_univ, hG 1]; rfl
  have h2 : ((cfg1.win 2).arr.view.loc (c.tc : Thread nD τ) ↦[(cfg1.win 2).arr.view.set]{(dat1 Vd c).share 2} G 2 : sProp 𝕄)
      = (((c : Thread nD τ).loc main_arg0) ↦{fullShare.right} V' main_arg0) := by rw [(arr_whole1 2).set_eq_univ, hG 2]; rfl
  have h3 : ((cfg1.win 3).arr.view.loc (c.tc : Thread nD τ) ↦[(cfg1.win 3).arr.view.set]{(dat1 Vd c).share 3} G 3 : sProp 𝕄)
      = (((c : Thread nD τ).loc main_arg2) ↦{fullShare} V' main_arg2) := by rw [(arr_whole1 3).set_eq_univ, hG 3]; rfl
  have h4 : ((cfg1.win 4).arr.view.loc (c.tc : Thread nD τ) ↦[(cfg1.win 4).arr.view.set]{(dat1 Vd c).share 4} G 4 : sProp 𝕄)
      = (((c : Thread nD τ).loc main_v0) ↦{fullShare.left} V' main_v0) := by rw [(arr_whole1 4).set_eq_univ, hG 4]; rfl
  have h5 : ((cfg1.win 5).arr.view.loc (c.tc : Thread nD τ) ↦[(cfg1.win 5).arr.view.set]{(dat1 Vd c).share 5} G 5 : sProp 𝕄)
      = (((c : Thread nD τ).loc main_v0) ↦{fullShare.right} V' main_v0) := by rw [(arr_whole1 5).set_eq_univ, hG 5]; rfl
  have h6 : ((cfg1.win 6).arr.view.loc (c.tc : Thread nD τ) ↦[(cfg1.win 6).arr.view.set]{(dat1 Vd c).share 6} G 6 : sProp 𝕄)
      = (((c : Thread nD τ).loc main_arg3) ↦{fullShare} V' main_arg3) := by rw [(arr_whole1 6).set_eq_univ, hG 6]; rfl
  have h7 : ((cfg1.win 7).arr.view.loc (c.tc : Thread nD τ) ↦[(cfg1.win 7).arr.view.set]{(dat1 Vd c).share 7} G 7 : sProp 𝕄)
      = (((c : Thread nD τ).loc main_v1) ↦{fullShare} V' main_v1) := by rw [(arr_whole1 7).set_eq_univ, hG 7]; rfl
  rw [h0, h1, h2, h3, h4, h5, h6, h7]

/-- A whole buffer at the full share is its two halves. -/
theorem pointsTo_halves1 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq1 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs1_eq_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (Pipeline.arrBufs (Ix := Unit) (Name := ℕ) (U := UR sig nD τ) (Lvl := ℕ) spec1 c V' : sProp 𝕄) = (dat1 Vd c).arrays G := by
  rw [arrBufs1_eq, arrays1_eq Vd c V' G hG, pointsTo_halves1 (V' main_arg0), pointsTo_halves1 (V' main_v0), sep_assoc_eq1, sep_assoc_eq1]

/-- ENTRY: the six buffers, whole, are the eight windows' arrays at the proof data's shares. -/
theorem arrays1_of_arrBufs (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (Pipeline.arrBufs (Ix := Unit) (Name := ℕ) (U := UR sig nD τ) (Lvl := ℕ) spec1 c V' : sProp 𝕄) ⊢ (dat1 Vd c).arrays G :=
  Entails.of_eq (arrBufs1_eq_arrays1 Vd c V' G hG)

/-- EXIT: and back. -/
theorem arrBufs_of_arrays1 (c : Dev nD) (V' : (b : Ref sig .tc) → Buf (Elt F) ((c : Thread nD τ).loc b))
    (G : (w : Fin cfg1.W) → Buf (Elt F) ((cfg1.win w).arr.view.loc (c.tc : Thread nD τ)))
    (hG : ∀ w, G w = V' (Pipeline.arrRef spec1 w)) :
    (dat1 Vd c).arrays G ⊢ (Pipeline.arrBufs (Ix := Unit) (Name := ℕ) (U := UR sig nD τ) (Lvl := ℕ) spec1 c V' : sProp 𝕄) :=
  Entails.of_eq (arrBufs1_eq_arrays1 Vd c V' G hG).symm

end Cert.KernelIdeal.Hand

end
-- ==== Proof.FrameShare2.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 1's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs2_eq (c : Dev nD) (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg1) ↦{fullShare} V' main_arg1) ∗ (((c : Thread nD τ).loc main_v1) ↦{fullShare} V' main_v1)
          ∗ (((c : Thread nD τ).loc main_arg4) ↦{fullShare} V' main_arg4) ∗ (((c : Thread nD τ).loc main_v0) ↦{fullShare} V' main_v0)
          ∗ (((c : Thread nD τ).loc main_arg5) ↦{fullShare} V' main_arg5) ∗ (((c : Thread nD τ).loc main_v2) ↦{fullShare} V' main_v2)) := by
  unfold Pipeline.arrBufs
  exact bigSep_eq_bigSepL_of_eq [main_arg1, main_v1, main_arg4, main_v0, main_arg5, main_v2] (by decide) (by decide) _

/-- The eight windows' arrays, one by one: each a whole buffer, at the contents of the buffer behind it, at the
    window's share: the halves for the two pairs on one buffer, the full share for every other input and for the output. -/
theorem arrays2_eq (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    ((dat2 Vd c).arrays G : sProp 𝕄)
      = iprop((((c : Thread nD τ).loc main_arg1) ↦{fullShare} V' main_arg1)
          ∗ (((c : Thread nD τ).loc main_v1) ↦{fullShare.left} V' main_v1) ∗ (((c : Thread nD τ).loc main_v1) ↦{fullShare.right} V' main_v1)
          ∗ (((c : Thread nD τ).loc main_arg4) ↦{fullShare} V' main_arg4)
          ∗ (((c : Thread nD τ).loc main_v0) ↦{fullShare.left} V' main_v0) ∗ (((c : Thread nD τ).loc main_v0) ↦{fullShare.right} V' main_v0)
          ∗ (((c : Thread nD τ).loc main_arg5) ↦{fullShare} V' main_arg5) ∗ (((c : Thread nD τ).loc main_v2) ↦{fullShare} V' main_v2)) := by
  unfold Dat.arrays
  rw [bigSep_W2]
  have h0 : ((cfg2.win 0).arr.view.loc (c.tc : Thread nD τ) ↦[(cfg2.win 0).arr.view.set]{(dat2 Vd c).share 0} G 0 : sProp 𝕄)
      = (((c : Thread nD τ).loc main_arg1) ↦{fullShare} V' main_arg1) := by rw [(arr_whole2 0).set_eq_univ, hG 0]; rfl
  have h1 : ((cfg2.win 1).arr.view.loc (c.tc : Thread nD τ) ↦[(cfg2.win 1).arr.view.set]{(dat2 Vd c).share 1} G 1 : sProp 𝕄)
      = (((c : Thread nD τ).loc main_v1) ↦{fullShare.left} V' main_v1) := by rw [(arr_whole2 1).set_eq_univ, hG 1]; rfl
  have h2 : ((cfg2.win 2).arr.view.loc (c.tc : Thread nD τ) ↦[(cfg2.win 2).arr.view.set]{(dat2 Vd c).share 2} G 2 : sProp 𝕄)
      = (((c : Thread nD τ).loc main_v1) ↦{fullShare.right} V' main_v1) := by rw [(arr_whole2 2).set_eq_univ, hG 2]; rfl
  have h3 : ((cfg2.win 3).arr.view.loc (c.tc : Thread nD τ) ↦[(cfg2.win 3).arr.view.set]{(dat2 Vd c).share 3} G 3 : sProp 𝕄)
      = (((c : Thread nD τ).loc main_arg4) ↦{fullShare} V' main_arg4) := by rw [(arr_whole2 3).set_eq_univ, hG 3]; rfl
  have h4 : ((cfg2.win 4).arr.view.loc (c.tc : Thread nD τ) ↦[(cfg2.win 4).arr.view.set]{(dat2 Vd c).share 4} G 4 : sProp 𝕄)
      = (((c : Thread nD τ).loc main_v0) ↦{fullShare.left} V' main_v0) := by rw [(arr_whole2 4).set_eq_univ, hG 4]; rfl
  have h5 : ((cfg2.win 5).arr.view.loc (c.tc : Thread nD τ) ↦[(cfg2.win 5).arr.view.set]{(dat2 Vd c).share 5} G 5 : sProp 𝕄)
      = (((c : Thread nD τ).loc main_v0) ↦{fullShare.right} V' main_v0) := by rw [(arr_whole2 5).set_eq_univ, hG 5]; rfl
  have h6 : ((cfg2.win 6).arr.view.loc (c.tc : Thread nD τ) ↦[(cfg2.win 6).arr.view.set]{(dat2 Vd c).share 6} G 6 : sProp 𝕄)
      = (((c : Thread nD τ).loc main_arg5) ↦{fullShare} V' main_arg5) := by rw [(arr_whole2 6).set_eq_univ, hG 6]; rfl
  have h7 : ((cfg2.win 7).arr.view.loc (c.tc : Thread nD τ) ↦[(cfg2.win 7).arr.view.set]{(dat2 Vd c).share 7} G 7 : sProp 𝕄)
      = (((c : Thread nD τ).loc main_v2) ↦{fullShare} V' main_v2) := by rw [(arr_whole2 7).set_eq_univ, hG 7]; rfl
  rw [h0, h1, h2, h3, h4, h5, h6, h7]

/-- A whole buffer at the full share is its two halves. -/
theorem pointsTo_halves2 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq2 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs2_eq_arrays1 (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (Pipeline.arrBufs (Ix := Unit) (Name := ℕ) (U := UR sig nD τ) (Lvl := ℕ) spec2 c V' : sProp 𝕄) = (dat2 Vd c).arrays G := by
  rw [arrBufs2_eq, arrays2_eq Vd c V' G hG, pointsTo_halves2 (V' main_v1), pointsTo_halves2 (V' main_v0), sep_assoc_eq2, sep_assoc_eq2]

/-- ENTRY: the six buffers, whole, are the eight windows' arrays at the proof data's shares. -/
theorem arrays2_of_arrBufs (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (Pipeline.arrBufs (Ix := Unit) (Name := ℕ) (U := UR sig nD τ) (Lvl := ℕ) spec2 c V' : sProp 𝕄) ⊢ (dat2 Vd c).arrays G :=
  Entails.of_eq (arrBufs2_eq_arrays1 Vd c V' G hG)

/-- EXIT: and back. -/
theorem arrBufs_of_arrays2 (c : Dev nD) (V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) :
    (dat2 Vd c).arrays G ⊢ (Pipeline.arrBufs (Ix := Unit) (Name := ℕ) (U := UR sig nD τ) (Lvl := ℕ) spec2 c V' : sProp 𝕄) :=
  Entails.of_eq (arrBufs2_eq_arrays1 Vd c V' G hG).symm

end Cert.KernelIdeal.Hand

end
-- ==== Proof.FrameShare3.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Layer 2's region: its windows' arrays against the distinct buffers behind them

Eight windows stand on six buffers: windows 1 and 2 read the feature array, windows 4 and 5 the normaliser column.
The region is handed each buffer whole; the pipeline wants each WINDOW's array at the window's share: the two windows
on one buffer take its two halves. Both directions, at any contents that agree window by window. -/

variable (Vd : (c : Dev nD) → (b : Ref sig .tc) → Buf (Elt F) ((c : Thread nD τ).loc b))

/-- The six distinct buffers behind the eight windows' arrays, one by one, in the order the windows first meet them. -/
theorem arrBufs3_eq (c : Dev nD) (V' : (b : Ref sig .tc) → Buf (Elt F) ((c : Thread nD τ).loc b)) :
    (Pipeline.arrBufs (Ix := Unit) (Name := ℕ) (U := UR sig nD τ) (Lvl := ℕ) spec3 c V' : sProp 𝕄)
      = iprop((((c : Thread nD τ).loc main_arg1) ↦{fullShare} V' main_arg1) ∗ (((c : Thread nD τ).loc main_v2) ↦{fullShare} V' main_v2)
          ∗ (((c : Thread nD τ).loc main_arg6) ↦{fullShare} V' main_arg6) ∗ (((c : Thread nD τ).loc main_v0) ↦{fullShare} V' main_v0)
          ∗ (((c : Thread nD τ).loc main_arg7) ↦{fullShare} V' main_arg7) ∗ (((c : Thread nD τ).loc main_v3) ↦{fullShare} V' main_v3)) := by
  unfold Pipeline.arrBufs
  exact bigSep_eq_bigSepL_of_eq [main_arg1, main_v2, main_arg6, main_v0, main_arg7, main_v3] (by decide) (by decide) _

/-- The eight windows' arrays, one by one: each a whole buffer, at the contents of the buffer behind it, at the
    window's share: the halves for the two pairs on one buffer, the full share for every other input and for the output. -/
theorem arrays3_eq (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    ((dat3 Vd c).arrays G : sProp 𝕄)
      = iprop((((c : Thread nD τ).loc main_arg1) ↦{fullShare} V' main_arg1)
          ∗ (((c : Thread nD τ).loc main_v2) ↦{fullShare.left} V' main_v2) ∗ (((c : Thread nD τ).loc main_v2) ↦{fullShare.right} V' main_v2)
          ∗ (((c : Thread nD τ).loc main_arg6) ↦{fullShare} V' main_arg6)
          ∗ (((c : Thread nD τ).loc main_v0) ↦{fullShare.left} V' main_v0) ∗ (((c : Thread nD τ).loc main_v0) ↦{fullShare.right} V' main_v0)
          ∗ (((c : Thread nD τ).loc main_arg7) ↦{fullShare} V' main_arg7) ∗ (((c : Thread nD τ).loc main_v3) ↦{fullShare} V' main_v3)) := by
  unfold Dat.arrays
  rw [bigSep_W3]
  have h0 : ((cfg3.win 0).arr.view.loc (c.tc : Thread nD τ) ↦[(cfg3.win 0).arr.view.set]{(dat3 Vd c).share 0} G 0 : sProp 𝕄)
      = (((c : Thread nD τ).loc main_arg1) ↦{fullShare} V' main_arg1) := by rw [(arr_whole3 0).set_eq_univ, hG 0]; rfl
  have h1 : ((cfg3.win 1).arr.view.loc (c.tc : Thread nD τ) ↦[(cfg3.win 1).arr.view.set]{(dat3 Vd c).share 1} G 1 : sProp 𝕄)
      = (((c : Thread nD τ).loc main_v2) ↦{fullShare.left} V' main_v2) := by rw [(arr_whole3 1).set_eq_univ, hG 1]; rfl
  have h2 : ((cfg3.win 2).arr.view.loc (c.tc : Thread nD τ) ↦[(cfg3.win 2).arr.view.set]{(dat3 Vd c).share 2} G 2 : sProp 𝕄)
      = (((c : Thread nD τ).loc main_v2) ↦{fullShare.right} V' main_v2) := by rw [(arr_whole3 2).set_eq_univ, hG 2]; rfl
  have h3 : ((cfg3.win 3).arr.view.loc (c.tc : Thread nD τ) ↦[(cfg3.win 3).arr.view.set]{(dat3 Vd c).share 3} G 3 : sProp 𝕄)
      = (((c : Thread nD τ).loc main_arg6) ↦{fullShare} V' main_arg6) := by rw [(arr_whole3 3).set_eq_univ, hG 3]; rfl
  have h4 : ((cfg3.win 4).arr.view.loc (c.tc : Thread nD τ) ↦[(cfg3.win 4).arr.view.set]{(dat3 Vd c).share 4} G 4 : sProp 𝕄)
      = (((c : Thread nD τ).loc main_v0) ↦{fullShare.left} V' main_v0) := by rw [(arr_whole3 4).set_eq_univ, hG 4]; rfl
  have h5 : ((cfg3.win 5).arr.view.loc (c.tc : Thread nD τ) ↦[(cfg3.win 5).arr.view.set]{(dat3 Vd c).share 5} G 5 : sProp 𝕄)
      = (((c : Thread nD τ).loc main_v0) ↦{fullShare.right} V' main_v0) := by rw [(arr_whole3 5).set_eq_univ, hG 5]; rfl
  have h6 : ((cfg3.win 6).arr.view.loc (c.tc : Thread nD τ) ↦[(cfg3.win 6).arr.view.set]{(dat3 Vd c).share 6} G 6 : sProp 𝕄)
      = (((c : Thread nD τ).loc main_arg7) ↦{fullShare} V' main_arg7) := by rw [(arr_whole3 6).set_eq_univ, hG 6]; rfl
  have h7 : ((cfg3.win 7).arr.view.loc (c.tc : Thread nD τ) ↦[(cfg3.win 7).arr.view.set]{(dat3 Vd c).share 7} G 7 : sProp 𝕄)
      = (((c : Thread nD τ).loc main_v3) ↦{fullShare} V' main_v3) := by rw [(arr_whole3 7).set_eq_univ, hG 7]; rfl
  rw [h0, h1, h2, h3, h4, h5, h6, h7]

/-- A whole buffer at the full share is its two halves. -/
theorem pointsTo_halves3 {ℓ : Loc nD τ sig} (f : Buf (Elt F) ℓ) :
    ((ℓ ↦{fullShare} f) : sProp 𝕄) = iprop((ℓ ↦{fullShare.left} f) ∗ ℓ ↦{fullShare.right} f) :=
  BI.Entails.antisymm (pointsTo_share (PosShare.mem_left_op_right fullShare)).1 (pointsTo_share (PosShare.mem_left_op_right fullShare)).2

/-- `∗` is associative, as an equation. -/
theorem sep_assoc_eq3 {M : Type} [URA M] (P Q R : sProp M) : iprop((P ∗ Q) ∗ R) = iprop(P ∗ Q ∗ R) :=
  BI.Entails.antisymm sep_assoc sep_assoc'

/-- The two sides are one proposition: the six buffers with the two shared ones cut in halves are the eight arrays. -/
theorem arrBufs3_eq_arrays1 (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (Pipeline.arrBufs (Ix := Unit) (Name := ℕ) (U := UR sig nD τ) (Lvl := ℕ) spec3 c V' : sProp 𝕄) = (dat3 Vd c).arrays G := by
  rw [arrBufs3_eq, arrays3_eq Vd c V' G hG, pointsTo_halves3 (V' main_v2), pointsTo_halves3 (V' main_v0), sep_assoc_eq3, sep_assoc_eq3]

/-- ENTRY: the six buffers, whole, are the eight windows' arrays at the proof data's shares. -/
theorem arrays3_of_arrBufs (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (Pipeline.arrBufs (Ix := Unit) (Name := ℕ) (U := UR sig nD τ) (Lvl := ℕ) spec3 c V' : sProp 𝕄) ⊢ (dat3 Vd c).arrays G :=
  Entails.of_eq (arrBufs3_eq_arrays1 Vd c V' G hG)

/-- EXIT: and back. -/
theorem arrBufs_of_arrays3 (c : Dev nD) (V' : (b : Ref sig .tc) → Buf (Elt F) ((c : Thread nD τ).loc b))
    (G : (w : Fin cfg3.W) → Buf (Elt F) ((cfg3.win w).arr.view.loc (c.tc : Thread nD τ)))
    (hG : ∀ w, G w = V' (Pipeline.arrRef spec3 w)) :
    (dat3 Vd c).arrays G ⊢ (Pipeline.arrBufs (Ix := Unit) (Name := ℕ) (U := UR sig nD τ) (Lvl := ℕ) spec3 c V' : sProp 𝕄) :=
  Entails.of_eq (arrBufs3_eq_arrays1 Vd c V' G hG).symm

end Cert.KernelIdeal.Hand

end
-- ==== Proof.FrameRun.lean ====
import proofs.«166741_j53910429499630_1_alg».proof.Proof.Gen.KernelIdeal.Launch
import proofs.«166741_j53910429499630_1_alg».proof.Proof.Gen.KernelIdeal.Skeleton
import proofs.«166741_j53910429499630_1_alg».proof.Proof.Gen.KernelIdeal.Points
import proofs.«166741_j53910429499630_1_alg».proof.Proof.FrameR0
import proofs.«166741_j53910429499630_1_alg».proof.Proof.FrameR1
import proofs.«166741_j53910429499630_1_alg».proof.Proof.FrameR2
import proofs.«166741_j53910429499630_1_alg».proof.Proof.FrameR3
import proofs.«166741_j53910429499630_1_alg».proof.Proof.FrameShare1
import proofs.«166741_j53910429499630_1_alg».proof.Proof.FrameShare2
import proofs.«166741_j53910429499630_1_alg».proof.Proof.FrameShare3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: @main's four regions from the launch to the return

Between two regions core `c` holds every unscoped buffer whole at a valuation: the launch memory, then after each
region that valuation with the region's OUTPUT array at what its write-backs leave (the other arrays of a region are
inputs: unchanged). -/

variable (m : (ℓ : Loc nD τ sig) → Buf (Elt F) ℓ) (ρ : Dev nD → PrngReg)

/-- Core `c`'s buffers at launch. -/
abbrev E0 : Dev nD → Valuation τ sig (Elt F) := fun c b => m (c, b)
abbrev Vr0 : (c : Dev nD) → (b : Ref sig .tc) → Buf (Elt F) ((c : Thread nD τ).loc b) := fun c b => E0 m c b

/-- After region 0: the normaliser column `main_v0` at what the write-backs leave. -/
def E1 (c : Dev nD) : Valuation τ sig (Elt F) :=
  Function.update (E0 m c) (Proc.devRef .tc main_v0) ((dat0 (Vr0 m) c).arrAt 1 cfg0.N)
abbrev Vr1 : (c : Dev nD) → (b : Ref sig .tc) → Buf (Elt F) ((c : Thread nD τ).loc b) := fun c b => E1 m c b
theorem E1_self (c : Dev nD) : E1 m c (Proc.devRef .tc main_v0) = (dat0 (Vr0 m) c).arrAt 1 cfg0.N := by
  unfold E1; exact Function.update_self ..
theorem E1_of_ne (c : Dev nD) (b : Ref sig .tc) (h : b ≠ main_v0) : E1 m c (Proc.devRef .tc b) = E0 m c (Proc.devRef .tc b) := by
  unfold E1; exact Function.update_of_ne (StableHlo.devRef_ne_of_ne h) _ _
theorem hF0 (c : Dev nD) (w : Fin cfg0.W) : (dat0 (Vr0 m) c).arrAt w cfg0.N = Vr1 m c (Pipeline.arrRef spec0 w) :=
  match w with
  | ⟨0, _⟩ => (((dat0 (Vr0 m) c).arrAt_in 0 rfl _).trans (A_eq0 (Vr0 m) c 0)).trans (E1_of_ne m c main_arg1 (by decide)).symm
  | ⟨1, _⟩ => (E1_self m c).symm
theorem hrest0 (c : Dev nD) : ∀ b, b ∉ Finset.univ.image (Pipeline.arrRef spec0) → Vr1 m c b = Vr0 m c b :=
  fun b hb => E1_of_ne m c b fun e => hb (Finset.mem_image.mpr ⟨1, Finset.mem_univ _, e.symm⟩)

/-- After region 1: its output array `main_v1` at what the write-backs leave, every other buffer as before. -/
def E2 (c : Dev nD) : Valuation τ sig (Elt F) :=
  Function.update (E1 m c) (Proc.devRef .tc main_v1) ((dat1 (Vr1 m) c).arrAt 7 cfg1.N)
abbrev Vr2 : (c : Dev nD) → (b : Ref sig .tc) → Buf (Elt F) ((c : Thread nD τ).loc b) := fun c b => E2 m c b
theorem E2_self (c : Dev nD) : E2 m c (Proc.devRef .tc main_v1) = (dat1 (Vr1 m) c).arrAt 7 cfg1.N := by
  unfold E2; exact Function.update_self ..
theorem E2_of_ne (c : Dev nD) (b : Ref sig .tc) (h : b ≠ main_v1) : E2 m c (Proc.devRef .tc b) = E1 m c (Proc.devRef .tc b) := by
  unfold E2; exact Function.update_of_ne (StableHlo.devRef_ne_of_ne h) _ _
/-- At the exit each window's array holds what the pipeline leaves: an input its entry contents, the output its write-backs. -/
theorem hF1 (c : Dev nD) (w : Fin cfg1.W) : (dat1 (Vr1 m) c).arrAt w cfg1.N = Vr2 m c (Pipeline.arrRef spec1 w) :=
  match w with
  | ⟨0, _⟩ => (((dat1 (Vr1 m) c).arrAt_in 0 rfl _).trans (A_eq1 (Vr1 m) c 0)).trans (E2_of_ne m c main_arg1 (by decide)).symm
  | ⟨1, _⟩ => (((dat1 (Vr1 m) c).arrAt_in 1 rfl _).trans (A_eq1 (Vr1 m) c 1)).trans (E2_of_ne m c main_arg0 (by decide)).symm
  | ⟨2, _⟩ => (((dat1 (Vr1 m) c).arrAt_in 2 rfl _).trans (A_eq1 (Vr1 m) c 2)).trans (E2_of_ne m c main_arg0 (by decide)).symm
  | ⟨3, _⟩ => (((dat1 (Vr1 m) c).arrAt_in 3 rfl _).trans (A_eq1 (Vr1 m) c 3)).trans (E2_of_ne m c main_arg2 (by decide)).symm
  | ⟨4, _⟩ => (((dat1 (Vr1 m) c).arrAt_in 4 rfl _).trans (A_eq1 (Vr1 m) c 4)).trans (E2_of_ne m c main_v0 (by decide)).symm
  | ⟨5, _⟩ => (((dat1 (Vr1 m) c).arrAt_in 5 rfl _).trans (A_eq1 (Vr1 m) c 5)).trans (E2_of_ne m c main_v0 (by decide)).symm
  | ⟨6, _⟩ => (((dat1 (Vr1 m) c).arrAt_in 6 rfl _).trans (A_eq1 (Vr1 m) c 6)).trans (E2_of_ne m c main_arg3 (by decide)).symm
  | ⟨7, _⟩ => (E2_self m c).symm
theorem hrest1 (c : Dev nD) : ∀ b, b ∉ Finset.univ.image (Pipeline.arrRef spec1) → Vr2 m c b = Vr1 m c b :=
  fun b hb => E2_of_ne m c b fun e => hb (Finset.mem_image.mpr ⟨7, Finset.mem_univ _, e.symm⟩)

/-- After region 2: its output array `main_v2` at what the write-backs leave, every other buffer as before. -/
def E3 (c : Dev nD) : Valuation τ sig (Elt F) :=
  Function.update (E2 m c) (Proc.devRef .tc main_v2) ((dat2 (Vr2 m) c).arrAt 7 cfg2.N)
abbrev Vr3 : (c : Dev nD) → (b : Ref sig .tc) → Buf (Elt F) ((c : Thread nD τ).loc b) := fun c b => E3 m c b
theorem E3_self (c : Dev nD) : E3 m c (Proc.devRef .tc main_v2) = (dat2 (Vr2 m) c).arrAt 7 cfg2.N := by
  unfold E3; exact Function.update_self ..
theorem E3_of_ne (c : Dev nD) (b : Ref sig .tc) (h : b ≠ main_v2) : E3 m c (Proc.devRef .tc b) = E2 m c (Proc.devRef .tc b) := by
  unfold E3; exact Function.update_of_ne (StableHlo.devRef_ne_of_ne h) _ _
/-- At the exit each window's array holds what the pipeline leaves: an input its entry contents, the output its write-backs. -/
theorem hF2 (c : Dev nD) (w : Fin cfg2.W) : (dat2 (Vr2 m) c).arrAt w cfg2.N = Vr3 m c (Pipeline.arrRef spec2 w) :=
  match w with
  | ⟨0, _⟩ => (((dat2 (Vr2 m) c).arrAt_in 0 rfl _).trans (A_eq2 (Vr2 m) c 0)).trans (E3_of_ne m c main_arg1 (by decide)).symm
  | ⟨1, _⟩ => (((dat2 (Vr2 m) c).arrAt_in 1 rfl _).trans (A_eq2 (Vr2 m) c 1)).trans (E3_of_ne m c main_v1 (by decide)).symm
  | ⟨2, _⟩ => (((dat2 (Vr2 m) c).arrAt_in 2 rfl _).trans (A_eq2 (Vr2 m) c 2)).trans (E3_of_ne m c main_v1 (by decide)).symm
  | ⟨3, _⟩ => (((dat2 (Vr2 m) c).arrAt_in 3 rfl _).trans (A_eq2 (Vr2 m) c 3)).trans (E3_of_ne m c main_arg4 (by decide)).symm
  | ⟨4, _⟩ => (((dat2 (Vr2 m) c).arrAt_in 4 rfl _).trans (A_eq2 (Vr2 m) c 4)).trans (E3_of_ne m c main_v0 (by decide)).symm
  | ⟨5, _⟩ => (((dat2 (Vr2 m) c).arrAt_in 5 rfl _).trans (A_eq2 (Vr2 m) c 5)).trans (E3_of_ne m c main_v0 (by decide)).symm
  | ⟨6, _⟩ => (((dat2 (Vr2 m) c).arrAt_in 6 rfl _).trans (A_eq2 (Vr2 m) c 6)).trans (E3_of_ne m c main_arg5 (by decide)).symm
  | ⟨7, _⟩ => (E3_self m c).symm
theorem hrest2 (c : Dev nD) : ∀ b, b ∉ Finset.univ.image (Pipeline.arrRef spec2) → Vr3 m c b = Vr2 m c b :=
  fun b hb => E3_of_ne m c b fun e => hb (Finset.mem_image.mpr ⟨7, Finset.mem_univ _, e.symm⟩)

/-- After region 3: its output array `main_v3` at what the write-backs leave, every other buffer as before. -/
def E4 (c : Dev nD) : Valuation τ sig (Elt F) :=
  Function.update (E3 m c) (Proc.devRef .tc main_v3) ((dat3 (Vr3 m) c).arrAt 7 cfg3.N)
abbrev Vr4 : (c : Dev nD) → (b : Ref sig .tc) → Buf (Elt F) ((c : Thread nD τ).loc b) := fun c b => E4 m c b
theorem E4_self (c : Dev nD) : E4 m c (Proc.devRef .tc main_v3) = (dat3 (Vr3 m) c).arrAt 7 cfg3.N := by
  unfold E4; exact Function.update_self ..
theorem E4_of_ne (c : Dev nD) (b : Ref sig .tc) (h : b ≠ main_v3) : E4 m c (Proc.devRef .tc b) = E3 m c (Proc.devRef .tc b) := by
  unfold E4; exact Function.update_of_ne (StableHlo.devRef_ne_of_ne h) _ _
/-- At the exit each window's array holds what the pipeline leaves: an input its entry contents, the output its write-backs. -/
theorem hF3 (c : Dev nD) (w : Fin cfg3.W) : (dat3 (Vr3 m) c).arrAt w cfg3.N = Vr4 m c (Pipeline.arrRef spec3 w) :=
  match w with
  | ⟨0, _⟩ => (((dat3 (Vr3 m) c).arrAt_in 0 rfl _).trans (A_eq3 (Vr3 m) c 0)).trans (E4_of_ne m c main_arg1 (by decide)).symm
  | ⟨1, _⟩ => (((dat3 (Vr3 m) c).arrAt_in 1 rfl _).trans (A_eq3 (Vr3 m) c 1)).trans (E4_of_ne m c main_v2 (by decide)).symm
  | ⟨2, _⟩ => (((dat3 (Vr3 m) c).arrAt_in 2 rfl _).trans (A_eq3 (Vr3 m) c 2)).trans (E4_of_ne m c main_v2 (by decide)).symm
  | ⟨3, _⟩ => (((dat3 (Vr3 m) c).arrAt_in 3 rfl _).trans (A_eq3 (Vr3 m) c 3)).trans (E4_of_ne m c main_arg6 (by decide)).symm
  | ⟨4, _⟩ => (((dat3 (Vr3 m) c).arrAt_in 4 rfl _).trans (A_eq3 (Vr3 m) c 4)).trans (E4_of_ne m c main_v0 (by decide)).symm
  | ⟨5, _⟩ => (((dat3 (Vr3 m) c).arrAt_in 5 rfl _).trans (A_eq3 (Vr3 m) c 5)).trans (E4_of_ne m c main_v0 (by decide)).symm
  | ⟨6, _⟩ => (((dat3 (Vr3 m) c).arrAt_in 6 rfl _).trans (A_eq3 (Vr3 m) c 6)).trans (E4_of_ne m c main_arg7 (by decide)).symm
  | ⟨7, _⟩ => (E4_self m c).symm
theorem hrest3 (c : Dev nD) : ∀ b, b ∉ Finset.univ.image (Pipeline.arrRef spec3) → Vr4 m c b = Vr3 m c b :=
  fun b hb => E4_of_ne m c b fun e => hb (Finset.mem_image.mpr ⟨7, Finset.mem_univ _, e.symm⟩)

/-! ## The proof data family and the thread state -/

/-- No pipeline has a prefetched table. -/
abbrev admH : (p : Fin 4) → (pcfgs (F := F) p).Adm := fun p => (cfgs p).toPCfg_adm
/-- Every pipeline's proof data, each at its region's entry contents: a literal match. -/
def pdats : (p : Fin 4) → (c : Dev nD) → Dat τ (Elt F) Unit ℕ (UR sig nD τ) ℕ (Pipeline.pin (pcfgs (F := F)) admH p) c
  | ⟨0, _⟩ => fun c => dat0 (Vr0 m) c
  | ⟨1, _⟩ => fun c => dat1 (Vr1 m) c
  | ⟨2, _⟩ => fun c => dat2 (Vr2 m) c
  | ⟨3, _⟩ => fun c => dat3 (Vr3 m) c
abbrev 𝒱₀ : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and owing nothing. -/
abbrev RH (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- REGION 0 over the thread state: entered from every unscoped buffer at `E0`, left at `E1`; its two arrays are
    distinct buffers, each whole. -/
def reg0 : Pipeline.RegionSeg (pcfgs (F := F)) admH (pdats m) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ LH lvH 0 fun _ _ => rfl
  pre c := iprop(StableHlo.held (c : Thread nD τ) (Pipeline.ucRefs τ sig) (E0 m c) ∗ RH c)
  post c := iprop(StableHlo.held (c : Thread nD τ) (Pipeline.ucRefs τ sig) (E1 m c) ∗ RH c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (Vr0 m c) (Vr1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 over the thread state: entered from every unscoped buffer at `E1`, left at `E2`. Its six buffers
    split out of the unscoped buffers and dealt to the eight windows (the two shared ones by halves), and put back at
    the exit with the output array at what the write-backs leave; the generator register into the invariant and out. -/
def reg1 : Pipeline.RegionSeg (pcfgs (F := F)) admH (pdats m) () defs₀ 𝒱₀ LH lvH 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ LH lvH 1 fun _ _ => rfl
  pre c := iprop(StableHlo.held (c : Thread nD τ) (Pipeline.ucRefs τ sig) (E1 m c) ∗ RH c)
  post c := iprop(StableHlo.held (c : Thread nD τ) (Pipeline.ucRefs τ sig) (E2 m c) ∗ RH c)
  X c := iprop(∃ r, prngReg c r)
  Y c := iprop(∃ r, prngReg c r)
  Z c := Pipeline.unscopedRest (Ix := Unit) (Name := ℕ) (U := UR sig nD τ) (Lvl := ℕ) spec1 c (Vr1 m c)
  hentry c := by
    rw [Pipeline.ownSems0_none]
    have hsplit := Pipeline.unscopedBufs_split₀ (Ix := Unit) (Name := ℕ) (U := UR sig nD τ) (Lvl := ℕ) (cfgs) (1 : Fin 4) winFacts₀1.arr_unscoped c (Vr1 m c)
    rw [Pipeline.unscopedBufs_held] at hsplit
    have harr := arrays1_of_arrBufs (Vr1 m) c (Vr1 m c) ((dat1 (Vr1 m) c).arrAt · 0) (fun w => A_eq1 (Vr1 m) c w)
    have hsp : (StableHlo.held (c : Thread nD τ) (Pipeline.ucRefs τ sig) (E1 m c) : sProp 𝕄)
        ⊢ iprop((pdats m 1 c).arrays ((pdats m 1 c).arrAt · 0)
            ∗ Pipeline.unscopedRest (Ix := Unit) (Name := ℕ) (U := UR sig nD τ) (Lvl := ℕ) spec1 c (Vr1 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (admH (F := F) 1).1
          ∗ Pipeline.scopedRest (Ix := Unit) (Name := ℕ) (U := UR sig nD τ) (Lvl := ℕ) (Val := Elt F) spec1 c)
        ⊢ (Pipeline.ΦA (U := UR sig nD τ) (Val := Elt F) spec1 c : sProp 𝕄) := by
      unfold Pipeline.ΦA
      iintro ⟨Hp, -, Hr⟩
      isplitl [Hr]; · iexact Hr
      iexact Hp
    exact hA.trans (hin1 (Vr1 m) c)
  hout c := by
    rw [Pipeline.ownSems0_none]
    have hA : (Pipeline.ΦA (U := UR sig nD τ) (Val := Elt F) spec1 c : sProp 𝕄)
        ⊢ iprop((∃ r, prngReg c r) ∗ emp
          ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (Vr1 m) c).trans hA
  hexit c := by
    have hsplit := Pipeline.unscopedBufs_split₀ (Ix := Unit) (Name := ℕ) (U := UR sig nD τ) (Lvl := ℕ) (cfgs) (1 : Fin 4) winFacts₀1.arr_unscoped c (Vr2 m c)
    rw [Pipeline.unscopedBufs_held] at hsplit
    have hbufs := arrBufs_of_arrays1 (Vr1 m) c (Vr2 m c) ((dat1 (Vr1 m) c).arrAt · cfg1.N) (hF1 m c)
    have hrest : (Pipeline.unscopedRest (Ix := Unit) (Name := ℕ) (U := UR sig nD τ) (Lvl := ℕ) spec1 c (Vr1 m c) : sProp 𝕄)
        = Pipeline.unscopedRest spec1 c (Vr2 m c) := by
      unfold Pipeline.unscopedRest
      exact bigSep_congr fun b hb => by rw [hrest1 m c b (Finset.mem_sdiff.mp hb).2]
    have hj : iprop((pdats m 1 c).arrays ((pdats m 1 c).arrAt · (Pipeline.pin (pcfgs (F := F)) admH 1).N)
          ∗ Pipeline.unscopedRest (Ix := Unit) (Name := ℕ) (U := UR sig nD τ) (Lvl := ℕ) spec1 c (Vr1 m c))
        ⊢ (StableHlo.held (c : Thread nD τ) (Pipeline.ucRefs τ sig) (E2 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 2 over the thread state: entered from every unscoped buffer at `E2`, left at `E3`. Its six buffers
    split out of the unscoped buffers and dealt to the eight windows (the two shared ones by halves), and put back at
    the exit with the output array at what the write-backs leave; the generator register into the invariant and out. -/
def reg2 : Pipeline.RegionSeg (pcfgs (F := F)) admH (pdats m) () defs₀ 𝒱₀ LH lvH 2 where
  win := winFacts₀2
  block_pos := block_pos2
  stage_whole := stage_whole2
  K := PEmpty
  osem k := k.elim
  ho := Pipeline.OwnSemFacts.none _
  hbody c := (body_obligation2 (Vr2 m) c).loose
  hwaits := Pipeline.hwaits_of_owed_zero _ _ _ _ LH lvH 2 fun _ _ => rfl
  pre c := iprop(StableHlo.held (c : Thread nD τ) (Pipeline.ucRefs τ sig) (E2 m c) ∗ RH c)
  post c := iprop(StableHlo.held (c : Thread nD τ) (Pipeline.ucRefs τ sig) (E3 m c) ∗ RH c)
  X c := iprop(∃ r, prngReg c r)
  Y c := iprop(∃ r, prngReg c r)
  Z c := Pipeline.unscopedRest (Ix := Unit) (Name := ℕ) (U := UR sig nD τ) (Lvl := ℕ) spec2 c (Vr2 m c)
  hentry c := by
    rw [Pipeline.ownSems0_none]
    have hsplit := Pipeline.unscopedBufs_split₀ (Ix := Unit) (Name := ℕ) (U := UR sig nD τ) (Lvl := ℕ) (cfgs) (2 : Fin 4) winFacts₀2.arr_unscoped c (Vr2 m c)
    rw [Pipeline.unscopedBufs_held] at hsplit
    have harr := arrays2_of_arrBufs (Vr2 m) c (Vr2 m c) ((dat2 (Vr2 m) c).arrAt · 0) (fun w => A_eq2 (Vr2 m) c w)
    have hsp : (StableHlo.held (c : Thread nD τ) (Pipeline.ucRefs τ sig) (E2 m c) : sProp 𝕄)
        ⊢ iprop((pdats m 2 c).arrays ((pdats m 2 c).arrAt · 0)
            ∗ Pipeline.unscopedRest (Ix := Unit) (Name := ℕ) (U := UR sig nD τ) (Lvl := ℕ) spec2 c (Vr2 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 2).pre c (fun _ => fullShare) (admH (F := F) 2).1
          ∗ Pipeline.scopedRest (Ix := Unit) (Name := ℕ) (U := UR sig nD τ) (Lvl := ℕ) (Val := Elt F) spec2 c)
        ⊢ (Pipeline.ΦA (U := UR sig nD τ) (Val := Elt F) spec2 c : sProp 𝕄) := by
      unfold Pipeline.ΦA
      iintro ⟨Hp, -, Hr⟩
      isplitl [Hr]; · iexact Hr
      iexact Hp
    exact hA.trans (hin2 (Vr2 m) c)
  hout c := by
    rw [Pipeline.ownSems0_none]
    have hA : (Pipeline.ΦA (U := UR sig nD τ) (Val := Elt F) spec2 c : sProp 𝕄)
        ⊢ iprop((∃ r, prngReg c r) ∗ emp
          ∗ Pipeline.scopedRest (Ix := Unit) (Name := ℕ) (U := UR sig nD τ) (Lvl := ℕ) (Val := Elt F) spec2 c) := by
      unfold Pipeline.ΦA
      iintro ⟨Hr, Hp⟩
      isplitl [Hp]; · iexact Hp
      isplitr; · iempintro
      iexact Hr
    exact (hout2 (Vr2 m) c).trans hA
  hexit c := by
    have hsplit := Pipeline.unscopedBufs_split₀ (Ix := Unit) (Name := ℕ) (U := UR sig nD τ) (Lvl := ℕ) (cfgs) (2 : Fin 4) winFacts₀2.arr_unscoped c (Vr3 m c)
    rw [Pipeline.unscopedBufs_held] at hsplit
    have hbufs := arrBufs_of_arrays2 (Vr2 m) c (Vr3 m c) ((dat2 (Vr2 m) c).arrAt · cfg2.N) (hF2 m c)
    have hrest : (Pipeline.unscopedRest (Ix := Unit) (Name := ℕ) (U := UR sig nD τ) (Lvl := ℕ) spec2 c (Vr2 m c) : sProp 𝕄)
        = Pipeline.unscopedRest spec2 c (Vr3 m c) := by
      unfold Pipeline.unscopedRest
      exact bigSep_congr fun b hb => by rw [hrest2 m c b (Finset.mem_sdiff.mp hb).2]
    have hj : iprop((pdats m 2 c).arrays ((pdats m 2 c).arrAt · (Pipeline.pin (pcfgs (F := F)) admH 2).N)
          ∗ Pipeline.unscopedRest (Ix := Unit) (Name := ℕ) (U := UR sig nD τ) (Lvl := ℕ) spec2 c (Vr2 m c))
        ⊢ (StableHlo.held (c : Thread nD τ) (Pipeline.ucRefs τ sig) (E3 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 over the thread state: entered from every unscoped buffer at `E3`, left at `E4`. Its six buffers
    split out of the unscoped buffers and dealt to the eight windows (the two shared ones by halves), and put back at
    the exit with the output array at what the write-backs leave; the generator register into the invariant and out. -/
def reg3 : Pipeline.RegionSeg (pcfgs (F := F)) admH (pdats m) () defs₀ 𝒱₀ LH lvH 3 where
  win := winFacts₀3
  block_pos := block_pos3
  stage_whole := stage_whole3
  K := PEmpty
  osem k := k.elim
  ho := Pipeline.OwnSemFacts.none _
  hbody c := (body_obligation3 (Vr3 m) c).loose
  hwaits := Pipeline.hwaits_of_owed_zero _ _ _ _ LH lvH 3 fun _ _ => rfl
  pre c := iprop(StableHlo.held (c : Thread nD τ) (Pipeline.ucRefs τ sig) (E3 m c) ∗ RH c)
  post c := iprop(StableHlo.held (c : Thread nD τ) (Pipeline.ucRefs τ sig) (E4 m c) ∗ RH c)
  X c := iprop(∃ r, prngReg c r)
  Y c := iprop(∃ r, prngReg c r)
  Z c := Pipeline.unscopedRest (Ix := Unit) (Name := ℕ) (U := UR sig nD τ) (Lvl := ℕ) spec3 c (Vr3 m c)
  hentry c := by
    rw [Pipeline.ownSems0_none]
    have hsplit := Pipeline.unscopedBufs_split₀ (Ix := Unit) (Name := ℕ) (U := UR sig nD τ) (Lvl := ℕ) (cfgs) (3 : Fin 4) winFacts₀3.arr_unscoped c (Vr3 m c)
    rw [Pipeline.unscopedBufs_held] at hsplit
    have harr := arrays3_of_arrBufs (Vr3 m) c (Vr3 m c) ((dat3 (Vr3 m) c).arrAt · 0) (fun w => A_eq3 (Vr3 m) c w)
    have hsp : (StableHlo.held (c : Thread nD τ) (Pipeline.ucRefs τ sig) (E3 m c) : sProp 𝕄)
        ⊢ iprop((pdats m 3 c).arrays ((pdats m 3 c).arrAt · 0)
            ∗ Pipeline.unscopedRest (Ix := Unit) (Name := ℕ) (U := UR sig nD τ) (Lvl := ℕ) spec3 c (Vr3 m c)) := by
      rw [hsplit]; exact sep_mono harr .rfl
    iintro ⟨⟨Hub, Hp, HO⟩, -, -⟩
    ihave H := hsp $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 3).pre c (fun _ => fullShare) (admH (F := F) 3).1
          ∗ Pipeline.scopedRest (Ix := Unit) (Name := ℕ) (U := UR sig nD τ) (Lvl := ℕ) (Val := Elt F) spec3 c)
        ⊢ (Pipeline.ΦA (U := UR sig nD τ) (Val := Elt F) spec3 c : sProp 𝕄) := by
      unfold Pipeline.ΦA
      iintro ⟨Hp, -, Hr⟩
      isplitl [Hr]; · iexact Hr
      iexact Hp
    exact hA.trans (hin3 (Vr3 m) c)
  hout c := by
    rw [Pipeline.ownSems0_none]
    have hA : (Pipeline.ΦA (U := UR sig nD τ) (Val := Elt F) spec3 c : sProp 𝕄)
        ⊢ iprop((∃ r, prngReg c r) ∗ emp
          ∗ Pipeline.scopedRest (Ix := Unit) (Name := ℕ) (U := UR sig nD τ) (Lvl := ℕ) (Val := Elt F) spec3 c) := by
      unfold Pipeline.ΦA
      iintro ⟨Hr, Hp⟩
      isplitl [Hp]; · iexact Hp
      isplitr; · iempintro
      iexact Hr
    exact (hout3 (Vr3 m) c).trans hA
  hexit c := by
    have hsplit := Pipeline.unscopedBufs_split₀ (Ix := Unit) (Name := ℕ) (U := UR sig nD τ) (Lvl := ℕ) (cfgs) (3 : Fin 4) winFacts₀3.arr_unscoped c (Vr4 m c)
    rw [Pipeline.unscopedBufs_held] at hsplit
    have hbufs := arrBufs_of_arrays3 (Vr3 m) c (Vr4 m c) ((dat3 (Vr3 m) c).arrAt · cfg3.N) (hF3 m c)
    have hrest : (Pipeline.unscopedRest (Ix := Unit) (Name := ℕ) (U := UR sig nD τ) (Lvl := ℕ) spec3 c (Vr3 m c) : sProp 𝕄)
        = Pipeline.unscopedRest spec3 c (Vr4 m c) := by
      unfold Pipeline.unscopedRest
      exact bigSep_congr fun b hb => by rw [hrest3 m c b (Finset.mem_sdiff.mp hb).2]
    have hj : iprop((pdats m 3 c).arrays ((pdats m 3 c).arrAt · (Pipeline.pin (pcfgs (F := F)) admH 3).N)
          ∗ Pipeline.unscopedRest (Ix := Unit) (Name := ℕ) (U := UR sig nD τ) (Lvl := ℕ) spec3 c (Vr3 m c))
        ⊢ (StableHlo.held (c : Thread nD τ) (Pipeline.ucRefs τ sig) (E4 m c) : sProp 𝕄) := by
      rw [hsplit, hrest]; exact sep_mono hbufs .rfl
    iintro ⟨Ha, HO, HY, Hrest⟩
    imodintro
    isplitl [Ha Hrest]
    · iapply hj; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) admH (pdats m) () defs₀ 𝒱₀ LH lvH) :=
  [.region (reg0 m), .region (reg1 m), .region (reg2 m), .region (reg3 m)]

set_option backward.isDefEq.respectTransparency.types false in
/-- THE RUN. From any memory with zero counters every weakly fair execution of @main terminates, nothing faulting, and in
    every final state each unscoped buffer of core `c` holds what the fold `E4` says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E4 m c b) :=
  Pipeline.θ_run_regions_kit (pcfgs (F := F)) admH (pdats m) () cellOf_inj emb₁ defs₀ 𝒱₀ LH lvH m ρ main (segs m)
    (fun c Q => by rw [main_segs admH (pdats m) () 𝒱₀ LH lvH (reg0 m) (reg1 m) (reg2 m) (reg3 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ RH c))
    (Tₙ := fun c => iprop(StableHlo.held (c : Thread nD τ) (Pipeline.ucRefs τ sig) (E4 m c) ∗ ∃ r, prngReg c r))
    (hch := ⟨fun _ => .rfl, fun _ => .rfl, fun _ => .rfl, fun _ => .rfl, fun c => by
      show (iprop(StableHlo.held (c : Thread nD τ) (Pipeline.ucRefs τ sig) (E4 m c) ∗ RH c) : sProp 𝕄) ⊢ _
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E4 m c b)
    (hfin := fun c s' => by
      iintro ⟨⟨Hh, -⟩, HSI⟩
      unfold StableHlo.held
      imodintro
      iapply (pointsTo_read_all (Pipeline.ucRefs τ sig) (fun b => (((c : Thread nD τ)).1, b)) (E4 m c) s')
      isplitl [Hh] <;> iassumption)
    (hQ := fun s h c => h c)

/-! ## What the claims read off the run -/

/-- A buffer no region writes ends as launched. -/
theorem E4_of_arg (c : Dev nD) (b : Ref sig .tc) (h0 : b ≠ main_v0) (h1 : b ≠ main_v1) (h2 : b ≠ main_v2) (h3 : b ≠ main_v3) :
    E4 m c (Proc.devRef .tc b) = m ((c : Thread nD τ).loc b) :=
  (E4_of_ne m c b h3).trans <| (E3_of_ne m c b h2).trans <| (E2_of_ne m c b h1).trans <| (E1_of_ne m c b h0).trans rfl

/-- THE FRAME: every weakly fair execution terminates, nothing faulting, the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c _ (mem_uc main_arg0 (by decide))).trans (E4_of_arg m c main_arg0 (by decide) (by decide) (by decide) (by decide)),
      (h c _ (mem_uc main_arg1 (by decide))).trans (E4_of_arg m c main_arg1 (by decide) (by decide) (by decide) (by decide)),
      (h c _ (mem_uc main_arg2 (by decide))).trans (E4_of_arg m c main_arg2 (by decide) (by decide) (by decide) (by decide)),
      (h c _ (mem_uc main_arg3 (by decide))).trans (E4_of_arg m c main_arg3 (by decide) (by decide) (by decide) (by decide)),
      (h c _ (mem_uc main_arg4 (by decide))).trans (E4_of_arg m c main_arg4 (by decide) (by decide) (by decide) (by decide)),
      (h c _ (mem_uc main_arg5 (by decide))).trans (E4_of_arg m c main_arg5 (by decide) (by decide) (by decide) (by decide)),
      (h c _ (mem_uc main_arg6 (by decide))).trans (E4_of_arg m c main_arg6 (by decide) (by decide) (by decide) (by decide)),
      (h c _ (mem_uc main_arg7 (by decide))).trans (E4_of_arg m c main_arg7 (by decide) (by decide) (by decide) (by decide))⟩) (run_all m ρ)

/-- The same run with the result array named: it ends at what the last region's write-backs leave. -/
theorem run_out : θ_run defs (onTc (τ := τ) (main (F := F))) ⟨m, fun _ => 0, ρ⟩ (fun r => ∀ c : Dev nD,
      r.2.mem ((c.tc : Thread nD τ).loc main_v3) = E4 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨h c _ (mem_uc main_v3 (by decide)),
      (h c _ (mem_uc main_arg0 (by decide))).trans (E4_of_arg m c main_arg0 (by decide) (by decide) (by decide) (by decide)),
      (h c _ (mem_uc main_arg1 (by decide))).trans (E4_of_arg m c main_arg1 (by decide) (by decide) (by decide) (by decide)),
      (h c _ (mem_uc main_arg2 (by decide))).trans (E4_of_arg m c main_arg2 (by decide) (by decide) (by decide) (by decide)),
      (h c _ (mem_uc main_arg3 (by decide))).trans (E4_of_arg m c main_arg3 (by decide) (by decide) (by decide) (by decide)),
      (h c _ (mem_uc main_arg4 (by decide))).trans (E4_of_arg m c main_arg4 (by decide) (by decide) (by decide) (by decide)),
      (h c _ (mem_uc main_arg5 (by decide))).trans (E4_of_arg m c main_arg5 (by decide) (by decide) (by decide) (by decide)),
      (h c _ (mem_uc main_arg6 (by decide))).trans (E4_of_arg m c main_arg6 (by decide) (by decide) (by decide) (by decide)),
      (h c _ (mem_uc main_arg7 (by decide))).trans (E4_of_arg m c main_arg7 (by decide) (by decide) (by decide) (by decide))⟩) (run_all m ρ)

end Cert.KernelIdeal.Hand

end
-- ==== Proof.Spec.lean ====
import Idealize.ShloMosaic.PureOps.Ideal
import Idealize.ShloMosaic.Lib.ValueIdx

/-!
# A three-layer graph convolution, as two functions of its arguments

Over the extended reals. `adj` is the raw adjacency matrix, `x` the node features, `W`, `b` a layer's weight and
bias. With `Â = adj + I` and `d i = (Σ_j Â i j)^(-1/2)`, a layer sends `h` to `(D Â D) (h W) + b`, `D = diag d`.

* The REFERENCE form materialises `D Â D`: entry `(i, j)` is `(Â i j · d i) · d j`, and the layer is
  `Σ_j ((Â i j · d i) · d j) · z j c + b c` with `z = h W`.
* The KERNEL form never builds `Â`: `d i = (Σ_j adj i j + 1)^(-1/2)`, and the layer is
  `((Σ_j adj i j · (z j c · d j)) + z i c · d i) · d i + b c`: the identity's contribution is the separate
  summand `z i c · d i`, and the row factor `d i` is taken out of the sum.

The two agree when every `d i` is a positive real and `adj`, `z` are real: distributivity, which fails at the
infinities (`Spec` states no such law: it only names the two sides).
-/

noncomputable section

namespace Gcn

open Idealize.ShloMosaic Idealize.ShloMosaic.ValueIdx

/-- A rank-2 array of extended reals. -/
abbrev Mat (r c : Nat) : Type := (⟨2, ![r, c]⟩ : Shape).Idx → EReal
/-- A rank-1 array of extended reals. -/
abbrev Row (n : Nat) : Type := (⟨1, ![n]⟩ : Shape).Idx → EReal

/-- The identity matrix's entry. -/
def eye (i j : Fin 8192) : EReal := if i = j then 1 else 0

/-- `max · 0`, entry by entry. -/
def relu {r c : Nat} (h : Mat r c) : Mat r c := fun y => max (h y) 0

/-- The feature product `z = h W`, at node `j` and output feature `c`. -/
def feat {din dout : Nat} (h : Mat 8192 din) (W : Mat din dout) (j : Fin 8192) (c : Fin dout) : EReal :=
  ∑ k : Fin din, h (ix2 j k) * W (ix2 k c)

/-! ## The kernel's form -/

/-- `d i = (Σ_j adj i j + 1)^(-1/2)`: the row sum of the raw matrix, the identity's one added after. -/
def dinvK (adj : Mat 8192 8192) (i : Fin 8192) : EReal :=
  Ideal.rsqrt ((∑ j : Fin 8192, adj (ix2 i j)) + 1)

/-- One layer before its activation, the kernel's way: aggregate `u j = z j · d j` against the raw matrix, add the
    node's own `u i`, scale the row by `d i`, add the bias. -/
def layerK {din dout : Nat} (adj : Mat 8192 8192) (d : Fin 8192 → EReal) (h : Mat 8192 din) (W : Mat din dout)
    (b : Row dout) : Mat 8192 dout := fun y =>
  ((∑ j : Fin 8192, adj (ix2 (y 0) j) * (feat h W j (y 1) * d j)) + feat h W (y 0) (y 1) * d (y 0)) * d (y 0)
    + b (ix1 (y 1))

/-- The three layers, the kernel's way: `relu` after the first two. -/
def outK (adj : Mat 8192 8192) (x : Mat 8192 64) (W0 : Mat 64 128) (b0 : Row 128) (W1 : Mat 128 128) (b1 : Row 128)
    (W2 : Mat 128 64) (b2 : Row 64) : Mat 8192 64 :=
  layerK adj (dinvK adj) (relu (layerK adj (dinvK adj) (relu (layerK adj (dinvK adj) x W0 b0)) W1 b1)) W2 b2

/-! ## The reference's form -/

/-- `d i = (Σ_j (adj i j + I i j))^(-1/2)`: the row sum of `Â`. -/
def dinvR (adj : Mat 8192 8192) (i : Fin 8192) : EReal :=
  Ideal.rsqrt (∑ j : Fin 8192, (adj (ix2 i j) + eye i j))

/-- One layer before its activation, the reference's way: the normalised matrix `((Â i j · d i) · d j)` against `z`. -/
def layerR {din dout : Nat} (adj : Mat 8192 8192) (d : Fin 8192 → EReal) (h : Mat 8192 din) (W : Mat din dout)
    (b : Row dout) : Mat 8192 dout := fun y =>
  (∑ j : Fin 8192, ((adj (ix2 (y 0) j) + eye (y 0) j) * d (y 0) * d j) * feat h W j (y 1)) + b (ix1 (y 1))

/-- The three layers, the reference's way. -/
def outR (adj : Mat 8192 8192) (x : Mat 8192 64) (W0 : Mat 64 128) (b0 : Row 128) (W1 : Mat 128 128) (b1 : Row 128)
    (W2 : Mat 128 64) (b2 : Row 64) : Mat 8192 64 :=
  layerR adj (dinvR adj) (relu (layerR adj (dinvR adj) (relu (layerR adj (dinvR adj) x W0 b0)) W1 b1)) W2 b2

/-! ## The domain the two agree on -/

/-- Every entry a real number. -/
def IsReal {S : Shape} (v : S.Idx → EReal) : Prop := ∀ y, ∃ r : ℝ, v y = (r : EReal)

/-- Every row sum of `Â = adj + I` positive: where the reference's `rsqrt` is inside its domain. -/
def RowSumsPos (adj : Mat 8192 8192) : Prop := ∀ i : Fin 8192, 0 < ∑ j : Fin 8192, (adj (ix2 i j) + eye i j)

end Gcn

end
-- ==== Proof.ValR0.lean ====
import proofs.«166741_j53910429499630_1_alg».proof.Proof.FrameR0
import proofs.«166741_j53910429499630_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # The degree pass, read: the normaliser column as one function of the adjacency matrix

The payload at an index (a lane sum, a column cast, the added one, the inverse square root), then the blocks: point `t`
reads rows `256 t … 256 t + 255` of the matrix and writes back the same rows of the column, and the 32 blocks tile it. -/

/-- The f32 word `0x3F800000` is the extended real one. -/
theorem one_word : Ideal.ofBits .f32 0x3F800000#32 = 1 := by
  rw [show (1 : EReal) = ((1 : ℝ) : EReal) by norm_cast]
  simp [Ideal.ofBits, Ideal.ieee, -EReal.coe_mul]; norm_num

/-- The sum over the lanes of a 256×8192 block, at row `p`: `Σ_k x0 (p, k)`. -/
theorem laneSum_apply (x0 : Vec Ideal S256x8192 .f32) (p : Fin 256) :
    multiReduction (F := Ideal) .add [1] S256 x0 0x00000000#32 reduces_S256x8192_S256 (.inl rfl) rfl (ix1 p)
      = ∑ k : Fin 8192, x0 (ix2 p k) := by
  refine (Ideal.multiReduction_add_single x0 _ reduces_S256x8192_S256 (.inl rfl) rfl (ix1 p)).trans ?_
  show (∑ k : Fin 8192, x0 (reduces_S256x8192_S256.lift (ix1 p) k)) = _
  refine Finset.sum_congr rfl fun k _ => congrArg x0 (funext fun a => Fin.ext ?_)
  match a with
  | ⟨0, _⟩ => rfl
  | ⟨1, _⟩ => rfl

/-- A 256-vector cast to a 256×1 column reads, at `(p, 0)`, the vector at `p`: the two row-major positions are both `p`. -/
theorem column_apply (v : (⟨1, ![256]⟩ : Shape).Idx → EReal) (p : Fin 256) (q : Fin 1) :
    shapeCast S256x1 v shapeCasts_S256_S256x1 (ix2 p q) = v (ix1 p) :=
  shapeCast_apply v shapeCasts_S256_S256x1 _ _ (by
    rw [Shape.rowMajor_val_one, Shape.rowMajor_val_two]
    have hq : q.val = 0 := by omega
    show p.val = p.val * 1 + q.val
    omega)

/-- The payload at `(p, q)`: `(Σ_k x0 (p, k) + 1)^(-1/2)`. -/
theorem pay_apply (x0 : Vec Ideal S256x8192 .f32) (p : Fin 256) (q : Fin 1) :
    k0_pay1 (F := Ideal) x0 (ix2 p q) = Ideal.rsqrt ((∑ k : Fin 8192, x0 (ix2 p k)) + 1) := by
  unfold k0_pay1
  show Ideal.rsqrt (shapeCast S256x1 (multiReduction (F := Ideal) .add [1] S256 x0 0x00000000#32 reduces_S256x8192_S256 (.inl rfl) rfl) shapeCasts_S256_S256x1 (ix2 p q) + Ideal.ofBits .f32 0x3F800000#32) = _
  rw [column_apply, laneSum_apply, one_word]

/-- The payload of a block whose row `y 0` is row `r` of a matrix `A`, at `y`, is the normaliser of `A` at `r`. -/
theorem pay_at (x0 : Vec Ideal S256x8192 .f32) (A : Gcn.Mat 8192 8192) (y : S256x1.Idx) (r : Fin 8192)
    (hx : ∀ k : Fin 8192, x0 (ix2 (y 0) k) = A (ix2 r k)) :
    k0_pay1 (F := Ideal) x0 y = Gcn.dinvK A r := by
  obtain ⟨p, q, rfl⟩ : ∃ (p : Fin 256) (q : Fin 1), y = ix2 p q := ⟨y 0, y 1, eq_ix2 y⟩
  rw [pay_apply]
  unfold Gcn.dinvK
  exact congrArg (fun s => Ideal.rsqrt (s + 1)) (Finset.sum_congr rfl fun k _ => hx k)

variable (V : (c : Dev nD) → (b : Ref sig .tc) → Buf (Elt Ideal) ((c : Thread nD τ).loc b))

theorem offs_zero : (![0, 0] : Fin 2 → Nat) = fun _ => 0 := funext fun a => by fin_cases a <;> rfl

/-- Both index maps of the degree pass send point `t` to block `(t, 0)`. -/
theorem index_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The normaliser column as one function of the whole matrix. -/
abbrev dinvCol (c : Dev nD) : S8192x1.Idx → EReal := fun y => Gcn.dinvK (V c main_arg1) (y 0)

/-- What point `t` writes back is block `t` of the normaliser column: row `256 t + p` of the matrix is row `p` of the
    block the point read. -/
theorem flushed0_1_eq (c : Dev nD) (t : Fin cfg0.N) :
    (dat0 (F := Ideal) V c).flushed 1 t = ((cfg0.win 1).blk t).view.read (Elt Ideal) (dinvCol V c) := by
  show (cfg0.win 1).cut (grid0.coords t) ((dat0 V c).after 1 t) = _
  rw [after0_1]
  unfold out0_1
  rw [View.canon_unit_zero offs_zero]
  simp only [View.ld_unit_zero (S := S256x8192) offs_zero]
  obtain ⟨e0, e1, e2, e3⟩ := index_facts0 t
  funext j
  show k0_pay1 (F := Ideal) (iblk0 V c 0 t) j = Gcn.dinvK (V c main_arg1) ((((cfg0.win 1).blk t).view.emb j) 0)
  refine pay_at _ _ j _ (fun k => ?_)
  unfold iblk0
  rw [View.read_apply]
  show V c main_arg1 (((cfg0.win 0).blk t).view.emb (ix2 (j 0) k)) = V c main_arg1 _
  refine congrArg (V c main_arg1) (funext fun a => Fin.ext ?_)
  match a with
  | ⟨0, _⟩ =>
    show win0_0.index t (0 : Fin 2) * 256 + 1 * (j 0).val = win0_1.index t (0 : Fin 2) * 256 + 1 * (j 0).val
    omega
  | ⟨1, _⟩ =>
    show win0_0.index t (1 : Fin 2) * 8192 + 1 * k.val = k.val
    omega

/-- An index of the column is in point `t`'s block iff each coordinate is in the block's range on its axis. -/
theorem mem_blk0_1 (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- Row `r` of the column lies in the block of point `r / 256`, and every point writes its block back. -/
theorem cover0_1_arr (i : S8192x1.Idx) :
    ∃ t : Fin cfg0.N, (cfg0.win 1).flush t = true ∧ i ∈ ((cfg0.win 1).blk t).view.set := by
  have hi0 : (i 0).val < 8192 := (i 0).isLt
  have hi1 : (i 1).val < 1 := (i 1).isLt
  let t : Fin cfg0.N := ⟨(i 0).val / 256, by show (i 0).val / 256 < 32; omega⟩
  obtain ⟨e0, e1, e2, e3⟩ := index_facts0 t
  have ht : t.val = (i 0).val / 256 := rfl
  refine ⟨t, flush0_1 t, ?_⟩
  rw [mem_blk0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- After the degree pass the normaliser's array holds `(Σ_j adj i j + 1)^(-1/2)` at row `i`: every row block written
    once, by the point that owns it, from that block of `adj`. -/
theorem arrAt0_out (c : Dev nD) :
    (dat0 (F := Ideal) V c).arrAt 1 cfg0.N = (fun y : S8192x1.Idx => Gcn.dinvK (V c main_arg1) (y 0)) := by
  exact (dat0 (F := Ideal) V c).arrAt_eq_of_cover 1 (dinvCol V c) (fun t _ => flushed0_1_eq V c t) cover0_1_arr

end Cert.KernelIdeal.Hand

end
-- ==== Proof.ValR1.lean ====
import proofs.«166741_j53910429499630_1_alg».proof.Proof.FrameR1
import proofs.«166741_j53910429499630_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace ValR1

/-! ## The two block products at an index -/

/-- The feature product's dimension numbers: row of the left operand, contraction, contraction, column of the right. -/
theorem lhs_featDot_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
theorem lhs_featDot_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
theorem rhs_featDot_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
theorem rhs_featDot_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- A block of rows times the weight, into the zero block: entry `(p, q)` is `Σ_k x (p, k) · w (k, q)`. -/
theorem featDot_apply (x : FVec Ideal S1024x64 .bf16) (w : FVec Ideal S64x128 .bf16) (p : Fin 1024) (q : Fin 128) :
    matmul dot_S1024x64_S64x128_S1024x128_1_0_0_1_n_n none x w (constant (F := Ideal) S1024x128 .f32 0x00000000#32) (ix2 p q)
      = ∑ k : Fin 64, x (ix2 p k) * w (ix2 k q) := by
  show FloatOps.matmul dot_S1024x64_S64x128_S1024x128_1_0_0_1_n_n none x w (constant (F := Ideal) S1024x128 .f32 0x00000000#32) (ix2 p q) = _
  rw [Ideal.matmul_constant_zero_apply, ← Equiv.sum_comp (ValueIdx.contrEquiv1 dot_S1024x64_S64x128_S1024x128_1_0_0_1_n_n 64 rfl rfl).symm]
  refine Finset.sum_congr rfl fun k _ => ?_
  have hk := ValueIdx.contrEquiv1_symm_val dot_S1024x64_S64x128_S1024x128_1_0_0_1_n_n 64 rfl rfl k
  have el : dot_S1024x64_S64x128_S1024x128_1_0_0_1_n_n.lhsIdx (ix2 p q) ((ValueIdx.contrEquiv1 dot_S1024x64_S64x128_S1024x128_1_0_0_1_n_n 64 rfl rfl).symm k) = ix2 p k := funext fun a => Fin.ext (by
    match a with
    | ⟨0, _⟩ => exact lhs_featDot_0 _ _
    | ⟨1, _⟩ => exact (lhs_featDot_1 _ _).trans hk)
  have er : dot_S1024x64_S64x128_S1024x128_1_0_0_1_n_n.rhsIdx (ix2 p q) ((ValueIdx.contrEquiv1 dot_S1024x64_S64x128_S1024x128_1_0_0_1_n_n 64 rfl rfl).symm k) = ix2 k q := funext fun a => Fin.ext (by
    match a with
    | ⟨0, _⟩ => exact (rhs_featDot_0 _ _).trans hk
    | ⟨1, _⟩ => exact rhs_featDot_1 _ _)
  rw [el, er]

/-- The aggregation product's dimension numbers, likewise. -/
theorem lhs_aggDot_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_aggDot_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_aggDot_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_aggDot_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A block of `adj` times a block of scaled features, into the zero block: entry `(p, q)` is `Σ_r a (p, r) · u (r, q)`. -/
theorem aggDot_apply (a : FVec Ideal S1024x1024 .bf16) (u : FVec Ideal S1024x128 .bf16) (p : Fin 1024) (q : Fin 128) :
    matmul dot_S1024x1024_S1024x128_S1024x128_1_0_0_1_n_n none a u (constant (F := Ideal) S1024x128 .f32 0x00000000#32) (ix2 p q)
      = ∑ r : Fin 1024, a (ix2 p r) * u (ix2 r q) := by
  show FloatOps.matmul dot_S1024x1024_S1024x128_S1024x128_1_0_0_1_n_n none a u (constant (F := Ideal) S1024x128 .f32 0x00000000#32) (ix2 p q) = _
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_aggDot_0 _ _
    | ⟨1, _⟩ => exact (lhs_aggDot_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_aggDot_0 _ _).trans hk
    | ⟨1, _⟩ => exact rhs_aggDot_1 _ _)
  rw [el, er]

/-! ## The two broadcasts at an index -/

/-- A column laid along every lane: entry `(r, q)` is the column's entry `r`. -/
theorem colBroadcast_apply (d : Vec Ideal S1024x1 .f32) (r : Fin 1024) (q : Fin 128) :
    broadcastTo S1024x128 (shapeCast S1024x1 d shapeCasts_S1024x1_S1024x1) broadcasts_S1024x1_S1024x128 (ix2 r q)
      = d (ix2 r (0 : Fin 1)) := by
  rw [shapeCast_self]
  refine broadcastTo_apply d broadcasts_S1024x1_S1024x128 (ix2 r q) (ix2 r (0 : Fin 1)) fun a => ?_
  match a with
  | ⟨0, _⟩ => rfl
  | ⟨1, _⟩ => rfl

/-- A vector laid along every row: entry `(p, q)` is the vector's entry `q`. -/
theorem rowBroadcast_apply (b : Vec Ideal S128 .f32) (p : Fin 1024) (q : Fin 128) :
    broadcastTo S1024x128 (shapeCast S1x128 b shapeCasts_S128_S1x128) broadcasts_S1x128_S1024x128 (ix2 p q)
      = b (ix1 q) := by
  refine (broadcastTo_apply (shapeCast S1x128 b shapeCasts_S128_S1x128) broadcasts_S1x128_S1024x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_two, Shape.rowMajor_val_one]
    show q.val = 0 * 128 + q.val
    omega

/-! ## The payloads at an index -/

/-- The zero block. -/
theorem pay1_apply (p : Fin 1024) (q : Fin 128) : k1_pay1 (F := Ideal) (ix2 p q) = 0 := by
  unfold k1_pay1
  rw [shapeCast_self]
  show Ideal.ofBits .f32 0x00000000#32 = 0
  exact Ideal.ofBits_zero_f32

/-- One accumulation step: the accumulator plus this block of `adj` against this block of features, each feature row
    multiplied into the weight and scaled by its normaliser. -/
theorem pay3_apply (w : Vec Ideal S64x128 .f32) (h : Vec Ideal S1024x64 .f32) (d : Vec Ideal S1024x1 .f32)
    (a : Vec Ideal S1024x1024 .f32) (acc : Vec Ideal S1024x128 .f32) (p : Fin 1024) (q : Fin 128) :
    k1_pay3 w h d a acc (ix2 p q)
      = acc (ix2 p q) + ∑ r : Fin 1024, a (ix2 p r) * ((∑ k : Fin 64, h (ix2 r k) * w (ix2 k q)) * d (ix2 r (0 : Fin 1))) := by
  unfold k1_pay3 k1_pay2
  rw [shapeCast_self, addf_apply]
  refine congrArg (acc (ix2 p q) + ·) ?_
  refine (aggDot_apply _ _ p q).trans ?_
  refine Finset.sum_congr rfl fun r _ => ?_
  rw [truncf_apply, truncf_apply, mulf_apply]
  refine congrArg (a (ix2 p r) * ·) ?_
  rw [colBroadcast_apply]
  refine congrArg (· * d (ix2 r (0 : Fin 1))) ?_
  refine (featDot_apply _ _ r q).trans ?_
  rfl

/-- The last step of a row: add the node's own scaled features, scale the row, add the bias, clamp at zero. -/
theorem pay4_apply (w : Vec Ideal S64x128 .f32) (h : Vec Ideal S1024x64 .f32) (d : Vec Ideal S1024x1 .f32)
    (acc : Vec Ideal S1024x128 .f32) (d' : Vec Ideal S1024x1 .f32) (b : Vec Ideal S128 .f32) (p : Fin 1024) (q : Fin 128) :
    k1_pay4 w h d acc d' b (ix2 p q)
      = max (((acc (ix2 p q) + (∑ k : Fin 64, h (ix2 p k) * w (ix2 k q)) * d (ix2 p (0 : Fin 1))) * d' (ix2 p (0 : Fin 1)))
          + b (ix1 q)) 0 := by
  unfold k1_pay4 k1_pay2
  rw [maximumf_apply, broadcast_apply, addf_apply, mulf_apply, addf_apply, mulf_apply, rowBroadcast_apply,
    colBroadcast_apply, colBroadcast_apply]
  have e0 : (Scalar.ofBits (F := Ideal) .f32 0x00000000#32 : Ideal .f32) = 0 := Ideal.ofBits_zero_f32
  rw [e0]
  refine congrArg (fun z => max (((acc (ix2 p q) + z * d (ix2 p (0 : Fin 1))) * d' (ix2 p (0 : Fin 1))) + b (ix1 q)) 0) ?_
  refine (featDot_apply _ _ p q).trans ?_
  rfl

/-! ## The blocks, read off the arrays -/

/-- The windows' block indices at point `t = 8 i + k`, decided over the grid. -/
theorem blockIdx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = 0 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = 0
    ∧ win1_6.index t (0 : Fin 1) = 0
    ∧ win1_7.index t (0 : Fin 2) = t.val / 8 ∧ win1_7.index t (1 : Fin 2) = 0 :=
  (by decide +kernel : ∀ t : Fin grid1.N, _)

theorem lt64 (t : Fin cfg1.N) : t.val < 64 := lt_of_lt_of_eq t.isLt N_1

/-- Row (or column) `r` of block `k` of an axis of 8192 cut into blocks of 1024. -/
def blkIx (k : ℕ) (r : Fin 1024) : Fin 8192 := ⟨(1024 * k + r.val) % 8192, Nat.mod_lt _ (by decide)⟩

theorem blkIx_val (k : ℕ) (hk : k < 8) (r : Fin 1024) : (blkIx k r).val = 1024 * k + r.val := by
  show (1024 * k + r.val) % 8192 = _
  have := r.isLt
  omega

/-- The arrays as the region finds them, at the types the layer's formula takes them. -/
abbrev adjA (c : Dev nD) : Gcn.Mat 8192 8192 := V c main_arg1
abbrev hA (c : Dev nD) : Gcn.Mat 8192 64 := V c main_arg0
abbrev wA (c : Dev nD) : Gcn.Mat 64 128 := V c main_arg2
abbrev dA (c : Dev nD) : Gcn.Mat 8192 1 := V c main_v0
abbrev bA (c : Dev nD) : Gcn.Row 128 := V c main_arg3

theorem adjB1_apply (c : Dev nD) (t : Fin cfg1.N) (p r : Fin 1024) (P Q : Fin 8192)
    (hP : P.val = 1024 * (t.val / 8) + p.val) (hQ : Q.val = 1024 * (t.val % 8) + r.val) :
    adjB1 V c t (ix2 p r) = adjA V c (ix2 P Q) := by
  obtain ⟨e0, e1, -⟩ := blockIdx1 t
  show V c main_arg1 (((cfg1.win 0).blk t).view.emb (ix2 p r)) = V c main_arg1 (ix2 P Q)
  refine congrArg (V c main_arg1) (funext fun a => Fin.ext ?_)
  match a with
  | ⟨0, _⟩ => show win1_0.index t (0 : Fin 2) * 1024 + 1 * p.val = P.val; omega
  | ⟨1, _⟩ => show win1_0.index t (1 : Fin 2) * 1024 + 1 * r.val = Q.val; omega

theorem hkB1_apply (c : Dev nD) (t : Fin cfg1.N) (r : Fin 1024) (k : Fin 64) (Q : Fin 8192)
    (hQ : Q.val = 1024 * (t.val % 8) + r.val) :
    hkB1 V c t (ix2 r k) = hA V c (ix2 Q k) := by
  obtain ⟨-, -, e0, e1, -⟩ := blockIdx1 t
  show V c main_arg0 (((cfg1.win 1).blk t).view.emb (ix2 r k)) = V c main_arg0 (ix2 Q k)
  refine congrArg (V c main_arg0) (funext fun a => Fin.ext ?_)
  match a with
  | ⟨0, _⟩ => show win1_1.index t (0 : Fin 2) * 1024 + 1 * r.val = Q.val; omega
  | ⟨1, _⟩ => show win1_1.index t (1 : Fin 2) * 64 + 1 * k.val = k.val; omega

theorem hiB1_apply (c : Dev nD) (t : Fin cfg1.N) (p : Fin 1024) (k : Fin 64) (P : Fin 8192)
    (hP : P.val = 1024 * (t.val / 8) + p.val) :
    hiB1 V c t (ix2 p k) = hA V c (ix2 P k) := by
  obtain ⟨-, -, -, -, e0, e1, -⟩ := blockIdx1 t
  show V c main_arg0 (((cfg1.win 2).blk t).view.emb (ix2 p k)) = V c main_arg0 (ix2 P k)
  refine congrArg (V c main_arg0) (funext fun a => Fin.ext ?_)
  match a with
  | ⟨0, _⟩ => show win1_2.index t (0 : Fin 2) * 1024 + 1 * p.val = P.val; omega
  | ⟨1, _⟩ => show win1_2.index t (1 : Fin 2) * 64 + 1 * k.val = k.val; omega

theorem wB1_apply (c : Dev nD) (t : Fin cfg1.N) (k : Fin 64) (q : Fin 128) :
    wB1 V c t (ix2 k q) = wA V c (ix2 k q) := by
  obtain ⟨-, -, -, -, -, -, e0, e1, -⟩ := blockIdx1 t
  show V c main_arg2 (((cfg1.win 3).blk t).view.emb (ix2 k q)) = V c main_arg2 (ix2 k q)
  refine congrArg (V c main_arg2) (funext fun a => Fin.ext ?_)
  match a with
  | ⟨0, _⟩ => show win1_3.index t (0 : Fin 2) * 64 + 1 * k.val = k.val; omega
  | ⟨1, _⟩ => show win1_3.index t (1 : Fin 2) * 128 + 1 * q.val = q.val; omega

theorem dkB1_apply (c : Dev nD) (t : Fin cfg1.N) (r : Fin 1024) (Q : Fin 8192)
    (hQ : Q.val = 1024 * (t.val % 8) + r.val) :
    dkB1 V c t (ix2 r (0 : Fin 1)) = dA V c (ix2 Q (0 : Fin 1)) := by
  obtain ⟨-, -, -, -, -, -, -, -, e0, e1, -⟩ := blockIdx1 t
  show V c main_v0 (((cfg1.win 4).blk t).view.emb (ix2 r (0 : Fin 1))) = V c main_v0 (ix2 Q (0 : Fin 1))
  refine congrArg (V c main_v0) (funext fun a => Fin.ext ?_)
  match a with
  | ⟨0, _⟩ => show win1_4.index t (0 : Fin 2) * 1024 + 1 * r.val = Q.val; omega
  | ⟨1, _⟩ => show win1_4.index t (1 : Fin 2) * 1 + 1 * 0 = 0; omega

theorem diB1_apply (c : Dev nD) (t : Fin cfg1.N) (p : Fin 1024) (P : Fin 8192)
    (hP : P.val = 1024 * (t.val / 8) + p.val) :
    diB1 V c t (ix2 p (0 : Fin 1)) = dA V c (ix2 P (0 : Fin 1)) := by
  obtain ⟨-, -, -, -, -, -, -, -, -, -, e0, e1, -⟩ := blockIdx1 t
  show V c main_v0 (((cfg1.win 5).blk t).view.emb (ix2 p (0 : Fin 1))) = V c main_v0 (ix2 P (0 : Fin 1))
  refine congrArg (V c main_v0) (funext fun a => Fin.ext ?_)
  match a with
  | ⟨0, _⟩ => show win1_5.index t (0 : Fin 2) * 1024 + 1 * p.val = P.val; omega
  | ⟨1, _⟩ => show win1_5.index t (1 : Fin 2) * 1 + 1 * 0 = 0; omega

theorem bB1_apply (c : Dev nD) (t : Fin cfg1.N) (q : Fin 128) :
    bB1 V c t (ix1 q) = bA V c (ix1 q) := by
  obtain ⟨-, -, -, -, -, -, -, -, -, -, -, -, e0, -⟩ := blockIdx1 t
  show V c main_arg3 (((cfg1.win 6).blk t).view.emb (ix1 q)) = V c main_arg3 (ix1 q)
  refine congrArg (V c main_arg3) (funext fun a => Fin.ext ?_)
  match a with
  | ⟨0, _⟩ => show win1_6.index t (0 : Fin 1) * 128 + 1 * q.val = q.val; omega

/-! ## The accumulation over a row of the grid -/

/-- The scaled feature `u j q = (h W) j q · d j`. -/
def scaledFeat (c : Dev nD) (j : Fin 8192) (q : Fin 128) : EReal :=
  Gcn.feat (hA V c) (wA V c) j q * dA V c (ix2 j (0 : Fin 1))

/-- Column block `k`'s part of the aggregate at entry `(P, q)`: `Σ_r adj (P, 1024 k + r) · u (1024 k + r) q`. -/
def colTerm (c : Dev nD) (P : Fin 8192) (q : Fin 128) (k : ℕ) : EReal :=
  ∑ r : Fin 1024, adjA V c (ix2 P (blkIx k r)) * scaledFeat V c (blkIx k r) q

/-- What one step adds at point `t = 8 i + k`, read off the arrays: column block `k`'s part at row `1024 i + p`. -/
theorem step_term (c : Dev nD) (t : Fin cfg1.N) (i k : ℕ) (hi : t.val / 8 = i) (hk : t.val % 8 = k)
    (p : Fin 1024) (q : Fin 128) :
    ∑ r : Fin 1024, adjB1 V c t (ix2 p r)
        * ((∑ x : Fin 64, hkB1 V c t (ix2 r x) * wB1 V c t (ix2 x q)) * dkB1 V c t (ix2 r (0 : Fin 1)))
      = colTerm V c (blkIx i p) q k := by
  subst hi hk
  have ht := lt64 t
  unfold colTerm scaledFeat Gcn.feat
  refine Finset.sum_congr rfl fun r _ => ?_
  rw [adjB1_apply V c t p r (blkIx (t.val / 8) p) (blkIx (t.val % 8) r) (blkIx_val _ (by omega) _) (blkIx_val _ (by omega) _),
    dkB1_apply V c t r (blkIx (t.val % 8) r) (blkIx_val _ (by omega) _)]
  refine congrArg (fun z => adjA V c (ix2 (blkIx (t.val / 8) p) (blkIx (t.val % 8) r)) * (z * dA V c (ix2 (blkIx (t.val % 8) r) (0 : Fin 1)))) ?_
  refine Finset.sum_congr rfl fun x _ => ?_
  rw [hkB1_apply V c t r x (blkIx (t.val % 8) r) (blkIx_val _ (by omega) _), wB1_apply]

/-- The accumulator after the first point of a row, at an index. -/
theorem acc1_first_apply (c : Dev nD) (n : ℕ) (h : n < cfg1.N) (h0 : n % 8 = 0) (p : Fin 1024) (q : Fin 128) :
    acc1 V c n h (ix2 p q)
      = ∑ r : Fin 1024, adjB1 V c ⟨n, h⟩ (ix2 p r)
          * ((∑ x : Fin 64, hkB1 V c ⟨n, h⟩ (ix2 r x) * wB1 V c ⟨n, h⟩ (ix2 x q)) * dkB1 V c ⟨n, h⟩ (ix2 r (0 : Fin 1))) := by
  refine (congrFun (acc1_reset V c ⟨n, h⟩ h0) (ix2 p q)).trans ?_
  rw [pay3_apply, pay1_apply, zero_add]

/-- The accumulator after a later point of a row, at an index: what the point before left plus this point's part. -/
theorem acc1_next_apply (c : Dev nD) (n : ℕ) (h : n + 1 < cfg1.N) (hm : ¬(n + 1) % 8 = 0) (p : Fin 1024) (q : Fin 128) :
    acc1 V c (n + 1) h (ix2 p q)
      = acc1 V c n (Nat.lt_of_succ_lt h) (ix2 p q)
        + ∑ r : Fin 1024, adjB1 V c ⟨n + 1, h⟩ (ix2 p r)
          * ((∑ x : Fin 64, hkB1 V c ⟨n + 1, h⟩ (ix2 r x) * wB1 V c ⟨n + 1, h⟩ (ix2 x q)) * dkB1 V c ⟨n + 1, h⟩ (ix2 r (0 : Fin 1))) := by
  have e : acc1 V c (n + 1) h
      = k1_pay3 (wB1 V c ⟨n + 1, h⟩) (hkB1 V c ⟨n + 1, h⟩) (dkB1 V c ⟨n + 1, h⟩) (adjB1 V c ⟨n + 1, h⟩)
          (acc1 V c n (Nat.lt_of_succ_lt h)) := if_neg hm
  rw [e, pay3_apply]

/-- THE INVARIANT: after point `8 i + k` the accumulator holds, at `(p, q)`, the parts of the column blocks `0 … k` at
    row `1024 i + p`. -/
theorem acc1_apply (c : Dev nD) (i : ℕ) (hi : i < 8) (p : Fin 1024) (q : Fin 128) :
    ∀ (k : ℕ) (hk : k < 8) (h : 8 * i + k < cfg1.N),
      acc1 V c (8 * i + k) h (ix2 p q) = ∑ k' ∈ Finset.range (k + 1), colTerm V c (blkIx i p) q k'
  | 0, hk, h => by
    rw [acc1_first_apply V c (8 * i + 0) h (by omega) p q,
      step_term V c ⟨8 * i + 0, h⟩ i 0 (by show (8 * i + 0) / 8 = i; omega) (by show (8 * i + 0) % 8 = 0; omega) p q,
      Finset.sum_range_one]
  | k + 1, hk, h => by
    refine (acc1_next_apply V c (8 * i + k) h (by omega) p q).trans ?_
    rw [acc1_apply c i hi p q k (by omega) (Nat.lt_of_succ_lt h),
      step_term V c ⟨8 * i + k + 1, h⟩ i (k + 1) (by show (8 * i + k + 1) / 8 = i; omega)
        (by show (8 * i + k + 1) % 8 = k + 1; omega) p q,
      ← Finset.sum_range_succ]

/-- An axis of 8192 summed block by block. -/
theorem sum_blocks (f : Fin 8192 → EReal) :
    ∑ j : Fin 8192, f j = ∑ k ∈ Finset.range 8, ∑ r : Fin 1024, f (blkIx k r) := by
  rw [← Fin.sum_univ_eq_sum_range (fun k => ∑ r : Fin 1024, f (blkIx k r)) 8,
    ← (finProdFinEquiv : Fin 8 × Fin 1024 ≃ Fin 8192).sum_comp f, Fintype.sum_prod_type]
  refine Finset.sum_congr rfl fun k _ => Finset.sum_congr rfl fun r _ => congrArg f (Fin.ext ?_)
  rw [blkIx_val k.val k.isLt r]
  show r.val + 1024 * k.val = 1024 * k.val + r.val
  omega

/-- After the last point of row `i` the accumulator holds the whole aggregate of row `1024 i + p`. -/
theorem acc1_last_apply (c : Dev nD) (t : Fin cfg1.N) (h7 : t.val % 8 = 7) (p : Fin 1024) (q : Fin 128) :
    acc1 V c t.val t.isLt (ix2 p q)
      = ∑ j : Fin 8192, adjA V c (ix2 (blkIx (t.val / 8) p) j) * scaledFeat V c j q := by
  have ht := lt64 t
  have same : ∀ (n : ℕ) (hn : n < cfg1.N), n = t.val → acc1 V c n hn = acc1 V c t.val t.isLt := fun n hn e => by
    subst e; rfl
  have h' : 8 * (t.val / 8) + 7 < cfg1.N := lt_of_lt_of_eq (by omega) N_1.symm
  rw [← same _ h' (by omega), acc1_apply V c (t.val / 8) (by omega) p q 7 (by omega) h', sum_blocks]
  rfl

/-! ## What the last step of a row stores, and the array after the region -/

/-- The layer as one function of the arrays the region finds. -/
abbrev layer0 (c : Dev nD) : Gcn.Mat 8192 128 :=
  Gcn.relu (Gcn.layerK (V c main_arg1) (fun i : Fin 8192 => V c main_v0 (ix2 i (0 : Fin 1))) (V c main_arg0)
    (V c main_arg2) (V c main_arg3))

/-- At the last point of row `i` the stored block is the layer at rows `1024 i + p`. -/
theorem out1_apply (c : Dev nD) (t : Fin cfg1.N) (h7 : t.val % 8 = 7) (p : Fin 1024) (q : Fin 128) :
    out1 V c t (ix2 p q) = layer0 V c (ix2 (blkIx (t.val / 8) p) q) := by
  have ht := lt64 t
  have hP := blkIx_val (t.val / 8) (by omega) p
  have ef : (∑ k : Fin 64, hiB1 V c t (ix2 p k) * wB1 V c t (ix2 k q))
      = Gcn.feat (hA V c) (wA V c) (blkIx (t.val / 8) p) q := by
    unfold Gcn.feat
    refine Finset.sum_congr rfl fun k _ => ?_
    rw [hiB1_apply V c t p k (blkIx (t.val / 8) p) hP, wB1_apply]
  unfold out1
  rw [pay4_apply, ef, acc1_last_apply V c t h7 p q, diB1_apply V c t p (blkIx (t.val / 8) p) hP, bB1_apply]
  rfl

/-- So what that point writes back, read at a block index, is the layer at the array index under it. -/
theorem out1_eq_read (c : Dev nD) (t : Fin cfg1.N) (h7 : t.val % 8 = 7) (y : S1024x128.Idx) :
    out1 V c t y = layer0 V c (((cfg1.win 7).blk t).view.emb y) := by
  obtain ⟨p, q, rfl⟩ : ∃ (p : Fin 1024) (q : Fin 128), y = ix2 p q := ⟨y 0, y 1, eq_ix2 y⟩
  have ht := lt64 t
  obtain ⟨-, -, -, -, -, -, -, -, -, -, -, -, -, e0, e1⟩ := blockIdx1 t
  rw [out1_apply V c t h7 p q]
  refine congrArg (layer0 V c) (funext fun a => Fin.ext ?_)
  match a with
  | ⟨0, _⟩ =>
    show (blkIx (t.val / 8) p).val = win1_7.index t (0 : Fin 2) * 1024 + 1 * p.val
    rw [blkIx_val _ (by omega)]; omega
  | ⟨1, _⟩ => show q.val = win1_7.index t (1 : Fin 2) * 128 + 1 * q.val; omega

/-- WHAT A FLUSHING POINT WRITES BACK is its block of the layer. -/
theorem flushed1_7_eq (c : Dev nD) (t : Fin cfg1.N) (hf : (cfg1.win 7).flush t = true) :
    (dat1 (F := Ideal) V c).flushed 7 t = ((cfg1.win 7).blk t).view.read (Elt Ideal) (layer0 V c) := by
  show (cfg1.win 7).cut (grid1.coords t) ((dat1 (F := Ideal) V c).after 7 t) = _
  rw [after1_7]
  funext y
  exact out1_eq_read V c t ((flush1_7 t).mp hf) y

/-- An index of the output array is in point `t`'s block iff each coordinate is in the block's range on its axis. -/
theorem mem_blk1_7 (t : Fin cfg1.N) (i : S8192x128.Idx) :
    i ∈ ((cfg1.win 7).blk t).view.set ↔ ∀ a : Fin 2, win1_7.index t a * S1024x128.size a ≤ (i a).val
      ∧ (i a).val < win1_7.index t a * S1024x128.size a + S1024x128.size a := by
  show i ∈ ((View.whole main_v1).slice (win1_7.rect t)).set ↔ _
  rw [View.set_slice_whole, Rect.mem_set_unit]
  exact Iff.rfl

/-- Every row of the output array is under the block of the last point of its row block. -/
theorem cover1_7 (i : S8192x128.Idx) :
    ∃ t : Fin cfg1.N, (cfg1.win 7).flush t = true ∧ i ∈ ((cfg1.win 7).blk t).view.set := by
  have h0 : (i 0).val < 8192 := (i 0).isLt
  have h1 : (i 1).val < 128 := (i 1).isLt
  have hN : 8 * ((i 0).val / 1024) + 7 < cfg1.N := lt_of_lt_of_eq (by omega) N_1.symm
  refine ⟨⟨8 * ((i 0).val / 1024) + 7, hN⟩, (flush1_7 _).mpr (by show (8 * ((i 0).val / 1024) + 7) % 8 = 7; omega), ?_⟩
  obtain ⟨-, -, -, -, -, -, -, -, -, -, -, -, -, e0, e1⟩ := blockIdx1 ⟨8 * ((i 0).val / 1024) + 7, hN⟩
  have e0' : win1_7.index ⟨8 * ((i 0).val / 1024) + 7, hN⟩ (0 : Fin 2) = (8 * ((i 0).val / 1024) + 7) / 8 := e0
  rw [mem_blk1_7]
  intro a
  match a with
  | ⟨0, _⟩ =>
    show win1_7.index ⟨8 * ((i 0).val / 1024) + 7, hN⟩ (0 : Fin 2) * 1024 ≤ (i 0).val
      ∧ (i 0).val < win1_7.index ⟨8 * ((i 0).val / 1024) + 7, hN⟩ (0 : Fin 2) * 1024 + 1024
    omega
  | ⟨1, _⟩ =>
    show win1_7.index ⟨8 * ((i 0).val / 1024) + 7, hN⟩ (1 : Fin 2) * 128 ≤ (i 1).val
      ∧ (i 1).val < win1_7.index ⟨8 * ((i 0).val / 1024) + 7, hN⟩ (1 : Fin 2) * 128 + 128
    omega

end ValR1

/-- After layer 0's region its output array holds `relu` of the layer in the kernel's form, of the arrays as the region
    found them: `adj`, the normaliser column, the features, the weight, the bias. -/
theorem arrAt1_out (c : Dev nD) :
    (dat1 (F := Ideal) V c).arrAt 7 cfg1.N
      = Gcn.relu (Gcn.layerK (V c main_arg1) (fun i : Fin 8192 => V c main_v0 (ix2 i (0 : Fin 1))) (V c main_arg0)
          (V c main_arg2) (V c main_arg3)) :=
  (dat1 (F := Ideal) V c).arrAt_eq_of_cover 7 (ValR1.layer0 V c) (fun t hf => ValR1.flushed1_7_eq V c t hf) ValR1.cover1_7

end Cert.KernelIdeal.Hand

end
-- ==== Proof.ValR2.lean ====
import proofs.«166741_j53910429499630_1_alg».proof.Proof.FrameR2
import proofs.«166741_j53910429499630_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace ValR2

/-! ## The two block products at an index -/

/-- The feature product's dimension numbers: row of the left operand, contraction, contraction, column of the right. -/
theorem lhs_featDot_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_featDot_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_featDot_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_featDot_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A block of rows times the weight, into the zero block: entry `(p, q)` is `Σ_k x (p, k) · w (k, q)`. -/
theorem featDot_apply (x : FVec Ideal S1024x128 .bf16) (w : FVec Ideal S128x128 .bf16) (p : Fin 1024) (q : Fin 128) :
    matmul dot_S1024x128_S128x128_S1024x128_1_0_0_1_n_n none x w (constant (F := Ideal) S1024x128 .f32 0x00000000#32) (ix2 p q)
      = ∑ k : Fin 128, x (ix2 p k) * w (ix2 k q) := by
  show FloatOps.matmul dot_S1024x128_S128x128_S1024x128_1_0_0_1_n_n none x w (constant (F := Ideal) S1024x128 .f32 0x00000000#32) (ix2 p q) = _
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p q) ((ValueIdx.contrEquiv1 dot_S1024x128_S128x128_S1024x128_1_0_0_1_n_n 128 rfl rfl).symm k) = ix2 p k := funext fun a => Fin.ext (by
    match a with
    | ⟨0, _⟩ => exact lhs_featDot_0 _ _
    | ⟨1, _⟩ => exact (lhs_featDot_1 _ _).trans hk)
  have er : dot_S1024x128_S128x128_S1024x128_1_0_0_1_n_n.rhsIdx (ix2 p q) ((ValueIdx.contrEquiv1 dot_S1024x128_S128x128_S1024x128_1_0_0_1_n_n 128 rfl rfl).symm k) = ix2 k q := funext fun a => Fin.ext (by
    match a with
    | ⟨0, _⟩ => exact (rhs_featDot_0 _ _).trans hk
    | ⟨1, _⟩ => exact rhs_featDot_1 _ _)
  rw [el, er]

/-- The aggregation product's dimension numbers, likewise. -/
theorem lhs_aggDot_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide), dif_pos (show (0 : Fin S1024x1024.rank) ∈ dot_S1024x1024_S1024x128_S1024x128_1_0_0_1_n_n.lhsNonContracting by decide)]
  rfl
theorem lhs_aggDot_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_aggDot_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_aggDot_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide), dif_pos (show (1 : Fin S1024x128.rank) ∈ dot_S1024x1024_S1024x128_S1024x128_1_0_0_1_n_n.rhsNonContracting by decide)]
  rfl

/-- A block of `adj` times a block of scaled features, into the zero block: entry `(p, q)` is `Σ_r a (p, r) · u (r, q)`. -/
theorem aggDot_apply (a : FVec Ideal S1024x1024 .bf16) (u : FVec Ideal S1024x128 .bf16) (p : Fin 1024) (q : Fin 128) :
    matmul dot_S1024x1024_S1024x128_S1024x128_1_0_0_1_n_n none a u (constant (F := Ideal) S1024x128 .f32 0x00000000#32) (ix2 p q)
      = ∑ r : Fin 1024, a (ix2 p r) * u (ix2 r q) := by
  show FloatOps.matmul dot_S1024x1024_S1024x128_S1024x128_1_0_0_1_n_n none a u (constant (F := Ideal) S1024x128 .f32 0x00000000#32) (ix2 p q) = _
  rw [Ideal.matmul_constant_zero_apply, ← Equiv.sum_comp (ValueIdx.contrEquiv1 dot_S1024x1024_S1024x128_S1024x128_1_0_0_1_n_n 1024 rfl rfl).symm]
  refine Finset.sum_congr rfl fun k _ => ?_
  have hk := ValueIdx.contrEquiv1_symm_val dot_S1024x1024_S1024x128_S1024x128_1_0_0_1_n_n 1024 rfl rfl k
  have el : dot_S1024x1024_S1024x128_S1024x128_1_0_0_1_n_n.lhsIdx (ix2 p q) ((ValueIdx.contrEquiv1 dot_S1024x1024_S1024x128_S1024x128_1_0_0_1_n_n 1024 rfl rfl).symm k) = ix2 p k := funext fun a => Fin.ext (by
    match a with
    | ⟨0, _⟩ => exact lhs_aggDot_0 _ _
    | ⟨1, _⟩ => exact (lhs_aggDot_1 _ _).trans hk)
  have er : dot_S1024x1024_S1024x128_S1024x128_1_0_0_1_n_n.rhsIdx (ix2 p q) ((ValueIdx.contrEquiv1 dot_S1024x1024_S1024x128_S1024x128_1_0_0_1_n_n 1024 rfl rfl).symm k) = ix2 k q := funext fun a => Fin.ext (by
    match a with
    | ⟨0, _⟩ => exact (rhs_aggDot_0 _ _).trans hk
    | ⟨1, _⟩ => exact rhs_aggDot_1 _ _)
  rw [el, er]

/-! ## The two broadcasts at an index -/

/-- A column laid along every lane: entry `(r, q)` is the column's entry `r`. -/
theorem colBroadcast_apply (d : Vec Ideal S1024x1 .f32) (r : Fin 1024) (q : Fin 128) :
    broadcastTo S1024x128 (shapeCast S1024x1 d shapeCasts_S1024x1_S1024x1) broadcasts_S1024x1_S1024x128 (ix2 r q)
      = d (ix2 r (0 : Fin 1)) := by
  rw [shapeCast_self]
  refine broadcastTo_apply d broadcasts_S1024x1_S1024x128 (ix2 r q) (ix2 r (0 : Fin 1)) fun a => ?_
  match a with
  | ⟨0, _⟩ => rfl
  | ⟨1, _⟩ => rfl

/-- A vector laid along every row: entry `(p, q)` is the vector's entry `q`. -/
theorem rowBroadcast_apply (b : Vec Ideal S128 .f32) (p : Fin 1024) (q : Fin 128) :
    broadcastTo S1024x128 (shapeCast S1x128 b shapeCasts_S128_S1x128) broadcasts_S1x128_S1024x128 (ix2 p q)
      = b (ix1 q) := by
  refine (broadcastTo_apply (shapeCast S1x128 b shapeCasts_S128_S1x128) broadcasts_S1x128_S1024x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_two, Shape.rowMajor_val_one]
    show q.val = 0 * 128 + q.val
    omega

/-! ## The payloads at an index -/

/-- The zero block. -/
theorem pay2_apply (p : Fin 1024) (q : Fin 128) : k2_pay1 (F := Ideal) (ix2 p q) = 0 := by
  unfold k2_pay1
  rw [shapeCast_self]
  show Ideal.ofBits .f32 0x00000000#32 = 0
  exact Ideal.ofBits_zero_f32

/-- One accumulation step: the accumulator plus this block of `adj` against this block of features, each feature row
    multiplied into the weight and scaled by its normaliser. -/
theorem pay3_apply (w : Vec Ideal S128x128 .f32) (h : Vec Ideal S1024x128 .f32) (d : Vec Ideal S1024x1 .f32)
    (a : Vec Ideal S1024x1024 .f32) (acc : Vec Ideal S1024x128 .f32) (p : Fin 1024) (q : Fin 128) :
    k2_pay3 w h d a acc (ix2 p q)
      = acc (ix2 p q) + ∑ r : Fin 1024, a (ix2 p r) * ((∑ k : Fin 128, h (ix2 r k) * w (ix2 k q)) * d (ix2 r (0 : Fin 1))) := by
  unfold k2_pay3 k2_pay2
  rw [shapeCast_self h shapeCasts_S1024x128_S1024x128, shapeCast_self, addf_apply]
  refine congrArg (acc (ix2 p q) + ·) ?_
  refine (aggDot_apply _ _ p q).trans ?_
  refine Finset.sum_congr rfl fun r _ => ?_
  rw [truncf_apply, truncf_apply, mulf_apply]
  refine congrArg (a (ix2 p r) * ·) ?_
  rw [colBroadcast_apply]
  refine congrArg (· * d (ix2 r (0 : Fin 1))) ?_
  refine (featDot_apply _ _ r q).trans ?_
  rfl

/-- The last step of a row: add the node's own scaled features, scale the row, add the bias, clamp at zero. -/
theorem pay4_apply (w : Vec Ideal S128x128 .f32) (h : Vec Ideal S1024x128 .f32) (d : Vec Ideal S1024x1 .f32)
    (acc : Vec Ideal S1024x128 .f32) (d' : Vec Ideal S1024x1 .f32) (b : Vec Ideal S128 .f32) (p : Fin 1024) (q : Fin 128) :
    k2_pay4 w h d acc d' b (ix2 p q)
      = max (((acc (ix2 p q) + (∑ k : Fin 128, h (ix2 p k) * w (ix2 k q)) * d (ix2 p (0 : Fin 1))) * d' (ix2 p (0 : Fin 1)))
          + b (ix1 q)) 0 := by
  unfold k2_pay4 k2_pay2
  rw [shapeCast_self h shapeCasts_S1024x128_S1024x128, maximumf_apply, broadcast_apply, addf_apply, mulf_apply, addf_apply, mulf_apply, rowBroadcast_apply,
    colBroadcast_apply, colBroadcast_apply]
  have e0 : (Scalar.ofBits (F := Ideal) .f32 0x00000000#32 : Ideal .f32) = 0 := Ideal.ofBits_zero_f32
  rw [e0]
  refine congrArg (fun z => max (((acc (ix2 p q) + z * d (ix2 p (0 : Fin 1))) * d' (ix2 p (0 : Fin 1))) + b (ix1 q)) 0) ?_
  refine (featDot_apply _ _ p q).trans ?_
  rfl

/-! ## The blocks, read off the arrays -/

/-- The windows' block indices at point `t = 8 i + k`, decided over the grid. -/
theorem blockIdx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = 0 ∧ win2_3.index t (1 : Fin 2) = 0
    ∧ win2_4.index t (0 : Fin 2) = t.val % 8 ∧ win2_4.index t (1 : Fin 2) = 0
    ∧ win2_5.index t (0 : Fin 2) = t.val / 8 ∧ win2_5.index t (1 : Fin 2) = 0
    ∧ win2_6.index t (0 : Fin 1) = 0
    ∧ win2_7.index t (0 : Fin 2) = t.val / 8 ∧ win2_7.index t (1 : Fin 2) = 0 :=
  (by decide +kernel : ∀ t : Fin grid2.N, _)

theorem lt64 (t : Fin cfg2.N) : t.val < 64 := lt_of_lt_of_eq t.isLt N_2

/-- Row (or column) `r` of block `k` of an axis of 8192 cut into blocks of 1024. -/
def blkIx (k : ℕ) (r : Fin 1024) : Fin 8192 := ⟨(1024 * k + r.val) % 8192, Nat.mod_lt _ (by decide)⟩

theorem blkIx_val (k : ℕ) (hk : k < 8) (r : Fin 1024) : (blkIx k r).val = 1024 * k + r.val := by
  show (1024 * k + r.val) % 8192 = _
  have := r.isLt
  omega

/-- The arrays as the region finds them, at the types the layer's formula takes them. -/
abbrev adjA (c : Dev nD) : Gcn.Mat 8192 8192 := V c main_arg1
abbrev hA (c : Dev nD) : Gcn.Mat 8192 128 := V c main_v1
abbrev wA (c : Dev nD) : Gcn.Mat 128 128 := V c main_arg4
abbrev dA (c : Dev nD) : Gcn.Mat 8192 1 := V c main_v0
abbrev bA (c : Dev nD) : Gcn.Row 128 := V c main_arg5

theorem adjB2_apply (c : Dev nD) (t : Fin cfg2.N) (p r : Fin 1024) (P Q : Fin 8192)
    (hP : P.val = 1024 * (t.val / 8) + p.val) (hQ : Q.val = 1024 * (t.val % 8) + r.val) :
    adjB2 V c t (ix2 p r) = adjA V c (ix2 P Q) := by
  obtain ⟨e0, e1, -⟩ := blockIdx2 t
  show V c main_arg1 (((cfg2.win 0).blk t).view.emb (ix2 p r)) = V c main_arg1 (ix2 P Q)
  refine congrArg (V c main_arg1) (funext fun a => Fin.ext ?_)
  match a with
  | ⟨0, _⟩ => show win2_0.index t (0 : Fin 2) * 1024 + 1 * p.val = P.val; omega
  | ⟨1, _⟩ => show win2_0.index t (1 : Fin 2) * 1024 + 1 * r.val = Q.val; omega

theorem hkB2_apply (c : Dev nD) (t : Fin cfg2.N) (r : Fin 1024) (k : Fin 128) (Q : Fin 8192)
    (hQ : Q.val = 1024 * (t.val % 8) + r.val) :
    hkB2 V c t (ix2 r k) = hA V c (ix2 Q k) := by
  obtain ⟨-, -, e0, e1, -⟩ := blockIdx2 t
  show V c main_v1 (((cfg2.win 1).blk t).view.emb (ix2 r k)) = V c main_v1 (ix2 Q k)
  refine congrArg (V c main_v1) (funext fun a => Fin.ext ?_)
  match a with
  | ⟨0, _⟩ => show win2_1.index t (0 : Fin 2) * 1024 + 1 * r.val = Q.val; omega
  | ⟨1, _⟩ => show win2_1.index t (1 : Fin 2) * 128 + 1 * k.val = k.val; omega

theorem hiB2_apply (c : Dev nD) (t : Fin cfg2.N) (p : Fin 1024) (k : Fin 128) (P : Fin 8192)
    (hP : P.val = 1024 * (t.val / 8) + p.val) :
    hiB2 V c t (ix2 p k) = hA V c (ix2 P k) := by
  obtain ⟨-, -, -, -, e0, e1, -⟩ := blockIdx2 t
  show V c main_v1 (((cfg2.win 2).blk t).view.emb (ix2 p k)) = V c main_v1 (ix2 P k)
  refine congrArg (V c main_v1) (funext fun a => Fin.ext ?_)
  match a with
  | ⟨0, _⟩ => show win2_2.index t (0 : Fin 2) * 1024 + 1 * p.val = P.val; omega
  | ⟨1, _⟩ => show win2_2.index t (1 : Fin 2) * 128 + 1 * k.val = k.val; omega

theorem wB2_apply (c : Dev nD) (t : Fin cfg2.N) (k : Fin 128) (q : Fin 128) :
    wB2 V c t (ix2 k q) = wA V c (ix2 k q) := by
  obtain ⟨-, -, -, -, -, -, e0, e1, -⟩ := blockIdx2 t
  show V c main_arg4 (((cfg2.win 3).blk t).view.emb (ix2 k q)) = V c main_arg4 (ix2 k q)
  refine congrArg (V c main_arg4) (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

theorem dkB2_apply (c : Dev nD) (t : Fin cfg2.N) (r : Fin 1024) (Q : Fin 8192)
    (hQ : Q.val = 1024 * (t.val % 8) + r.val) :
    dkB2 V c t (ix2 r (0 : Fin 1)) = dA V c (ix2 Q (0 : Fin 1)) := by
  obtain ⟨-, -, -, -, -, -, -, -, e0, e1, -⟩ := blockIdx2 t
  show V c main_v0 (((cfg2.win 4).blk t).view.emb (ix2 r (0 : Fin 1))) = V c main_v0 (ix2 Q (0 : Fin 1))
  refine congrArg (V c main_v0) (funext fun a => Fin.ext ?_)
  match a with
  | ⟨0, _⟩ => show win2_4.index t (0 : Fin 2) * 1024 + 1 * r.val = Q.val; omega
  | ⟨1, _⟩ => show win2_4.index t (1 : Fin 2) * 1 + 1 * 0 = 0; omega

theorem diB2_apply (c : Dev nD) (t : Fin cfg2.N) (p : Fin 1024) (P : Fin 8192)
    (hP : P.val = 1024 * (t.val / 8) + p.val) :
    diB2 V c t (ix2 p (0 : Fin 1)) = dA V c (ix2 P (0 : Fin 1)) := by
  obtain ⟨-, -, -, -, -, -, -, -, -, -, e0, e1, -⟩ := blockIdx2 t
  show V c main_v0 (((cfg2.win 5).blk t).view.emb (ix2 p (0 : Fin 1))) = V c main_v0 (ix2 P (0 : Fin 1))
  refine congrArg (V c main_v0) (funext fun a => Fin.ext ?_)
  match a with
  | ⟨0, _⟩ => show win2_5.index t (0 : Fin 2) * 1024 + 1 * p.val = P.val; omega
  | ⟨1, _⟩ => show win2_5.index t (1 : Fin 2) * 1 + 1 * 0 = 0; omega

theorem bB2_apply (c : Dev nD) (t : Fin cfg2.N) (q : Fin 128) :
    bB2 V c t (ix1 q) = bA V c (ix1 q) := by
  obtain ⟨-, -, -, -, -, -, -, -, -, -, -, -, e0, -⟩ := blockIdx2 t
  show V c main_arg5 (((cfg2.win 6).blk t).view.emb (ix1 q)) = V c main_arg5 (ix1 q)
  refine congrArg (V c main_arg5) (funext fun a => Fin.ext ?_)
  match a with
  | ⟨0, _⟩ => show win2_6.index t (0 : Fin 1) * 128 + 1 * q.val = q.val; omega

/-! ## The accumulation over a row of the grid -/

/-- The scaled feature `u j q = (h W) j q · d j`. -/
def scaledFeat (c : Dev nD) (j : Fin 8192) (q : Fin 128) : EReal :=
  Gcn.feat (hA V c) (wA V c) j q * dA V c (ix2 j (0 : Fin 1))

/-- Column block `k`'s part of the aggregate at entry `(P, q)`: `Σ_r adj (P, 1024 k + r) · u (1024 k + r) q`. -/
def colTerm (c : Dev nD) (P : Fin 8192) (q : Fin 128) (k : ℕ) : EReal :=
  ∑ r : Fin 1024, adjA V c (ix2 P (blkIx k r)) * scaledFeat V c (blkIx k r) q

/-- What one step adds at point `t = 8 i + k`, read off the arrays: column block `k`'s part at row `1024 i + p`. -/
theorem step_term (c : Dev nD) (t : Fin cfg2.N) (i k : ℕ) (hi : t.val / 8 = i) (hk : t.val % 8 = k)
    (p : Fin 1024) (q : Fin 128) :
    ∑ r : Fin 1024, adjB2 V c t (ix2 p r)
        * ((∑ x : Fin 128, hkB2 V c t (ix2 r x) * wB2 V c t (ix2 x q)) * dkB2 V c t (ix2 r (0 : Fin 1)))
      = colTerm V c (blkIx i p) q k := by
  subst hi hk
  have ht := lt64 t
  unfold colTerm scaledFeat Gcn.feat
  refine Finset.sum_congr rfl fun r _ => ?_
  rw [adjB2_apply V c t p r (blkIx (t.val / 8) p) (blkIx (t.val % 8) r) (blkIx_val _ (by omega) _) (blkIx_val _ (by omega) _),
    dkB2_apply V c t r (blkIx (t.val % 8) r) (blkIx_val _ (by omega) _)]
  refine congrArg (fun z => adjA V c (ix2 (blkIx (t.val / 8) p) (blkIx (t.val % 8) r)) * (z * dA V c (ix2 (blkIx (t.val % 8) r) (0 : Fin 1)))) ?_
  refine Finset.sum_congr rfl fun x _ => ?_
  rw [hkB2_apply V c t r x (blkIx (t.val % 8) r) (blkIx_val _ (by omega) _), wB2_apply]

/-- The accumulator after the first point of a row, at an index. -/
theorem acc2_first_apply (c : Dev nD) (n : ℕ) (h : n < cfg2.N) (h0 : n % 8 = 0) (p : Fin 1024) (q : Fin 128) :
    acc2 V c n h (ix2 p q)
      = ∑ r : Fin 1024, adjB2 V c ⟨n, h⟩ (ix2 p r)
          * ((∑ x : Fin 128, hkB2 V c ⟨n, h⟩ (ix2 r x) * wB2 V c ⟨n, h⟩ (ix2 x q)) * dkB2 V c ⟨n, h⟩ (ix2 r (0 : Fin 1))) := by
  refine (congrFun (acc2_reset V c ⟨n, h⟩ h0) (ix2 p q)).trans ?_
  rw [pay3_apply, pay2_apply, zero_add]

/-- The accumulator after a later point of a row, at an index: what the point before left plus this point's part. -/
theorem acc2_next_apply (c : Dev nD) (n : ℕ) (h : n + 1 < cfg2.N) (hm : ¬(n + 1) % 8 = 0) (p : Fin 1024) (q : Fin 128) :
    acc2 V c (n + 1) h (ix2 p q)
      = acc2 V c n (Nat.lt_of_succ_lt h) (ix2 p q)
        + ∑ r : Fin 1024, adjB2 V c ⟨n + 1, h⟩ (ix2 p r)
          * ((∑ x : Fin 128, hkB2 V c ⟨n + 1, h⟩ (ix2 r x) * wB2 V c ⟨n + 1, h⟩ (ix2 x q)) * dkB2 V c ⟨n + 1, h⟩ (ix2 r (0 : Fin 1))) := by
  have e : acc2 V c (n + 1) h
      = k2_pay3 (wB2 V c ⟨n + 1, h⟩) (hkB2 V c ⟨n + 1, h⟩) (dkB2 V c ⟨n + 1, h⟩) (adjB2 V c ⟨n + 1, h⟩)
          (acc2 V c n (Nat.lt_of_succ_lt h)) := if_neg hm
  rw [e, pay3_apply]

/-- THE INVARIANT: after point `8 i + k` the accumulator holds, at `(p, q)`, the parts of the column blocks `0 … k` at
    row `1024 i + p`. -/
theorem acc2_apply (c : Dev nD) (i : ℕ) (hi : i < 8) (p : Fin 1024) (q : Fin 128) :
    ∀ (k : ℕ) (hk : k < 8) (h : 8 * i + k < cfg2.N),
      acc2 V c (8 * i + k) h (ix2 p q) = ∑ k' ∈ Finset.range (k + 1), colTerm V c (blkIx i p) q k'
  | 0, hk, h => by
    rw [acc2_first_apply V c (8 * i + 0) h (by omega) p q,
      step_term V c ⟨8 * i + 0, h⟩ i 0 (by show (8 * i + 0) / 8 = i; omega) (by show (8 * i + 0) % 8 = 0; omega) p q,
      Finset.sum_range_one]
  | k + 1, hk, h => by
    refine (acc2_next_apply V c (8 * i + k) h (by omega) p q).trans ?_
    rw [acc2_apply c i hi p q k (by omega) (Nat.lt_of_succ_lt h),
      step_term V c ⟨8 * i + k + 1, h⟩ i (k + 1) (by show (8 * i + k + 1) / 8 = i; omega)
        (by show (8 * i + k + 1) % 8 = k + 1; omega) p q,
      ← Finset.sum_range_succ]

/-- An axis of 8192 summed block by block. -/
theorem sum_blocks (f : Fin 8192 → EReal) :
    ∑ j : Fin 8192, f j = ∑ k ∈ Finset.range 8, ∑ r : Fin 1024, f (blkIx k r) := by
  rw [← Fin.sum_univ_eq_sum_range (fun k => ∑ r : Fin 1024, f (blkIx k r)) 8,
    ← (finProdFinEquiv : Fin 8 × Fin 1024 ≃ Fin 8192).sum_comp f, Fintype.sum_prod_type]
  refine Finset.sum_congr rfl fun k _ => Finset.sum_congr rfl fun r _ => congrArg f (Fin.ext ?_)
  rw [blkIx_val k.val k.isLt r]
  show r.val + 1024 * k.val = 1024 * k.val + r.val
  omega

/-- After the last point of row `i` the accumulator holds the whole aggregate of row `1024 i + p`. -/
theorem acc2_last_apply (c : Dev nD) (t : Fin cfg2.N) (h7 : t.val % 8 = 7) (p : Fin 1024) (q : Fin 128) :
    acc2 V c t.val t.isLt (ix2 p q)
      = ∑ j : Fin 8192, adjA V c (ix2 (blkIx (t.val / 8) p) j) * scaledFeat V c j q := by
  have ht := lt64 t
  have same : ∀ (n : ℕ) (hn : n < cfg2.N), n = t.val → acc2 V c n hn = acc2 V c t.val t.isLt := fun n hn e => by
    subst e; rfl
  have h' : 8 * (t.val / 8) + 7 < cfg2.N := lt_of_lt_of_eq (by omega) N_2.symm
  rw [← same _ h' (by omega), acc2_apply V c (t.val / 8) (by omega) p q 7 (by omega) h', sum_blocks]
  rfl

/-! ## What the last step of a row stores, and the array after the region -/

/-- The layer as one function of the arrays the region finds. -/
abbrev layer1 (c : Dev nD) : Gcn.Mat 8192 128 :=
  Gcn.relu (Gcn.layerK (V c main_arg1) (fun i : Fin 8192 => V c main_v0 (ix2 i (0 : Fin 1))) (V c main_v1)
    (V c main_arg4) (V c main_arg5))

/-- At the last point of row `i` the stored block is the layer at rows `1024 i + p`. -/
theorem out2_apply (c : Dev nD) (t : Fin cfg2.N) (h7 : t.val % 8 = 7) (p : Fin 1024) (q : Fin 128) :
    out2 V c t (ix2 p q) = layer1 V c (ix2 (blkIx (t.val / 8) p) q) := by
  have ht := lt64 t
  have hP := blkIx_val (t.val / 8) (by omega) p
  have ef : (∑ k : Fin 128, hiB2 V c t (ix2 p k) * wB2 V c t (ix2 k q))
      = Gcn.feat (hA V c) (wA V c) (blkIx (t.val / 8) p) q := by
    unfold Gcn.feat
    refine Finset.sum_congr rfl fun k _ => ?_
    rw [hiB2_apply V c t p k (blkIx (t.val / 8) p) hP, wB2_apply]
  unfold out2
  rw [pay4_apply, ef, acc2_last_apply V c t h7 p q, diB2_apply V c t p (blkIx (t.val / 8) p) hP, bB2_apply]
  rfl

/-- So what that point writes back, read at a block index, is the layer at the array index under it. -/
theorem out2_eq_read (c : Dev nD) (t : Fin cfg2.N) (h7 : t.val % 8 = 7) (y : S1024x128.Idx) :
    out2 V c t y = layer1 V c (((cfg2.win 7).blk t).view.emb y) := by
  obtain ⟨p, q, rfl⟩ : ∃ (p : Fin 1024) (q : Fin 128), y = ix2 p q := ⟨y 0, y 1, eq_ix2 y⟩
  have ht := lt64 t
  obtain ⟨-, -, -, -, -, -, -, -, -, -, -, -, -, e0, e1⟩ := blockIdx2 t
  rw [out2_apply V c t h7 p q]
  refine congrArg (layer1 V c) (funext fun a => Fin.ext ?_)
  match a with
  | ⟨0, _⟩ =>
    show (blkIx (t.val / 8) p).val = win2_7.index t (0 : Fin 2) * 1024 + 1 * p.val
    rw [blkIx_val _ (by omega)]; omega
  | ⟨1, _⟩ => show q.val = win2_7.index t (1 : Fin 2) * 128 + 1 * q.val; omega

/-- WHAT A FLUSHING POINT WRITES BACK is its block of the layer. -/
theorem flushed2_7_eq (c : Dev nD) (t : Fin cfg2.N) (hf : (cfg2.win 7).flush t = true) :
    (dat2 (F := Ideal) V c).flushed 7 t = ((cfg2.win 7).blk t).view.read (Elt Ideal) (layer1 V c) := by
  show (cfg2.win 7).cut (grid2.coords t) ((dat2 (F := Ideal) V c).after 7 t) = _
  rw [after2_7]
  funext y
  exact out2_eq_read V c t ((flush2_7 t).mp hf) y

/-- An index of the output array is in point `t`'s block iff each coordinate is in the block's range on its axis. -/
theorem mem_blk2_7 (t : Fin cfg2.N) (i : S8192x128.Idx) :
    i ∈ ((cfg2.win 7).blk t).view.set ↔ ∀ a : Fin 2, win2_7.index t a * S1024x128.size a ≤ (i a).val
      ∧ (i a).val < win2_7.index t a * S1024x128.size a + S1024x128.size a := by
  show i ∈ ((View.whole main_v2).slice (win2_7.rect t)).set ↔ _
  rw [View.set_slice_whole, Rect.mem_set_unit]
  exact Iff.rfl

/-- Every row of the output array is under the block of the last point of its row block. -/
theorem cover2_7 (i : S8192x128.Idx) :
    ∃ t : Fin cfg2.N, (cfg2.win 7).flush t = true ∧ i ∈ ((cfg2.win 7).blk t).view.set := by
  have h0 : (i 0).val < 8192 := (i 0).isLt
  have h1 : (i 1).val < 128 := (i 1).isLt
  have hN : 8 * ((i 0).val / 1024) + 7 < cfg2.N := lt_of_lt_of_eq (by omega) N_2.symm
  refine ⟨⟨8 * ((i 0).val / 1024) + 7, hN⟩, (flush2_7 _).mpr (by show (8 * ((i 0).val / 1024) + 7) % 8 = 7; omega), ?_⟩
  obtain ⟨-, -, -, -, -, -, -, -, -, -, -, -, -, e0, e1⟩ := blockIdx2 ⟨8 * ((i 0).val / 1024) + 7, hN⟩
  have e0' : win2_7.index ⟨8 * ((i 0).val / 1024) + 7, hN⟩ (0 : Fin 2) = (8 * ((i 0).val / 1024) + 7) / 8 := e0
  rw [mem_blk2_7]
  intro a
  match a with
  | ⟨0, _⟩ =>
    show win2_7.index ⟨8 * ((i 0).val / 1024) + 7, hN⟩ (0 : Fin 2) * 1024 ≤ (i 0).val
      ∧ (i 0).val < win2_7.index ⟨8 * ((i 0).val / 1024) + 7, hN⟩ (0 : Fin 2) * 1024 + 1024
    omega
  | ⟨1, _⟩ =>
    show win2_7.index ⟨8 * ((i 0).val / 1024) + 7, hN⟩ (1 : Fin 2) * 128 ≤ (i 1).val
      ∧ (i 1).val < win2_7.index ⟨8 * ((i 0).val / 1024) + 7, hN⟩ (1 : Fin 2) * 128 + 128
    omega

end ValR2

/-- After layer 1's region its output array holds `relu` of the layer in the kernel's form, of the arrays as the region
    found them: `adj`, the normaliser column, the features, the weight, the bias. -/
theorem arrAt2_out (c : Dev nD) :
    (dat2 (F := Ideal) V c).arrAt 7 cfg2.N
      = Gcn.relu (Gcn.layerK (V c main_arg1) (fun i : Fin 8192 => V c main_v0 (ix2 i (0 : Fin 1))) (V c main_v1)
          (V c main_arg4) (V c main_arg5)) :=
  (dat2 (F := Ideal) V c).arrAt_eq_of_cover 7 (ValR2.layer1 V c) (fun t hf => ValR2.flushed2_7_eq V c t hf) ValR2.cover2_7

end Cert.KernelIdeal.Hand

end
-- ==== Proof.ValR3.lean ====
import proofs.«166741_j53910429499630_1_alg».proof.Proof.FrameR3
import proofs.«166741_j53910429499630_1_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

namespace ValR3

/-! ## The two block products at an index -/

/-- The feature product's dimension numbers: row of the left operand, contraction, contraction, column of the right. -/
theorem lhs_featDot_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_featDot_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_featDot_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_featDot_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- A block of rows times the weight, into the zero block: entry `(p, q)` is `Σ_k x (p, k) · w (k, q)`. -/
theorem featDot_apply (x : FVec Ideal S1024x128 .bf16) (w : FVec Ideal S128x64 .bf16) (p : Fin 1024) (q : Fin 64) :
    matmul dot_S1024x128_S128x64_S1024x64_1_0_0_1_n_n none x w (constant (F := Ideal) S1024x64 .f32 0x00000000#32) (ix2 p q)
      = ∑ k : Fin 128, x (ix2 p k) * w (ix2 k q) := by
  show FloatOps.matmul dot_S1024x128_S128x64_S1024x64_1_0_0_1_n_n none x w (constant (F := Ideal) S1024x64 .f32 0x00000000#32) (ix2 p q) = _
  rw [Ideal.matmul_constant_zero_apply, ← Equiv.sum_comp (ValueIdx.contrEquiv1 dot_S1024x128_S128x64_S1024x64_1_0_0_1_n_n 128 rfl rfl).symm]
  refine Finset.sum_congr rfl fun k _ => ?_
  have hk := ValueIdx.contrEquiv1_symm_val dot_S1024x128_S128x64_S1024x64_1_0_0_1_n_n 128 rfl rfl k
  have el : dot_S1024x128_S128x64_S1024x64_1_0_0_1_n_n.lhsIdx (ix2 p q) ((ValueIdx.contrEquiv1 dot_S1024x128_S128x64_S1024x64_1_0_0_1_n_n 128 rfl rfl).symm k) = ix2 p k := funext fun a => Fin.ext (by
    match a with
    | ⟨0, _⟩ => exact lhs_featDot_0 _ _
    | ⟨1, _⟩ => exact (lhs_featDot_1 _ _).trans hk)
  have er : dot_S1024x128_S128x64_S1024x64_1_0_0_1_n_n.rhsIdx (ix2 p q) ((ValueIdx.contrEquiv1 dot_S1024x128_S128x64_S1024x64_1_0_0_1_n_n 128 rfl rfl).symm k) = ix2 k q := funext fun a => Fin.ext (by
    match a with
    | ⟨0, _⟩ => exact (rhs_featDot_0 _ _).trans hk
    | ⟨1, _⟩ => exact rhs_featDot_1 _ _)
  rw [el, er]

/-- The aggregation product's dimension numbers, likewise. -/
theorem lhs_aggDot_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_aggDot_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_aggDot_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_aggDot_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- A block of `adj` times a block of scaled features, into the zero block: entry `(p, q)` is `Σ_r a (p, r) · u (r, q)`. -/
theorem aggDot_apply (a : FVec Ideal S1024x1024 .bf16) (u : FVec Ideal S1024x64 .bf16) (p : Fin 1024) (q : Fin 64) :
    matmul dot_S1024x1024_S1024x64_S1024x64_1_0_0_1_n_n none a u (constant (F := Ideal) S1024x64 .f32 0x00000000#32) (ix2 p q)
      = ∑ r : Fin 1024, a (ix2 p r) * u (ix2 r q) := by
  show FloatOps.matmul dot_S1024x1024_S1024x64_S1024x64_1_0_0_1_n_n none a u (constant (F := Ideal) S1024x64 .f32 0x00000000#32) (ix2 p q) = _
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 p q) ((ValueIdx.contrEquiv1 dot_S1024x1024_S1024x64_S1024x64_1_0_0_1_n_n 1024 rfl rfl).symm k) = ix2 p k := funext fun a => Fin.ext (by
    match a with
    | ⟨0, _⟩ => exact lhs_aggDot_0 _ _
    | ⟨1, _⟩ => exact (lhs_aggDot_1 _ _).trans hk)
  have er : dot_S1024x1024_S1024x64_S1024x64_1_0_0_1_n_n.rhsIdx (ix2 p q) ((ValueIdx.contrEquiv1 dot_S1024x1024_S1024x64_S1024x64_1_0_0_1_n_n 1024 rfl rfl).symm k) = ix2 k q := funext fun a => Fin.ext (by
    match a with
    | ⟨0, _⟩ => exact (rhs_aggDot_0 _ _).trans hk
    | ⟨1, _⟩ => exact rhs_aggDot_1 _ _)
  rw [el, er]

/-! ## The two broadcasts at an index -/

/-- A column laid along every lane: entry `(r, q)` is the column's entry `r`. -/
theorem colBroadcast_apply (d : Vec Ideal S1024x1 .f32) (r : Fin 1024) (q : Fin 64) :
    broadcastTo S1024x64 (shapeCast S1024x1 d shapeCasts_S1024x1_S1024x1) broadcasts_S1024x1_S1024x64 (ix2 r q)
      = d (ix2 r (0 : Fin 1)) := by
  rw [shapeCast_self]
  refine broadcastTo_apply d broadcasts_S1024x1_S1024x64 (ix2 r q) (ix2 r (0 : Fin 1)) fun a => ?_
  match a with
  | ⟨0, _⟩ => rfl
  | ⟨1, _⟩ => rfl

/-- A vector laid along every row: entry `(p, q)` is the vector's entry `q`. -/
theorem rowBroadcast_apply (b : Vec Ideal S64 .f32) (p : Fin 1024) (q : Fin 64) :
    broadcastTo S1024x64 (shapeCast S1x64 b shapeCasts_S64_S1x64) broadcasts_S1x64_S1024x64 (ix2 p q)
      = b (ix1 q) := by
  refine (broadcastTo_apply (shapeCast S1x64 b shapeCasts_S64_S1x64) broadcasts_S1x64_S1024x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_two, Shape.rowMajor_val_one]
    show q.val = 0 * 64 + q.val
    omega

/-! ## The payloads at an index -/

/-- The zero block. -/
theorem pay1_apply (p : Fin 1024) (q : Fin 64) : k3_pay1 (F := Ideal) (ix2 p q) = 0 := by
  unfold k3_pay1
  rw [shapeCast_self]
  show Ideal.ofBits .f32 0x00000000#32 = 0
  exact Ideal.ofBits_zero_f32

/-- One accumulation step: the accumulator plus this block of `adj` against this block of features, each feature row
    multiplied into the weight and scaled by its normaliser. The feature block passes through a reshaping to its own
    shape first, which changes nothing. -/
theorem pay3_apply (w : Vec Ideal S128x64 .f32) (h : Vec Ideal S1024x128 .f32) (d : Vec Ideal S1024x1 .f32)
    (a : Vec Ideal S1024x1024 .f32) (acc : Vec Ideal S1024x64 .f32) (p : Fin 1024) (q : Fin 64) :
    k3_pay3 w h d a acc (ix2 p q)
      = acc (ix2 p q) + ∑ r : Fin 1024, a (ix2 p r) * ((∑ k : Fin 128, h (ix2 r k) * w (ix2 k q)) * d (ix2 r (0 : Fin 1))) := by
  unfold k3_pay3 k3_pay2
  rw [shapeCast_self, addf_apply]
  refine congrArg (acc (ix2 p q) + ·) ?_
  refine (aggDot_apply _ _ p q).trans ?_
  refine Finset.sum_congr rfl fun r _ => ?_
  rw [truncf_apply, truncf_apply, mulf_apply]
  refine congrArg (a (ix2 p r) * ·) ?_
  rw [colBroadcast_apply]
  refine congrArg (· * d (ix2 r (0 : Fin 1))) ?_
  refine (featDot_apply _ _ r q).trans ?_
  rw [shapeCast_self]
  rfl

/-- The last step of a row: add the node's own scaled features, scale the row, add the bias. No clamp: this is the
    last layer. -/
theorem pay4_apply (w : Vec Ideal S128x64 .f32) (h : Vec Ideal S1024x128 .f32) (d : Vec Ideal S1024x1 .f32)
    (acc : Vec Ideal S1024x64 .f32) (d' : Vec Ideal S1024x1 .f32) (b : Vec Ideal S64 .f32) (p : Fin 1024) (q : Fin 64) :
    k3_pay4 w h d acc d' b (ix2 p q)
      = ((acc (ix2 p q) + (∑ k : Fin 128, h (ix2 p k) * w (ix2 k q)) * d (ix2 p (0 : Fin 1))) * d' (ix2 p (0 : Fin 1)))
          + b (ix1 q) := by
  unfold k3_pay4 k3_pay2
  rw [addf_apply, mulf_apply, addf_apply, mulf_apply, rowBroadcast_apply, colBroadcast_apply, colBroadcast_apply]
  refine congrArg (fun z => ((acc (ix2 p q) + z * d (ix2 p (0 : Fin 1))) * d' (ix2 p (0 : Fin 1))) + b (ix1 q)) ?_
  refine (featDot_apply _ _ p q).trans ?_
  rw [shapeCast_self]
  rfl

/-! ## The blocks, read off the arrays -/

/-- The windows' block indices at point `t = 8 i + k`, decided over the grid. -/
theorem blockIdx3 : ∀ t : Fin cfg3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = 0 ∧ win3_3.index t (1 : Fin 2) = 0
    ∧ win3_4.index t (0 : Fin 2) = t.val % 8 ∧ win3_4.index t (1 : Fin 2) = 0
    ∧ win3_5.index t (0 : Fin 2) = t.val / 8 ∧ win3_5.index t (1 : Fin 2) = 0
    ∧ win3_6.index t (0 : Fin 1) = 0
    ∧ win3_7.index t (0 : Fin 2) = t.val / 8 ∧ win3_7.index t (1 : Fin 2) = 0 :=
  (by decide +kernel : ∀ t : Fin grid3.N, _)

theorem lt64 (t : Fin cfg3.N) : t.val < 64 := lt_of_lt_of_eq t.isLt N_3

/-- Row (or column) `r` of block `k` of an axis of 8192 cut into blocks of 1024. -/
def blkIx (k : ℕ) (r : Fin 1024) : Fin 8192 := ⟨(1024 * k + r.val) % 8192, Nat.mod_lt _ (by decide)⟩

theorem blkIx_val (k : ℕ) (hk : k < 8) (r : Fin 1024) : (blkIx k r).val = 1024 * k + r.val := by
  show (1024 * k + r.val) % 8192 = _
  have := r.isLt
  omega

/-- The arrays as the region finds them, at the types the layer's formula takes them. -/
abbrev adjA (c : Dev nD) : Gcn.Mat 8192 8192 := V c main_arg1
abbrev hA (c : Dev nD) : Gcn.Mat 8192 128 := V c main_v2
abbrev wA (c : Dev nD) : Gcn.Mat 128 64 := V c main_arg6
abbrev dA (c : Dev nD) : Gcn.Mat 8192 1 := V c main_v0
abbrev bA (c : Dev nD) : Gcn.Row 64 := V c main_arg7

theorem adjB3_apply (c : Dev nD) (t : Fin cfg3.N) (p r : Fin 1024) (P Q : Fin 8192)
    (hP : P.val = 1024 * (t.val / 8) + p.val) (hQ : Q.val = 1024 * (t.val % 8) + r.val) :
    adjB3 V c t (ix2 p r) = adjA V c (ix2 P Q) := by
  obtain ⟨e0, e1, -⟩ := blockIdx3 t
  show V c main_arg1 (((cfg3.win 0).blk t).view.emb (ix2 p r)) = V c main_arg1 (ix2 P Q)
  refine congrArg (V c main_arg1) (funext fun a => Fin.ext ?_)
  match a with
  | ⟨0, _⟩ => show win3_0.index t (0 : Fin 2) * 1024 + 1 * p.val = P.val; omega
  | ⟨1, _⟩ => show win3_0.index t (1 : Fin 2) * 1024 + 1 * r.val = Q.val; omega

theorem hkB3_apply (c : Dev nD) (t : Fin cfg3.N) (r : Fin 1024) (k : Fin 128) (Q : Fin 8192)
    (hQ : Q.val = 1024 * (t.val % 8) + r.val) :
    hkB3 V c t (ix2 r k) = hA V c (ix2 Q k) := by
  obtain ⟨-, -, e0, e1, -⟩ := blockIdx3 t
  show V c main_v2 (((cfg3.win 1).blk t).view.emb (ix2 r k)) = V c main_v2 (ix2 Q k)
  refine congrArg (V c main_v2) (funext fun a => Fin.ext ?_)
  match a with
  | ⟨0, _⟩ => show win3_1.index t (0 : Fin 2) * 1024 + 1 * r.val = Q.val; omega
  | ⟨1, _⟩ => show win3_1.index t (1 : Fin 2) * 128 + 1 * k.val = k.val; omega

theorem hiB3_apply (c : Dev nD) (t : Fin cfg3.N) (p : Fin 1024) (k : Fin 128) (P : Fin 8192)
    (hP : P.val = 1024 * (t.val / 8) + p.val) :
    hiB3 V c t (ix2 p k) = hA V c (ix2 P k) := by
  obtain ⟨-, -, -, -, e0, e1, -⟩ := blockIdx3 t
  show V c main_v2 (((cfg3.win 2).blk t).view.emb (ix2 p k)) = V c main_v2 (ix2 P k)
  refine congrArg (V c main_v2) (funext fun a => Fin.ext ?_)
  match a with
  | ⟨0, _⟩ => show win3_2.index t (0 : Fin 2) * 1024 + 1 * p.val = P.val; omega
  | ⟨1, _⟩ => show win3_2.index t (1 : Fin 2) * 128 + 1 * k.val = k.val; omega

theorem wB3_apply (c : Dev nD) (t : Fin cfg3.N) (k : Fin 128) (q : Fin 64) :
    wB3 V c t (ix2 k q) = wA V c (ix2 k q) := by
  obtain ⟨-, -, -, -, -, -, e0, e1, -⟩ := blockIdx3 t
  show V c main_arg6 (((cfg3.win 3).blk t).view.emb (ix2 k q)) = V c main_arg6 (ix2 k q)
  refine congrArg (V c main_arg6) (funext fun a => Fin.ext ?_)
  match a with
  | ⟨0, _⟩ => show win3_3.index t (0 : Fin 2) * 128 + 1 * k.val = k.val; omega
  | ⟨1, _⟩ => show win3_3.index t (1 : Fin 2) * 64 + 1 * q.val = q.val; omega

theorem dkB3_apply (c : Dev nD) (t : Fin cfg3.N) (r : Fin 1024) (Q : Fin 8192)
    (hQ : Q.val = 1024 * (t.val % 8) + r.val) :
    dkB3 V c t (ix2 r (0 : Fin 1)) = dA V c (ix2 Q (0 : Fin 1)) := by
  obtain ⟨-, -, -, -, -, -, -, -, e0, e1, -⟩ := blockIdx3 t
  show V c main_v0 (((cfg3.win 4).blk t).view.emb (ix2 r (0 : Fin 1))) = V c main_v0 (ix2 Q (0 : Fin 1))
  refine congrArg (V c main_v0) (funext fun a => Fin.ext ?_)
  match a with
  | ⟨0, _⟩ => show win3_4.index t (0 : Fin 2) * 1024 + 1 * r.val = Q.val; omega
  | ⟨1, _⟩ => show win3_4.index t (1 : Fin 2) * 1 + 1 * 0 = 0; omega

theorem diB3_apply (c : Dev nD) (t : Fin cfg3.N) (p : Fin 1024) (P : Fin 8192)
    (hP : P.val = 1024 * (t.val / 8) + p.val) :
    diB3 V c t (ix2 p (0 : Fin 1)) = dA V c (ix2 P (0 : Fin 1)) := by
  obtain ⟨-, -, -, -, -, -, -, -, -, -, e0, e1, -⟩ := blockIdx3 t
  show V c main_v0 (((cfg3.win 5).blk t).view.emb (ix2 p (0 : Fin 1))) = V c main_v0 (ix2 P (0 : Fin 1))
  refine congrArg (V c main_v0) (funext fun a => Fin.ext ?_)
  match a with
  | ⟨0, _⟩ => show win3_5.index t (0 : Fin 2) * 1024 + 1 * p.val = P.val; omega
  | ⟨1, _⟩ => show win3_5.index t (1 : Fin 2) * 1 + 1 * 0 = 0; omega

theorem bB3_apply (c : Dev nD) (t : Fin cfg3.N) (q : Fin 64) :
    bB3 V c t (ix1 q) = bA V c (ix1 q) := by
  obtain ⟨-, -, -, -, -, -, -, -, -, -, -, -, e0, -⟩ := blockIdx3 t
  show V c main_arg7 (((cfg3.win 6).blk t).view.emb (ix1 q)) = V c main_arg7 (ix1 q)
  refine congrArg (V c main_arg7) (funext fun a => Fin.ext ?_)
  match a with
  | ⟨0, _⟩ => show win3_6.index t (0 : Fin 1) * 64 + 1 * q.val = q.val; omega

/-! ## The accumulation over a row of the grid -/

/-- The scaled feature `u j q = (h W) j q · d j`. -/
def scaledFeat (c : Dev nD) (j : Fin 8192) (q : Fin 64) : EReal :=
  Gcn.feat (hA V c) (wA V c) j q * dA V c (ix2 j (0 : Fin 1))

/-- Column block `k`'s part of the aggregate at entry `(P, q)`: `Σ_r adj (P, 1024 k + r) · u (1024 k + r) q`. -/
def colTerm (c : Dev nD) (P : Fin 8192) (q : Fin 64) (k : ℕ) : EReal :=
  ∑ r : Fin 1024, adjA V c (ix2 P (blkIx k r)) * scaledFeat V c (blkIx k r) q

/-- What one step adds at point `t = 8 i + k`, read off the arrays: column block `k`'s part at row `1024 i + p`. -/
theorem step_term (c : Dev nD) (t : Fin cfg3.N) (i k : ℕ) (hi : t.val / 8 = i) (hk : t.val % 8 = k)
    (p : Fin 1024) (q : Fin 64) :
    ∑ r : Fin 1024, adjB3 V c t (ix2 p r)
        * ((∑ x : Fin 128, hkB3 V c t (ix2 r x) * wB3 V c t (ix2 x q)) * dkB3 V c t (ix2 r (0 : Fin 1)))
      = colTerm V c (blkIx i p) q k := by
  subst hi hk
  have ht := lt64 t
  unfold colTerm scaledFeat Gcn.feat
  refine Finset.sum_congr rfl fun r _ => ?_
  rw [adjB3_apply V c t p r (blkIx (t.val / 8) p) (blkIx (t.val % 8) r) (blkIx_val _ (by omega) _) (blkIx_val _ (by omega) _),
    dkB3_apply V c t r (blkIx (t.val % 8) r) (blkIx_val _ (by omega) _)]
  refine congrArg (fun z => adjA V c (ix2 (blkIx (t.val / 8) p) (blkIx (t.val % 8) r)) * (z * dA V c (ix2 (blkIx (t.val % 8) r) (0 : Fin 1)))) ?_
  refine Finset.sum_congr rfl fun x _ => ?_
  rw [hkB3_apply V c t r x (blkIx (t.val % 8) r) (blkIx_val _ (by omega) _), wB3_apply]

/-- The accumulator after the first point of a row, at an index. -/
theorem acc3_first_apply (c : Dev nD) (n : ℕ) (h : n < cfg3.N) (h0 : n % 8 = 0) (p : Fin 1024) (q : Fin 64) :
    acc3 V c n h (ix2 p q)
      = ∑ r : Fin 1024, adjB3 V c ⟨n, h⟩ (ix2 p r)
          * ((∑ x : Fin 128, hkB3 V c ⟨n, h⟩ (ix2 r x) * wB3 V c ⟨n, h⟩ (ix2 x q)) * dkB3 V c ⟨n, h⟩ (ix2 r (0 : Fin 1))) := by
  refine (congrFun (acc3_reset V c ⟨n, h⟩ h0) (ix2 p q)).trans ?_
  rw [pay3_apply, pay1_apply, zero_add]

/-- The accumulator after a later point of a row, at an index: what the point before left plus this point's part. -/
theorem acc3_next_apply (c : Dev nD) (n : ℕ) (h : n + 1 < cfg3.N) (hm : ¬(n + 1) % 8 = 0) (p : Fin 1024) (q : Fin 64) :
    acc3 V c (n + 1) h (ix2 p q)
      = acc3 V c n (Nat.lt_of_succ_lt h) (ix2 p q)
        + ∑ r : Fin 1024, adjB3 V c ⟨n + 1, h⟩ (ix2 p r)
          * ((∑ x : Fin 128, hkB3 V c ⟨n + 1, h⟩ (ix2 r x) * wB3 V c ⟨n + 1, h⟩ (ix2 x q)) * dkB3 V c ⟨n + 1, h⟩ (ix2 r (0 : Fin 1))) := by
  have e : acc3 V c (n + 1) h
      = k3_pay3 (wB3 V c ⟨n + 1, h⟩) (hkB3 V c ⟨n + 1, h⟩) (dkB3 V c ⟨n + 1, h⟩) (adjB3 V c ⟨n + 1, h⟩)
          (acc3 V c n (Nat.lt_of_succ_lt h)) := if_neg hm
  rw [e, pay3_apply]

/-- THE INVARIANT: after point `8 i + k` the accumulator holds, at `(p, q)`, the parts of the column blocks `0 … k` at
    row `1024 i + p`. -/
theorem acc3_apply (c : Dev nD) (i : ℕ) (hi : i < 8) (p : Fin 1024) (q : Fin 64) :
    ∀ (k : ℕ) (hk : k < 8) (h : 8 * i + k < cfg3.N),
      acc3 V c (8 * i + k) h (ix2 p q) = ∑ k' ∈ Finset.range (k + 1), colTerm V c (blkIx i p) q k'
  | 0, hk, h => by
    rw [acc3_first_apply V c (8 * i + 0) h (by omega) p q,
      step_term V c ⟨8 * i + 0, h⟩ i 0 (by show (8 * i + 0) / 8 = i; omega) (by show (8 * i + 0) % 8 = 0; omega) p q,
      Finset.sum_range_one]
  | k + 1, hk, h => by
    refine (acc3_next_apply V c (8 * i + k) h (by omega) p q).trans ?_
    rw [acc3_apply c i hi p q k (by omega) (Nat.lt_of_succ_lt h),
      step_term V c ⟨8 * i + k + 1, h⟩ i (k + 1) (by show (8 * i + k + 1) / 8 = i; omega)
        (by show (8 * i + k + 1) % 8 = k + 1; omega) p q,
      ← Finset.sum_range_succ]

/-- An axis of 8192 summed block by block. -/
theorem sum_blocks (f : Fin 8192 → EReal) :
    ∑ j : Fin 8192, f j = ∑ k ∈ Finset.range 8, ∑ r : Fin 1024, f (blkIx k r) := by
  rw [← Fin.sum_univ_eq_sum_range (fun k => ∑ r : Fin 1024, f (blkIx k r)) 8,
    ← (finProdFinEquiv : Fin 8 × Fin 1024 ≃ Fin 8192).sum_comp f, Fintype.sum_prod_type]
  refine Finset.sum_congr rfl fun k _ => Finset.sum_congr rfl fun r _ => congrArg f (Fin.ext ?_)
  rw [blkIx_val k.val k.isLt r]
  show r.val + 1024 * k.val = 1024 * k.val + r.val
  omega

/-- After the last point of row `i` the accumulator holds the whole aggregate of row `1024 i + p`. -/
theorem acc3_last_apply (c : Dev nD) (t : Fin cfg3.N) (h7 : t.val % 8 = 7) (p : Fin 1024) (q : Fin 64) :
    acc3 V c t.val t.isLt (ix2 p q)
      = ∑ j : Fin 8192, adjA V c (ix2 (blkIx (t.val / 8) p) j) * scaledFeat V c j q := by
  have ht := lt64 t
  have same : ∀ (n : ℕ) (hn : n < cfg3.N), n = t.val → acc3 V c n hn = acc3 V c t.val t.isLt := fun n hn e => by
    subst e; rfl
  have h' : 8 * (t.val / 8) + 7 < cfg3.N := lt_of_lt_of_eq (by omega) N_3.symm
  rw [← same _ h' (by omega), acc3_apply V c (t.val / 8) (by omega) p q 7 (by omega) h', sum_blocks]
  rfl

/-! ## What the last step of a row stores, and the array after the region -/

/-- The layer as one function of the arrays the region finds: layer 2 has no activation. -/
abbrev layer2 (c : Dev nD) : Gcn.Mat 8192 64 :=
  Gcn.layerK (V c main_arg1) (fun i : Fin 8192 => V c main_v0 (ix2 i (0 : Fin 1))) (V c main_v2)
    (V c main_arg6) (V c main_arg7)

/-- At the last point of row `i` the stored block is the layer at rows `1024 i + p`. -/
theorem out3_apply (c : Dev nD) (t : Fin cfg3.N) (h7 : t.val % 8 = 7) (p : Fin 1024) (q : Fin 64) :
    out3 V c t (ix2 p q) = layer2 V c (ix2 (blkIx (t.val / 8) p) q) := by
  have ht := lt64 t
  have hP := blkIx_val (t.val / 8) (by omega) p
  have ef : (∑ k : Fin 128, hiB3 V c t (ix2 p k) * wB3 V c t (ix2 k q))
      = Gcn.feat (hA V c) (wA V c) (blkIx (t.val / 8) p) q := by
    unfold Gcn.feat
    refine Finset.sum_congr rfl fun k _ => ?_
    rw [hiB3_apply V c t p k (blkIx (t.val / 8) p) hP, wB3_apply]
  unfold out3
  rw [pay4_apply, ef, acc3_last_apply V c t h7 p q, diB3_apply V c t p (blkIx (t.val / 8) p) hP, bB3_apply]
  rfl

/-- So what that point writes back, read at a block index, is the layer at the array index under it. -/
theorem out3_eq_read (c : Dev nD) (t : Fin cfg3.N) (h7 : t.val % 8 = 7) (y : S1024x64.Idx) :
    out3 V c t y = layer2 V c (((cfg3.win 7).blk t).view.emb y) := by
  obtain ⟨p, q, rfl⟩ : ∃ (p : Fin 1024) (q : Fin 64), y = ix2 p q := ⟨y 0, y 1, eq_ix2 y⟩
  have ht := lt64 t
  obtain ⟨-, -, -, -, -, -, -, -, -, -, -, -, -, e0, e1⟩ := blockIdx3 t
  rw [out3_apply V c t h7 p q]
  refine congrArg (layer2 V c) (funext fun a => Fin.ext ?_)
  match a with
  | ⟨0, _⟩ =>
    show (blkIx (t.val / 8) p).val = win3_7.index t (0 : Fin 2) * 1024 + 1 * p.val
    rw [blkIx_val _ (by omega)]; omega
  | ⟨1, _⟩ => show q.val = win3_7.index t (1 : Fin 2) * 64 + 1 * q.val; omega

/-- WHAT A FLUSHING POINT WRITES BACK is its block of the layer. -/
theorem flushed3_7_eq (c : Dev nD) (t : Fin cfg3.N) (hf : (cfg3.win 7).flush t = true) :
    (dat3 (F := Ideal) V c).flushed 7 t = ((cfg3.win 7).blk t).view.read (Elt Ideal) (layer2 V c) := by
  show (cfg3.win 7).cut (grid3.coords t) ((dat3 (F := Ideal) V c).after 7 t) = _
  rw [after3_7]
  funext y
  exact out3_eq_read V c t ((flush3_7 t).mp hf) y

/-- An index of the output array is in point `t`'s block iff each coordinate is in the block's range on its axis. -/
theorem mem_blk3_7 (t : Fin cfg3.N) (i : S8192x64.Idx) :
    i ∈ ((cfg3.win 7).blk t).view.set ↔ ∀ a : Fin 2, win3_7.index t a * S1024x64.size a ≤ (i a).val
      ∧ (i a).val < win3_7.index t a * S1024x64.size a + S1024x64.size a := by
  show i ∈ ((View.whole main_v3).slice (win3_7.rect t)).set ↔ _
  rw [View.set_slice_whole, Rect.mem_set_unit]
  exact Iff.rfl

/-- Every row of the output array is under the block of the last point of its row block. -/
theorem cover3_7 (i : S8192x64.Idx) :
    ∃ t : Fin cfg3.N, (cfg3.win 7).flush t = true ∧ i ∈ ((cfg3.win 7).blk t).view.set := by
  have h0 : (i 0).val < 8192 := (i 0).isLt
  have h1 : (i 1).val < 64 := (i 1).isLt
  have hN : 8 * ((i 0).val / 1024) + 7 < cfg3.N := lt_of_lt_of_eq (by omega) N_3.symm
  refine ⟨⟨8 * ((i 0).val / 1024) + 7, hN⟩, (flush3_7 _).mpr (by show (8 * ((i 0).val / 1024) + 7) % 8 = 7; omega), ?_⟩
  obtain ⟨-, -, -, -, -, -, -, -, -, -, -, -, -, e0, e1⟩ := blockIdx3 ⟨8 * ((i 0).val / 1024) + 7, hN⟩
  have e0' : win3_7.index ⟨8 * ((i 0).val / 1024) + 7, hN⟩ (0 : Fin 2) = (8 * ((i 0).val / 1024) + 7) / 8 := e0
  rw [mem_blk3_7]
  intro a
  match a with
  | ⟨0, _⟩ =>
    show win3_7.index ⟨8 * ((i 0).val / 1024) + 7, hN⟩ (0 : Fin 2) * 1024 ≤ (i 0).val
      ∧ (i 0).val < win3_7.index ⟨8 * ((i 0).val / 1024) + 7, hN⟩ (0 : Fin 2) * 1024 + 1024
    omega
  | ⟨1, _⟩ =>
    show win3_7.index ⟨8 * ((i 0).val / 1024) + 7, hN⟩ (1 : Fin 2) * 64 ≤ (i 1).val
      ∧ (i 1).val < win3_7.index ⟨8 * ((i 0).val / 1024) + 7, hN⟩ (1 : Fin 2) * 64 + 64
    omega

end ValR3

/-- After layer 2's region its output array holds the layer in the kernel's form (the last layer has no activation), of
    the arrays as the region found them: `adj`, the normaliser column, the features, the weight, the bias. -/
theorem arrAt3_out (c : Dev nD) :
    (dat3 (F := Ideal) V c).arrAt 7 cfg3.N
      = Gcn.layerK (V c main_arg1) (fun i : Fin 8192 => V c main_v0 (ix2 i (0 : Fin 1))) (V c main_v2)
          (V c main_arg6) (V c main_arg7) :=
  (dat3 (F := Ideal) V c).arrAt_eq_of_cover 7 (ValR3.layer2 V c) (fun t hf => ValR3.flushed3_7_eq V c t hf) ValR3.cover3_7

end Cert.KernelIdeal.Hand

end
-- ==== Proof.ValRun.lean ====
import proofs.«166741_j53910429499630_1_alg».proof.Proof.FrameRun
import proofs.«166741_j53910429499630_1_alg».proof.Proof.ValR0
import proofs.«166741_j53910429499630_1_alg».proof.Proof.ValR1
import proofs.«166741_j53910429499630_1_alg».proof.Proof.ValR2
import proofs.«166741_j53910429499630_1_alg».proof.Proof.ValR3
import proofs.«166741_j53910429499630_1_alg».proof.Proof.Spec
import Idealize.ShloMosaic.PureOps.Ideal.Laws
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # The result array after the four regions is the three layers in the kernel's form

Region 0 leaves the normaliser column; each layer's region reads it, the adjacency matrix, the previous layer's
output and its own weight and bias, none of which a later region writes. -/

variable (m : (ℓ : Loc nD τ sig) → Buf (Elt Ideal) ℓ)

/-- The normaliser column after region 0, and it stays: no later region writes it. -/
theorem Vr1_v0 (c : Dev nD) : Vr1 m c main_v0 = (fun y : S8192x1.Idx => Gcn.dinvK (m ((c.tc : Thread nD τ).loc main_arg1)) (y 0)) :=
  (E1_self m c).trans (arrAt0_out (Vr0 m) c)
theorem Vr2_v0 (c : Dev nD) : Vr2 m c main_v0 = (fun y : S8192x1.Idx => Gcn.dinvK (m ((c.tc : Thread nD τ).loc main_arg1)) (y 0)) :=
  (E2_of_ne m c main_v0 (by decide)).trans (Vr1_v0 m c)
theorem Vr3_v0 (c : Dev nD) : Vr3 m c main_v0 = (fun y : S8192x1.Idx => Gcn.dinvK (m ((c.tc : Thread nD τ).loc main_arg1)) (y 0)) :=
  (E3_of_ne m c main_v0 (by decide)).trans (Vr2_v0 m c)

/-- An argument array is as launched at every region's entry. -/
theorem Vr1_arg (c : Dev nD) (b : Ref sig .tc) (h0 : b ≠ main_v0) : Vr1 m c b = m ((c : Thread nD τ).loc b) :=
  (E1_of_ne m c b h0).trans rfl
theorem Vr2_arg (c : Dev nD) (b : Ref sig .tc) (h0 : b ≠ main_v0) (h1 : b ≠ main_v1) : Vr2 m c b = m ((c : Thread nD τ).loc b) :=
  (E2_of_ne m c b h1).trans (Vr1_arg m c b h0)
theorem Vr3_arg (c : Dev nD) (b : Ref sig .tc) (h0 : b ≠ main_v0) (h1 : b ≠ main_v1) (h2 : b ≠ main_v2) : Vr3 m c b = m ((c : Thread nD τ).loc b) :=
  (E3_of_ne m c b h2).trans (Vr2_arg m c b h0 h1)

/-- The column read as a function of the node is the kernel's normaliser. -/
theorem col_eq (adj : Gcn.Mat 8192 8192) :
    (fun i : Fin 8192 => (fun y : S8192x1.Idx => Gcn.dinvK adj (y 0)) (ix2 i (0 : Fin 1))) = Gcn.dinvK adj := rfl

/-- Layer 0's output array. -/
theorem Vr2_v1 (c : Dev nD) : Vr2 m c main_v1
    = Gcn.relu (Gcn.layerK (m ((c.tc : Thread nD τ).loc main_arg1)) (Gcn.dinvK (m ((c.tc : Thread nD τ).loc main_arg1))) (m ((c.tc : Thread nD τ).loc main_arg0)) (m ((c.tc : Thread nD τ).loc main_arg2)) (m ((c.tc : Thread nD τ).loc main_arg3))) := by
  refine (E2_self m c).trans ((arrAt1_out (Vr1 m) c).trans ?_)
  rw [Vr1_v0 m c, Vr1_arg m c main_arg1 (by decide), Vr1_arg m c main_arg0 (by decide), Vr1_arg m c main_arg2 (by decide),
    Vr1_arg m c main_arg3 (by decide), col_eq]

/-- Layer 1's output array. -/
theorem Vr3_v2 (c : Dev nD) : Vr3 m c main_v2
    = Gcn.relu (Gcn.layerK (m ((c.tc : Thread nD τ).loc main_arg1)) (Gcn.dinvK (m ((c.tc : Thread nD τ).loc main_arg1)))
        (Gcn.relu (Gcn.layerK (m ((c.tc : Thread nD τ).loc main_arg1)) (Gcn.dinvK (m ((c.tc : Thread nD τ).loc main_arg1))) (m ((c.tc : Thread nD τ).loc main_arg0)) (m ((c.tc : Thread nD τ).loc main_arg2)) (m ((c.tc : Thread nD τ).loc main_arg3))))
        (m ((c.tc : Thread nD τ).loc main_arg4)) (m ((c.tc : Thread nD τ).loc main_arg5))) := by
  refine (E3_self m c).trans ((arrAt2_out (Vr2 m) c).trans ?_)
  rw [Vr2_v0 m c, Vr2_arg m c main_arg1 (by decide) (by decide), Vr2_v1 m c, Vr2_arg m c main_arg4 (by decide) (by decide),
    Vr2_arg m c main_arg5 (by decide) (by decide), col_eq]

/-- THE RESULT: after the four regions the result array holds the three layers in the kernel's form, of the launch
    arguments. -/
theorem E4_out (c : Dev nD) : E4 m c (Proc.devRef .tc main_v3)
    = Gcn.outK (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  refine (E4_self m c).trans ((arrAt3_out (Vr3 m) c).trans ?_)
  rw [Vr3_v0 m c, Vr3_arg m c main_arg1 (by decide) (by decide) (by decide), Vr3_v2 m c,
    Vr3_arg m c main_arg6 (by decide) (by decide) (by decide), Vr3_arg m c main_arg7 (by decide) (by decide) (by decide), col_eq]
  rfl

end Cert.KernelIdeal.Hand

end
-- ==== Proof.RefImports.lean ====
import proofs.«166741_j53910429499630_1_alg».proof.Proof.Gen.ReferenceIdeal.Run
import proofs.«166741_j53910429499630_1_alg».proof.Proof.Gen.ReferenceIdeal.Read

/-! The reference's run and its stages read at an index: the two modules every reference-side lemma works over. -/
-- ==== Proof.Ref.lean ====
import proofs.«166741_j53910429499630_1_alg».proof.Proof.RefImports
import proofs.«166741_j53910429499630_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.Read

/-! ## The identity matrix, read off the two coordinate arrays -/

/-- Two coordinates below `8192` are equal as 32-bit words exactly when they are equal. -/
theorem word_beq (p j : Fin 8192) : (BitVec.ofNat 32 p.val == BitVec.ofNat 32 j.val) = decide (p = j) := by
  by_cases h : p = j
  · subst h; simp
  · rw [decide_eq_false h]
    rw [beq_eq_false_iff_ne]
    intro e
    have e' := congrArg BitVec.toNat e
    rw [BitVec.toNat_ofNat, BitVec.toNat_ofNat] at e'
    have hp := p.isLt
    have hj := j.isLt
    apply h
    apply Fin.ext
    omega

/-- The converted comparison of the row coordinate with the column coordinate is the identity matrix's entry. -/
theorem eye_at (p j : Fin 8192) : val_main_v5 (F := Ideal) (ix2 p j) = Gcn.eye p j := by
  rw [val_main_v5_apply, val_main_v4_apply, val_main_v3_apply, val_main_v0_apply, val_main_v2_apply,
    val_main_c_apply, val_main_v1_apply]
  show (((IntOp.cmpi .eq (IntOp.addi (BitVec.ofNat 32 p.val) 0#32) (BitVec.ofNat 32 j.val)).toNat : ℝ) : EReal) = _
  unfold Gcn.eye IntOp.cmpi IntOp.addi
  rw [BitVec.add_zero, word_beq]
  by_cases h : p = j
  · rw [if_pos h, decide_eq_true h]; simp
  · rw [if_neg h, decide_eq_false h]; simp

/-! ## The normalised matrix -/

/-- `Â = adj + I` at an entry. -/
theorem atilde_at (x1 : (⟨S8192x8192, .f32⟩ : BufTy).Contents (Elt Ideal)) (p j : Fin 8192) :
    val_main_v6 (F := Ideal) x1 (ix2 p j) = x1 (ix2 p j) + Gcn.eye p j := by
  rw [val_main_v6_apply, eye_at, Ideal.addf_def]

/-- The inverse square root of a row sum of `Â`. -/
theorem dinv_at (x1 : (⟨S8192x8192, .f32⟩ : BufTy).Contents (Elt Ideal)) (p : Fin 8192) :
    val_main_v8 (F := Ideal) x1 (ix1 p) = Gcn.dinvR x1 p := by
  rw [val_main_v8_apply, val_main_v7_apply, val_main_cst_apply]
  simp only [Ideal.hostUnary_rsqrt_def, Ideal.ofBits_def, Ideal.ofBits_zero_f32, zero_add]
  unfold Gcn.dinvR
  refine congrArg Ideal.rsqrt (Finset.sum_congr rfl fun k _ => ?_)
  have e : idx_main_v7 (ix1 p) k = ix2 p k := funext fun a => Fin.ext (by match a with | ⟨0, _⟩ => rfl | ⟨1, _⟩ => rfl)
  rw [e, atilde_at]

/-- The normalised matrix's entry: `Â` scaled by its row's factor, then by its column's. -/
theorem norm_at (x1 : (⟨S8192x8192, .f32⟩ : BufTy).Contents (Elt Ideal)) (p j : Fin 8192) :
    val_main_v14 (F := Ideal) x1 (ix2 p j)
      = (x1 (ix2 p j) + Gcn.eye p j) * Gcn.dinvR x1 p * Gcn.dinvR x1 j := by
  have er : idx_main_v9 (idx_main_v10 (ix2 p j)) = ix1 p := funext fun a => Fin.ext (by match a with | ⟨0, _⟩ => rfl)
  have ec : idx_main_v12 (idx_main_v13 (ix2 p j)) = ix1 j := funext fun a => Fin.ext (by match a with | ⟨0, _⟩ => rfl)
  rw [val_main_v14_apply, val_main_v11_apply, val_main_v10_apply, val_main_v9_apply, val_main_v13_apply,
    val_main_v12_apply, er, ec, dinv_at, dinv_at, atilde_at]
  simp only [Ideal.mulf_def]

/-! ## The first layer -/

/-- The first feature product. -/
theorem feat0_at (x0 : (⟨S8192x64, .f32⟩ : BufTy).Contents (Elt Ideal)) (x2 : (⟨S64x128, .f32⟩ : BufTy).Contents (Elt Ideal)) (j : Fin 8192) (c : Fin 128) :
    val_main_v15 (F := Ideal) x0 x2 (ix2 j c) = Gcn.feat (din := 64) (dout := 128) x0 x2 j c := by
  rw [val_main_v15_apply]
  unfold Gcn.feat
  refine Finset.sum_congr rfl fun k _ => ?_
  have el : lidx_main_v15 (ix2 j c) k = ix2 j k := funext fun a => Fin.ext (by match a with | ⟨0, _⟩ => rfl | ⟨1, _⟩ => rfl)
  have er : ridx_main_v15 (ix2 j c) k = ix2 k c := funext fun a => Fin.ext (by match a with | ⟨0, _⟩ => rfl | ⟨1, _⟩ => rfl)
  rw [el, er]

/-- The first layer before its activation. -/
theorem layer0_eq (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal)) :
    val_main_v19 (F := Ideal) x0 x1 x2 x3
      = Gcn.layerR (din := 64) (dout := 128) x1 (Gcn.dinvR x1) x0 x2 x3 := by
  funext i
  obtain ⟨p, q, rfl⟩ : ∃ (p : Fin 8192) (q : Fin 128), i = ix2 p q := ⟨i 0, i 1, eq_ix2 i⟩
  have eb : idx_main_v17 (idx_main_v18 (ix2 p q)) = ix1 q := funext fun a => Fin.ext (by match a with | ⟨0, _⟩ => rfl)
  rw [val_main_v19_apply, val_main_v16_apply, val_main_v18_apply, val_main_v17_apply, eb, Ideal.addf_def]
  unfold Gcn.layerR
  refine congrArg (· + x3 (ix1 q)) (Finset.sum_congr rfl fun k _ => ?_)
  have el : lidx_main_v16 (ix2 p q) k = ix2 p k := funext fun a => Fin.ext (by match a with | ⟨0, _⟩ => rfl | ⟨1, _⟩ => rfl)
  have er : ridx_main_v16 (ix2 p q) k = ix2 k q := funext fun a => Fin.ext (by match a with | ⟨0, _⟩ => rfl | ⟨1, _⟩ => rfl)
  rw [el, er, norm_at, feat0_at]

/-- The first activation. -/
theorem relu0_eq (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal)) :
    val_main_v20 (F := Ideal) x0 x1 x2 x3
      = Gcn.relu (r := 8192) (c := 128) (val_main_v19 (F := Ideal) x0 x1 x2 x3) := by
  funext i
  rw [val_main_v20_apply, val_main_call0_v0_apply, val_main_call0_cst_apply]
  simp only [Ideal.maximumf_def, Ideal.ofBits_def, Ideal.ofBits_zero_f32]
  rfl

/-! ## The second layer -/

/-- The second feature product. -/
theorem feat1_at (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (j : Fin 8192) (c : Fin 128) :
    val_main_v21 (F := Ideal) x0 x1 x2 x3 x4 (ix2 j c)
      = Gcn.feat (din := 128) (dout := 128) (val_main_v20 (F := Ideal) x0 x1 x2 x3) x4 j c := by
  rw [val_main_v21_apply]
  unfold Gcn.feat
  refine Finset.sum_congr rfl fun k _ => ?_
  have el : lidx_main_v21 (ix2 j c) k = ix2 j k := funext fun a => Fin.ext (by match a with | ⟨0, _⟩ => rfl | ⟨1, _⟩ => rfl)
  have er : ridx_main_v21 (ix2 j c) k = ix2 k c := funext fun a => Fin.ext (by match a with | ⟨0, _⟩ => rfl | ⟨1, _⟩ => rfl)
  rw [el, er]

/-- The second layer before its activation. -/
theorem layer1_eq (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v25 (F := Ideal) x0 x1 x2 x3 x4 x5
      = Gcn.layerR (din := 128) (dout := 128) x1 (Gcn.dinvR x1) (val_main_v20 (F := Ideal) x0 x1 x2 x3) x4 x5 := by
  funext i
  obtain ⟨p, q, rfl⟩ : ∃ (p : Fin 8192) (q : Fin 128), i = ix2 p q := ⟨i 0, i 1, eq_ix2 i⟩
  have eb : idx_main_v23 (idx_main_v24 (ix2 p q)) = ix1 q := funext fun a => Fin.ext (by match a with | ⟨0, _⟩ => rfl)
  rw [val_main_v25_apply, val_main_v22_apply, val_main_v24_apply, val_main_v23_apply, eb, Ideal.addf_def]
  unfold Gcn.layerR
  refine congrArg (· + x5 (ix1 q)) (Finset.sum_congr rfl fun k _ => ?_)
  have el : lidx_main_v22 (ix2 p q) k = ix2 p k := funext fun a => Fin.ext (by match a with | ⟨0, _⟩ => rfl | ⟨1, _⟩ => rfl)
  have er : ridx_main_v22 (ix2 p q) k = ix2 k q := funext fun a => Fin.ext (by match a with | ⟨0, _⟩ => rfl | ⟨1, _⟩ => rfl)
  rw [el, er, norm_at, feat1_at]

/-- The second activation. -/
theorem relu1_eq (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v26 (F := Ideal) x0 x1 x2 x3 x4 x5
      = Gcn.relu (r := 8192) (c := 128) (val_main_v25 (F := Ideal) x0 x1 x2 x3 x4 x5) := by
  funext i
  rw [val_main_v26_apply, val_main_call1_v0_apply, val_main_call1_cst_apply]
  simp only [Ideal.maximumf_def, Ideal.ofBits_def, Ideal.ofBits_zero_f32]
  rfl

/-! ## The third layer -/

/-- The third feature product. -/
theorem feat2_at (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x64, .f32⟩ : BufTy).Contents (Elt Ideal)) (j : Fin 8192) (c : Fin 64) :
    val_main_v27 (F := Ideal) x0 x1 x2 x3 x4 x5 x6 (ix2 j c)
      = Gcn.feat (din := 128) (dout := 64) (val_main_v26 (F := Ideal) x0 x1 x2 x3 x4 x5) x6 j c := by
  rw [val_main_v27_apply]
  unfold Gcn.feat
  refine Finset.sum_congr rfl fun k _ => ?_
  have el : lidx_main_v27 (ix2 j c) k = ix2 j k := funext fun a => Fin.ext (by match a with | ⟨0, _⟩ => rfl | ⟨1, _⟩ => rfl)
  have er : ridx_main_v27 (ix2 j c) k = ix2 k c := funext fun a => Fin.ext (by match a with | ⟨0, _⟩ => rfl | ⟨1, _⟩ => rfl)
  rw [el, er]

/-- The third layer: the program's result. -/
theorem layer2_eq (x0 : (⟨S8192x64, .f32⟩ : BufTy).Contents (Elt Ideal)) (x1 : (⟨S8192x8192, .f32⟩ : BufTy).Contents (Elt Ideal)) (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (x6 : (⟨S128x64, .f32⟩ : BufTy).Contents (Elt Ideal)) (x7 : (⟨S64, .f32⟩ : BufTy).Contents (Elt Ideal)) :
    val_main_v31 (F := Ideal) x0 x1 x2 x3 x4 x5 x6 x7
      = Gcn.layerR (din := 128) (dout := 64) x1 (Gcn.dinvR x1) (val_main_v26 (F := Ideal) x0 x1 x2 x3 x4 x5) x6 x7 := by
  funext i
  obtain ⟨p, q, rfl⟩ : ∃ (p : Fin 8192) (q : Fin 64), i = ix2 p q := ⟨i 0, i 1, eq_ix2 i⟩
  have eb : idx_main_v29 (idx_main_v30 (ix2 p q)) = ix1 q := funext fun a => Fin.ext (by match a with | ⟨0, _⟩ => rfl)
  rw [val_main_v31_apply, val_main_v28_apply, val_main_v30_apply, val_main_v29_apply, eb, Ideal.addf_def]
  unfold Gcn.layerR
  refine congrArg (· + x7 (ix1 q)) (Finset.sum_congr rfl fun k _ => ?_)
  have el : lidx_main_v28 (ix2 p q) k = ix2 p k := funext fun a => Fin.ext (by match a with | ⟨0, _⟩ => rfl | ⟨1, _⟩ => rfl)
  have er : ridx_main_v28 (ix2 p q) k = ix2 k q := funext fun a => Fin.ext (by match a with | ⟨0, _⟩ => rfl | ⟨1, _⟩ => rfl)
  rw [el, er, norm_at, feat2_at]

/-! ## The whole program -/

theorem res_eq (m : (ℓ : Loc nD τ sig) → Buf (Elt Ideal) ℓ) (c : Dev nD) :
    Cert.ReferenceIdeal.Value.res_out0 (F := Ideal) m c
      = Gcn.outR (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (val_main_v31_eq (F := Ideal) m c).trans ?_
  rw [layer2_eq, relu1_eq, layer1_eq, relu0_eq, layer0_eq]
  rfl

end Cert.ReferenceIdeal.RefValue

end
-- ==== Proof.PreDecode.lean ====
import proofs.«166741_j53910429499630_1_alg».proof.Pre_finite_inputs
import proofs.«166741_j53910429499630_1_alg».proof.Proof.Gen.Pre_finite_inputs
import proofs.«166741_j53910429499630_1_alg».proof.Proof.Spec
import Idealize.ShloMosaic.PureOps.Ideal.Laws
import Idealize.ShloMosaic.Lib.ValueIdx
import Idealize.ShloMosaic.Lib.ReduceAll
import Idealize.ShloMosaic.Lib.StableHlo.Predicate

noncomputable section

namespace Cert.Pre_finite_inputs.Decode

open Cert.Pre_finite_inputs Idealize.ShloMosaic Idealize.ShloMosaic.ValueIdx

variable [Cert.Pre_finite_inputs.Facts]

/-- The scalar shape has one index. -/
instance subsingleton_S_ : Subsingleton S_.Idx := ⟨fun a b => funext fun d => d.elim0⟩

/-- The pattern `0x7F800000` denotes `+∞`. -/
theorem ofBits_inf : Ideal.ofBits .f32 0x7F800000#32 = (⊤ : EReal) := by simp [Ideal.ofBits, Ideal.ieee]

/-- An extended real whose absolute value `max x (-x)` is below `+∞` is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A one-bit comparison word is 1 exactly when the strict order holds. -/
theorem cmp_olt_eq_one {x y : EReal} (h : Ideal.cmp .olt x y = 1#1) : x < y := by
  unfold Ideal.cmp at h
  exact of_decide_eq_true ((StableHlo.Predicate.ofBool_eq_one_iff _).1 h)

theorem cmp_ogt_eq_one {x y : EReal} (h : Ideal.cmp .ogt x y = 1#1) : y < x := by
  unfold Ideal.cmp at h
  exact of_decide_eq_true ((StableHlo.Predicate.ofBool_eq_one_iff _).1 h)

/-- One conjunct `all (|v| < +∞)`, at any shape: every entry of `v` is a real number. -/
theorem isReal_of_all {S : Shape} {axes : List (Fin S.rank)} (v : FVec Ideal S .f32)
    (hb : S_.BroadcastsInDim S (![] : Fin 0 → Fin S.rank)) (hr : S.ReducesTo axes S_) (h0 : 0 < S_.numel)
    (h : Host.reduce IntOp.andi (cmpf .olt (Host.absf v) (broadcastInDim S ![] hb (constant (F := Ideal) S_ .f32 0x7F800000#32)))
      (constantI S_ 1 1#1) hr h0 ix0 = 1#1) : Gcn.IsReal (S := S) v := by
  intro y
  have e := Host.reduce_andi_all _ _ hr h0 ix0 h y
  have e' : Ideal.cmp .olt (max (v y) (-(v y))) (Ideal.ofBits .f32 0x7F800000#32) = 1#1 := e
  rw [ofBits_inf] at e'
  exact real_of_abs_lt_top _ (cmp_olt_eq_one e')

/-- Two coordinates below 8192 are equal when their 32-bit words are. -/
theorem ofNat_inj_8192 {i j : Fin 8192} (h : BitVec.ofNat 32 i.val = BitVec.ofNat 32 j.val) : i = j := by
  have h' := congrArg BitVec.toNat h
  simp only [BitVec.toNat_ofNat] at h'
  have hi := i.isLt
  have hj := j.isLt
  exact Fin.ext (by omega)

/-- The printed identity matrix (row number against column number, as 32-bit words, the bit widened to a float) has the entry
    `1` on the diagonal and `0` off it. -/
theorem eye_apply (hb : S_.BroadcastsInDim S8192x8192 (![] : Fin 0 → Fin S8192x8192.rank)) (i j : Fin 8192) :
    uitofp (F := Ideal) .f32 (cmpi .eq (addi (iotaInDim S8192x8192 32 0) (broadcastInDim S8192x8192 ![] hb (constantI S_ 32 0#32)))
      (iotaInDim S8192x8192 32 1)) (ix2 i j) = Gcn.eye i j := by
  show (((IntOp.cmpi .eq (IntOp.addi (BitVec.ofNat 32 i.val) 0#32) (BitVec.ofNat 32 j.val)).toNat : ℝ) : EReal) = Gcn.eye i j
  unfold Gcn.eye IntOp.addi
  rw [BitVec.add_zero]
  by_cases hij : i = j
  · subst hij
    rw [if_pos rfl, (StableHlo.Predicate.cmpi_eq_iff).2 rfl]
    simp
  · rw [if_neg hij]
    have hne : IntOp.cmpi .eq (BitVec.ofNat 32 i.val) (BitVec.ofNat 32 j.val) = 0#1 := by
      rcases BitVec.eq_zero_or_eq_one (IntOp.cmpi .eq (BitVec.ofNat 32 i.val) (BitVec.ofNat 32 j.val)) with h | h
      · exact h
      · exact absurd (ofNat_inj_8192 ((StableHlo.Predicate.cmpi_eq_iff).1 h)) hij
    rw [hne]
    simp

/-- The ninth conjunct `all (Σ_j (adj + I) i j > 0)`: every row sum of `adj + I` is positive. -/
theorem rowSumsPos_of_all (adj : FVec Ideal S8192x8192 .f32)
    (hb : S_.BroadcastsInDim S8192x8192 (![] : Fin 0 → Fin S8192x8192.rank)) (hred : S8192x8192.ReducesTo [1] S8192)
    (hb' : S_.BroadcastsInDim S8192 (![] : Fin 0 → Fin S8192.rank)) (hr : S8192.ReducesTo [0] S_) (h0 : 0 < S_.numel)
    (h : Host.reduce IntOp.andi
      (cmpf .ogt
        (Host.reduceAdd
          (addf adj (uitofp (F := Ideal) .f32 (cmpi .eq (addi (iotaInDim S8192x8192 32 0)
            (broadcastInDim S8192x8192 ![] hb (constantI S_ 32 0#32))) (iotaInDim S8192x8192 32 1))))
          (constant (F := Ideal) S_ .f32 0x00000000#32) hred h0)
        (broadcastInDim S8192 ![] hb' (constant (F := Ideal) S_ .f32 0x00000000#32)))
      (constantI S_ 1 1#1) hr h0 ix0 = 1#1) : Gcn.RowSumsPos adj := by
  intro i
  have e := Host.reduce_andi_all _ _ hr h0 ix0 h (ix1 i)
  have e' : Ideal.cmp .ogt
      (Ideal.hostReduceAdd hred
        (addf adj (uitofp (F := Ideal) .f32 (cmpi .eq (addi (iotaInDim S8192x8192 32 0)
          (broadcastInDim S8192x8192 ![] hb (constantI S_ 32 0#32))) (iotaInDim S8192x8192 32 1))))
        (Ideal.ofBits .f32 0x00000000#32) (ix1 i))
      (Ideal.ofBits .f32 0x00000000#32) = 1#1 := e
  have hpos := cmp_ogt_eq_one e'
  rw [Ideal.ofBits_zero_f32, Ideal.hostReduceAdd_single hred (by decide), zero_add] at hpos
  refine lt_of_lt_of_eq hpos (Finset.sum_congr rfl fun k _ => ?_)
  refine Eq.trans ?_ (congrArg (adj (ix2 i k) + ·) (eye_apply hb i k))
  exact congrArg (addf adj _) (funext fun a => Fin.ext (by match a with | ⟨0, _⟩ => rfl | ⟨1, _⟩ => rfl))

theorem of_pre (x : FVec Ideal S8192x64 .f32) (adj : FVec Ideal S8192x8192 .f32) (W0 : FVec Ideal S64x128 .f32)
    (b0 : FVec Ideal S128 .f32) (W1 : FVec Ideal S128x128 .f32) (b1 : FVec Ideal S128 .f32)
    (W2 : FVec Ideal S128x64 .f32) (b2 : FVec Ideal S64 .f32)
    (h : Cert.Pre_finite_inputs.fn (F := Ideal) x adj W0 b0 W1 b1 W2 b2 = (fun _ => 1#1)) :
    Gcn.IsReal (S := S8192x64) x ∧ Gcn.IsReal (S := S8192x8192) adj ∧ Gcn.IsReal (S := S64x128) W0
      ∧ Gcn.IsReal (S := S128) b0 ∧ Gcn.IsReal (S := S128x128) W1 ∧ Gcn.IsReal (S := S128) b1
      ∧ Gcn.IsReal (S := S128x64) W2 ∧ Gcn.IsReal (S := S64) b2 ∧ Gcn.RowSumsPos adj := by
  have h0 := congrFun h ix0
  unfold fn at h0
  dsimp only at h0
  unfold fn_part1 at h0
  dsimp only at h0
  unfold fn_part2 at h0
  dsimp only at h0
  -- the nine conjuncts, nested to the left
  obtain ⟨h8, c9⟩ := IntOp.andi_eq_one.1 h0
  obtain ⟨h7, c8⟩ := IntOp.andi_eq_one.1 h8
  obtain ⟨h6, c7⟩ := IntOp.andi_eq_one.1 h7
  obtain ⟨h5, c6⟩ := IntOp.andi_eq_one.1 h6
  obtain ⟨h4, c5⟩ := IntOp.andi_eq_one.1 h5
  obtain ⟨h3, c4⟩ := IntOp.andi_eq_one.1 h4
  obtain ⟨h2, c3⟩ := IntOp.andi_eq_one.1 h3
  obtain ⟨c1, c2⟩ := IntOp.andi_eq_one.1 h2
  exact ⟨isReal_of_all x _ _ _ c1, isReal_of_all adj _ _ _ c2, isReal_of_all W0 _ _ _ c3, isReal_of_all b0 _ _ _ c4,
    isReal_of_all W1 _ _ _ c5, isReal_of_all b1 _ _ _ c6, isReal_of_all W2 _ _ _ c7, isReal_of_all b2 _ _ _ c8,
    rowSumsPos_of_all adj _ _ _ _ _ c9⟩

end Cert.Pre_finite_inputs.Decode

end
-- ==== Proof.Algebra.lean ====
import proofs.«166741_j53910429499630_1_alg».proof.Proof.Spec
import Mathlib.Data.EReal.Basic
import Mathlib.Data.EReal.Operations
import Mathlib.Algebra.BigOperators.Ring.Finset
import Mathlib.Tactic.Ring

/-!
# The two forms of the graph convolution agree on real data

On real arguments with positive row sums every intermediate quantity is a real number, and the two layer
forms differ only by distributing the row factor over the sum and splitting off the identity's summand.
-/

noncomputable section

namespace Gcn

open Idealize.ShloMosaic Idealize.ShloMosaic.ValueIdx

/-- A finite sum of coerced reals is the coercion of the real sum. -/
theorem coe_sum_real {ι : Type*} (s : Finset ι) (f : ι → ℝ) :
    (∑ j ∈ s, ((f j : ℝ) : EReal)) = ((∑ j ∈ s, f j : ℝ) : EReal) := by
  classical
  induction s using Finset.induction_on with
  | empty => simp
  | insert a s ha ih => rw [Finset.sum_insert ha, Finset.sum_insert ha, ih, EReal.coe_add]

/-- The identity's entry is a coerced real. -/
theorem eye_coe (i j : Fin 8192) : eye i j = ((if i = j then (1 : ℝ) else 0 : ℝ) : EReal) := by
  unfold eye
  split_ifs <;> simp

/-- A row of the identity sums to one. -/
theorem sum_eye (i : Fin 8192) : ∑ j : Fin 8192, eye i j = 1 := by
  unfold eye
  rw [Finset.sum_ite_eq]
  simp

/-- The row sum of `Â` is the raw row sum plus one. -/
theorem rowsum_eq (adj : Mat 8192 8192) (i : Fin 8192) :
    ∑ j : Fin 8192, (adj (ix2 i j) + eye i j) = (∑ j : Fin 8192, adj (ix2 i j)) + 1 := by
  rw [Finset.sum_add_distrib, sum_eye]

/-- The two normalisers are one function. -/
theorem dinvK_eq_dinvR (adj : Mat 8192 8192) : dinvK adj = dinvR adj := by
  funext i
  unfold dinvK dinvR
  rw [rowsum_eq]

/-- With real entries and positive row sums the normaliser is real. -/
theorem dinvR_real (adj : Mat 8192 8192) (hadj : IsReal adj) (hpos : RowSumsPos adj) (i : Fin 8192) :
    ∃ r : ℝ, dinvR adj i = (r : EReal) := by
  choose a ha using hadj
  have hs : ∑ j : Fin 8192, (adj (ix2 i j) + eye i j)
      = ((∑ j : Fin 8192, (a (ix2 i j) + (if i = j then (1 : ℝ) else 0)) : ℝ) : EReal) := by
    rw [← coe_sum_real]
    refine Finset.sum_congr rfl (fun j _ => ?_)
    rw [ha, eye_coe, EReal.coe_add]
  have hp := hpos i
  rw [hs, EReal.coe_pos] at hp
  refine ⟨(Real.sqrt (∑ j : Fin 8192, (a (ix2 i j) + (if i = j then (1 : ℝ) else 0))))⁻¹, ?_⟩
  unfold dinvR
  rw [hs, Ideal.rsqrt_coe, if_neg (not_lt.mpr hp.le), if_neg (ne_of_gt hp)]

/-- The feature product of real arrays is real. -/
theorem feat_real {din dout : Nat} (h : Mat 8192 din) (W : Mat din dout) (hh : IsReal h) (hW : IsReal W)
    (j : Fin 8192) (c : Fin dout) : ∃ r : ℝ, feat h W j c = (r : EReal) := by
  choose hr hhr using hh
  choose wr hwr using hW
  refine ⟨∑ k : Fin din, hr (ix2 j k) * wr (ix2 k c), ?_⟩
  unfold feat
  rw [← coe_sum_real]
  refine Finset.sum_congr rfl (fun k _ => ?_)
  rw [hhr, hwr, EReal.coe_mul]

/-- The layer identity over the reals: take the row factor out of the sum and split off the identity's summand. -/
theorem real_core {n : Nat} (i : Fin n) (A D Z : Fin n → ℝ) :
    ((∑ j : Fin n, A j * (Z j * D j)) + Z i * D i) * D i
      = ∑ j : Fin n, ((A j + (if i = j then (1 : ℝ) else 0)) * D i * D j) * Z j := by
  have h : ∀ j : Fin n, ((A j + (if i = j then (1 : ℝ) else 0)) * D i * D j) * Z j
      = (A j * (Z j * D j)) * D i + (if i = j then Z j * D j * D i else 0) := by
    intro j
    split_ifs <;> ring
  rw [Finset.sum_congr rfl (fun j _ => h j), Finset.sum_add_distrib, Finset.sum_ite_eq,
    if_pos (Finset.mem_univ i), ← Finset.sum_mul]
  ring

/-- `relu` of a real array is real. -/
theorem relu_real {r c : Nat} (h : Mat r c) (hh : IsReal h) : IsReal (relu h) := by
  intro y
  obtain ⟨v, hv⟩ := hh y
  refine ⟨max v 0, ?_⟩
  unfold relu
  rw [hv]
  rcases le_total v 0 with h0 | h0
  · rw [max_eq_right h0, max_eq_right (by exact_mod_cast h0)]; rfl
  · rw [max_eq_left h0, max_eq_left (by exact_mod_cast h0)]

/-- The reference layer read at the index with coordinates `i`, `c`. -/
theorem layerR_apply {din dout : Nat} (adj : Mat 8192 8192) (d : Fin 8192 → EReal) (h : Mat 8192 din)
    (W : Mat din dout) (b : Row dout) (i : Fin 8192) (c : Fin dout) :
    layerR adj d h W b (ix2 i c)
      = (∑ j : Fin 8192, ((adj (ix2 i j) + eye i j) * d i * d j) * feat h W j c) + b (ix1 c) := by
  unfold layerR
  rfl

/-- The kernel layer read at the index with coordinates `i`, `c`. -/
theorem layerK_apply {din dout : Nat} (adj : Mat 8192 8192) (d : Fin 8192 → EReal) (h : Mat 8192 din)
    (W : Mat din dout) (b : Row dout) (i : Fin 8192) (c : Fin dout) :
    layerK adj d h W b (ix2 i c)
      = ((∑ j : Fin 8192, adj (ix2 i j) * (feat h W j c * d j)) + feat h W i c * d i) * d i + b (ix1 c) := by
  unfold layerK
  rfl

/-- One layer: on real data the two forms agree, and the result is real. -/
theorem layer_eq {din dout : Nat} (adj : Mat 8192 8192) (d : Fin 8192 → EReal) (h : Mat 8192 din)
    (W : Mat din dout) (b : Row dout) (hadj : IsReal adj) (hd : ∀ i, ∃ r : ℝ, d i = (r : EReal))
    (hh : IsReal h) (hW : IsReal W) (hb : IsReal b) :
    layerK adj d h W b = layerR adj d h W b ∧ IsReal (layerR adj d h W b) := by
  choose a ha using hadj
  choose dr hdr using hd
  choose z hz using feat_real h W hh hW
  choose br hbr using hb
  have hR : ∀ (i : Fin 8192) (c : Fin dout), layerR adj d h W b (ix2 i c)
      = ((∑ j : Fin 8192, ((a (ix2 i j) + (if i = j then (1 : ℝ) else 0)) * dr i * dr j) * z j c)
          + br (ix1 c) : ℝ) := by
    intro i c
    have hsum : ∑ j : Fin 8192, ((adj (ix2 i j) + eye i j) * d i * d j) * feat h W j c
        = ((∑ j : Fin 8192, ((a (ix2 i j) + (if i = j then (1 : ℝ) else 0)) * dr i * dr j) * z j c : ℝ) : EReal) := by
      rw [← coe_sum_real]
      refine Finset.sum_congr rfl (fun j _ => ?_)
      rw [ha, eye_coe, hdr, hdr, hz, EReal.coe_mul, EReal.coe_mul, EReal.coe_mul, EReal.coe_add]
    rw [layerR_apply, hsum, hbr, ← EReal.coe_add]
  have hK : ∀ (i : Fin 8192) (c : Fin dout), layerK adj d h W b (ix2 i c)
      = ((((∑ j : Fin 8192, a (ix2 i j) * (z j c * dr j)) + z i c * dr i) * dr i)
          + br (ix1 c) : ℝ) := by
    intro i c
    have hsum : ∑ j : Fin 8192, adj (ix2 i j) * (feat h W j c * d j)
        = ((∑ j : Fin 8192, a (ix2 i j) * (z j c * dr j) : ℝ) : EReal) := by
      rw [← coe_sum_real]
      refine Finset.sum_congr rfl (fun j _ => ?_)
      rw [ha, hdr, hz, EReal.coe_mul, EReal.coe_mul]
    rw [layerK_apply, hsum, hbr, hdr, hz, ← EReal.coe_mul, ← EReal.coe_add, ← EReal.coe_mul, ← EReal.coe_add]
  have hix : ∀ y : (⟨2, ![8192, dout]⟩ : Shape).Idx, ∃ (i : Fin 8192) (c : Fin dout), y = ix2 i c :=
    fun y => ⟨y 0, y 1, eq_ix2 y⟩
  refine ⟨?_, fun y => ?_⟩
  · funext y
    obtain ⟨i, c, rfl⟩ := hix y
    rw [hK, hR, real_core]
  · obtain ⟨i, c, rfl⟩ := hix y
    exact ⟨_, hR i c⟩

theorem outK_eq_outR (adj : Mat 8192 8192) (x : Mat 8192 64) (W0 : Mat 64 128) (b0 : Row 128) (W1 : Mat 128 128) (b1 : Row 128)
    (W2 : Mat 128 64) (b2 : Row 64)
    (hx : IsReal x) (hadj : IsReal adj) (hW0 : IsReal W0) (hb0 : IsReal b0) (hW1 : IsReal W1) (hb1 : IsReal b1)
    (hW2 : IsReal W2) (hb2 : IsReal b2) (hpos : RowSumsPos adj) :
    outK adj x W0 b0 W1 b1 W2 b2 = outR adj x W0 b0 W1 b1 W2 b2 := by
  have hd := dinvR_real adj hadj hpos
  unfold outK outR
  rw [dinvK_eq_dinvR]
  obtain ⟨e0, r0⟩ := layer_eq adj (dinvR adj) x W0 b0 hadj hd hx hW0 hb0
  rw [e0]
  obtain ⟨e1, r1⟩ := layer_eq adj (dinvR adj) (relu (layerR adj (dinvR adj) x W0 b0)) W1 b1 hadj hd
    (relu_real _ r0) hW1 hb1
  rw [e1]
  exact (layer_eq adj (dinvR adj) (relu (layerR adj (dinvR adj) (relu (layerR adj (dinvR adj) x W0 b0)) W1 b1))
    W2 b2 hadj hd (relu_real _ r1) hW2 hb2).1

end Gcn

end
-- ==== Proof.lean ====
/-
  A three-layer graph convolution: the fused kernels against the plain reference, over the extended reals.

  With `Â = adj + I` and `d i = (Σ_j Â i j)^(-1/2)`, a layer sends `h` to `(D Â D)(h W) + b`. The reference builds
  `D Â D` entry by entry. The kernels first compute `d` as `(Σ_j adj i j + 1)^(-1/2)` row block by row block, then
  each layer as `((Σ_j adj i j · (z j · d j)) + z i · d i) · d i + b` with `z = h W`, the sum over `j` accumulated over
  eight column blocks. The two agree where every `d i` is a positive real and the inputs are real: the precondition
  asks for finite inputs and positive row sums of `Â` (where the reference's own inverse square root is defined), and
  under it the equality is distributivity over the reals (`Gcn.outK_eq_outR`).

  The frames: each program runs to the end, faults nowhere and leaves its arguments as launched; for the two kernel
  programs this is the run of @main's four regions (`Hand.run_all`), for the reference its run of host operations.
  What the kernels' result array holds after the run is `Gcn.outK` of the arguments (`Hand.E4_out`), what the
  reference's holds is `Gcn.outR` of them (`RefValue.res_eq`).
-/
import proofs.«166741_j53910429499630_1_alg».proof.Defs
import proofs.«166741_j53910429499630_1_alg».proof.Proof.Gen.Kernel
import proofs.«166741_j53910429499630_1_alg».proof.Proof.Gen.Kernel.Skeleton
import proofs.«166741_j53910429499630_1_alg».proof.Proof.Gen.Kernel.Launch
import proofs.«166741_j53910429499630_1_alg».proof.Proof.Gen.Kernel.Regions
import proofs.«166741_j53910429499630_1_alg».proof.Proof.Gen.Kernel.Points
import proofs.«166741_j53910429499630_1_alg».proof.Proof.Gen.KernelIdeal
import proofs.«166741_j53910429499630_1_alg».proof.Proof.Gen.KernelIdeal.Skeleton
import proofs.«166741_j53910429499630_1_alg».proof.Proof.Gen.KernelIdeal.Launch
import proofs.«166741_j53910429499630_1_alg».proof.Proof.Gen.KernelIdeal.Regions
import proofs.«166741_j53910429499630_1_alg».proof.Proof.Gen.KernelIdeal.Points
import proofs.«166741_j53910429499630_1_alg».proof.Proof.Gen.ReferenceIdeal
import proofs.«166741_j53910429499630_1_alg».proof.Proof.Gen.Pre_finite_inputs
import proofs.«166741_j53910429499630_1_alg».proof.Proof.KFrameRun
import proofs.«166741_j53910429499630_1_alg».proof.Proof.FrameRun
import proofs.«166741_j53910429499630_1_alg».proof.Proof.ValRun
import proofs.«166741_j53910429499630_1_alg».proof.Proof.Ref
import proofs.«166741_j53910429499630_1_alg».proof.Proof.PreDecode
import proofs.«166741_j53910429499630_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernels run to the end and leave the arguments as launched. -/
theorem frame_k : Cert.frame_Kernel := fun m ρ _ => Cert.Kernel.Hand.frame (F := Bits) m ρ

/-- So do the kernels read over the extended reals. -/
theorem frame_ki : Cert.frame_KernelIdeal := fun m ρ _ => Cert.KernelIdeal.Hand.frame (F := Ideal) m ρ

/-- And the reference: its run of host operations, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with one result: the kernels' `Gcn.outK` and the
    reference's `Gcn.outR` of real arguments with positive row sums of `adj + I`. -/
theorem algebraic : Cert.algebraic_KernelIdeal_ReferenceIdeal := by
  intro m ρ m' ρ' hpre hagree
  refine ⟨fun c => Cert.KernelIdeal.Hand.E4 (F := Ideal) m c (Proc.devRef .tc Cert.KernelIdeal.main_v3),
    Cert.KernelIdeal.Hand.run_out (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hx, hadj, hW0, hb0, hW1, hb1, hW2, hb2, hpos⟩ := Cert.Pre_finite_inputs.Decode.of_pre _ _ _ _ _ _ _ _ (hpre c)
  have h0 := (hagree c).1
  have h1 := (hagree c).2.1
  have h2 := (hagree c).2.2.1
  have h3 := (hagree c).2.2.2.1
  have h4 := (hagree c).2.2.2.2.1
  have h5 := (hagree c).2.2.2.2.2.1
  have h6 := (hagree c).2.2.2.2.2.2.1
  have h7 := (hagree c).2.2.2.2.2.2.2
  refine (Cert.ReferenceIdeal.RefValue.res_eq m' c).trans ?_
  rw [h0, h1, h2, h3, h4, h5, h6, h7]
  exact (Gcn.outK_eq_outR _ _ _ _ _ _ _ _ hx hadj hW0 hb0 hW1 hb1 hW2 hb2 hpos).symm.trans
    (Cert.KernelIdeal.Hand.E4_out m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
